-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v11_0)) (v1 : (c : Dev Cert.KernelIdeal.nD) → Buf (Elt Ideal) ((c.tc : Thread Cert.KernelIdeal.nD Cert.KernelIdeal.τ).loc Cert.KernelIdeal.main_v11_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11_0) = v0 c
          ∧ r.2.mem ((c.tc : Thread Cert.KernelIdeal.nD Cert.KernelIdeal.τ).loc Cert.KernelIdeal.main_v11_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_v68) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x256 : Shape := ⟨2, ![131072, 256]⟩
abbrev S256x256 : Shape := ⟨2, ![256, 256]⟩
abbrev S256 : Shape := ⟨1, ![256]⟩
abbrev S_ : Shape := ⟨0, ![]⟩

class Facts : Prop where
  bcast_S_S131072x256 : S_.BroadcastsInDim S131072x256 (![] : Fin 0 → Fin S131072x256.rank)
  reducesTo_S131072x256_S_d0_1 : S131072x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part6 {F : FTy → Type} [FloatOps F] (main_arg21 : FVec F S256x256 .f32) (main_arg22 : FVec F S256x256 .f32) (main_v98 : IVec S_ 1) (main_v101 : IVec S256x256 1) (main_c_39 : IVec S_ 1) : IVec S_ 1 :=
  let main_v102 : IVec S_ 1 := (fun x v => Host.reduce IntOp.andi x v reducesTo_S256x256_S_d0_1 h_S_) main_v101 main_c_39
  let main_v103 : IVec S_ 1 := andi main_v98 main_v102
  let main_v104 : FVec F S256x256 .f32 := Host.absf main_arg21
  let main_cst_40 : FVec F S_ .f32 := constant S_ .f32 0x7F800000#32
  let main_v105 : FVec F S256x256 .f32 := broadcastInDim S256x256 ![] bcast_S_S256x256 main_cst_40
  let main_v106 : IVec S256x256 1 := cmpf .olt main_v104 main_v105
  let main_c_41 : IVec S_ 1 := constantI S_ 1 1#1
  let main_v107 : IVec S_ 1 := (fun x v => Host.reduce IntOp.andi x v reducesTo_S256x256_S_d0_1 h_S_) main_v106 main_c_41
  let main_v108 : IVec S_ 1 := andi main_v103 main_v107
  let main_v109 : FVec F S256x256 .f32 := Host.absf main_arg22
  let main_cst_42 : FVec F S_ .f32 := constant S_ .f32 0x7F800000#32
  let main_v110 : FVec F S256x256 .f32 := broadcastInDim S256x256 ![] bcast_S_S256x256 main_cst_42
  let main_v111 : IVec S256x256 1 := cmpf .olt main_v109 main_v110
  let main_c_43 : IVec S_ 1 := constantI S_ 1 1#1
  let main_v112 : IVec S_ 1 := (fun x v => Host.reduce IntOp.andi x v reducesTo_S256x256_S_d0_1 h_S_) main_v111 main_c_43
  let main_v113 : IVec S_ 1 := andi main_v108 main_v112
  main_v113

def fn_part5 {F : FTy → Type} [FloatOps F] (main_arg18 : FVec F S256x256 .f32) (main_arg19 : FVec F S256x256 .f32) (main_arg20 : FVec F S256x256 .f32) (main_arg21 : FVec F S256x256 .f32) (main_arg22 : FVec F S256x256 .f32) (main_v83 : IVec S_ 1) (main_v84 : FVec F S256x256 .f32) (main_cst_32 : FVec F S_ .f32) : IVec S_ 1 :=
  let main_v85 : FVec F S256x256 .f32 := broadcastInDim S256x256 ![] bcast_S_S256x256 main_cst_32
  let main_v86 : IVec S256x256 1 := cmpf .olt main_v84 main_v85
  let main_c_33 : IVec S_ 1 := constantI S_ 1 1#1
  let main_v87 : IVec S_ 1 := (fun x v => Host.reduce IntOp.andi x v reducesTo_S256x256_S_d0_1 h_S_) main_v86 main_c_33
  let main_v88 : IVec S_ 1 := andi main_v83 main_v87
  let main_v89 : FVec F S256x256 .f32 := Host.absf main_arg18
  let main_cst_34 : FVec F S_ .f32 := constant S_ .f32 0x7F800000#32
  let main_v90 : FVec F S256x256 .f32 := broadcastInDim S256x256 ![] bcast_S_S256x256 main_cst_34
  let main_v91 : IVec S256x256 1 := cmpf .olt main_v89 main_v90
  let main_c_35 : IVec S_ 1 := constantI S_ 1 1#1
  let main_v92 : IVec S_ 1 := (fun x v => Host.reduce IntOp.andi x v reducesTo_S256x256_S_d0_1 h_S_) main_v91 main_c_35
  let main_v93 : IVec S_ 1 := andi main_v88 main_v92
  let main_v94 : FVec F S256x256 .f32 := Host.absf main_arg19
  let main_cst_36 : FVec F S_ .f32 := constant S_ .f32 0x7F800000#32
  let main_v95 : FVec F S256x256 .f32 := broadcastInDim S256x256 ![] bcast_S_S256x256 main_cst_36
  let main_v96 : IVec S256x256 1 := cmpf .olt main_v94 main_v95
  let main_c_37 : IVec S_ 1 := constantI S_ 1 1#1
  let main_v97 : IVec S_ 1 := (fun x v => Host.reduce IntOp.andi x v reducesTo_S256x256_S_d0_1 h_S_) main_v96 main_c_37
  let main_v98 : IVec S_ 1 := andi main_v93 main_v97
  let main_v99 : FVec F S256x256 .f32 := Host.absf main_arg20
  let main_cst_38 : FVec F S_ .f32 := constant S_ .f32 0x7F800000#32
  let main_v100 : FVec F S256x256 .f32 := broadcastInDim S256x256 ![] bcast_S_S256x256 main_cst_38
  let main_v101 : IVec S256x256 1 := cmpf .olt main_v99 main_v100
  let main_c_39 : IVec S_ 1 := constantI S_ 1 1#1
  fn_part6 (F := F) main_arg21 main_arg22 main_v98 main_v101 main_c_39

def fn_part4 {F : FTy → Type} [FloatOps F] (main_arg14 : FVec F S256x256 .f32) (main_arg15 : FVec F S256x256 .f32) (main_arg16 : FVec F S256x256 .f32) (main_arg17 : FVec F S256x256 .f32) (main_arg18 : FVec F S256x256 .f32) (main_arg19 : FVec F S256x256 .f32) (main_arg20 : FVec F S256x256 .f32) (main_arg21 : FVec F S256x256 .f32) (main_arg22 : FVec F S256x256 .f32) (main_v63 : IVec S_ 1) (main_v67 : IVec S_ 1) : IVec S_ 1 :=
  let main_v68 : IVec S_ 1 := andi main_v63 main_v67
  let main_v69 : FVec F S256x256 .f32 := Host.absf main_arg14
  let main_cst_26 : FVec F S_ .f32 := constant S_ .f32 0x7F800000#32
  let main_v70 : FVec F S256x256 .f32 := broadcastInDim S256x256 ![] bcast_S_S256x256 main_cst_26
  let main_v71 : IVec S256x256 1 := cmpf .olt main_v69 main_v70
  let main_c_27 : IVec S_ 1 := constantI S_ 1 1#1
  let main_v72 : IVec S_ 1 := (fun x v => Host.reduce IntOp.andi x v reducesTo_S256x256_S_d0_1 h_S_) main_v71 main_c_27
  let main_v73 : IVec S_ 1 := andi main_v68 main_v72
  let main_v74 : FVec F S256x256 .f32 := Host.absf main_arg15
  let main_cst_28 : FVec F S_ .f32 := constant S_ .f32 0x7F800000#32
  let main_v75 : FVec F S256x256 .f32 := broadcastInDim S256x256 ![] bcast_S_S256x256 main_cst_28
  let main_v76 : IVec S256x256 1 := cmpf .olt main_v74 main_v75
  let main_c_29 : IVec S_ 1 := constantI S_ 1 1#1
  let main_v77 : IVec S_ 1 := (fun x v => Host.reduce IntOp.andi x v reducesTo_S256x256_S_d0_1 h_S_) main_v76 main_c_29
  let main_v78 : IVec S_ 1 := andi main_v73 main_v77
  let main_v79 : FVec F S256x256 .f32 := Host.absf main_arg16
  let main_cst_30 : FVec F S_ .f32 := constant S_ .f32 0x7F800000#32
  let main_v80 : FVec F S256x256 .f32 := broadcastInDim S256x256 ![] bcast_S_S256x256 main_cst_30
  let main_v81 : IVec S256x256 1 := cmpf .olt main_v79 main_v80
  let main_c_31 : IVec S_ 1 := constantI S_ 1 1#1
  let main_v82 : IVec S_ 1 := (fun x v => Host.reduce IntOp.andi x v reducesTo_S256x256_S_d0_1 h_S_) main_v81 main_c_31
  let main_v83 : IVec S_ 1 := andi main_v78 main_v82
  let main_v84 : FVec F S256x256 .f32 := Host.absf main_arg17
  let main_cst_32 : FVec F S_ .f32 := constant S_ .f32 0x7F800000#32
  fn_part5 (F := F) main_arg18 main_arg19 main_arg20 main_arg21 main_arg22 main_v83 main_v84 main_cst_32

def fn_part3 {F : FTy → Type} [FloatOps F] (main_arg11 : FVec F S256x256 .f32) (main_arg12 : FVec F S256 .f32) (main_arg13 : FVec F S256x256 .f32) (main_arg14 : FVec F S256x256 .f32) (main_arg15 : FVec F S256x256 .f32) (main_arg16 : FVec F S256x256 .f32) (main_arg17 : FVec F S256x256 .f32) (main_arg18 : FVec F S256x256 .f32) (main_arg19 : FVec F S256x256 .f32) (main_arg20 : FVec F S256x256 .f32) (main_arg21 : FVec F S256x256 .f32) (main_arg22 : FVec F S256x256 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256x256 .f32 := Host.absf main_arg11
  let main_cst_20 : FVec F S_ .f32 := constant S_ .f32 0x7F800000#32
  let main_v55 : FVec F S256x256 .f32 := broadcastInDim S256x256 ![] bcast_S_S256x256 main_cst_20
  let main_v56 : IVec S256x256 1 := cmpf .olt main_v54 main_v55
  let main_c_21 : IVec S_ 1 := constantI S_ 1 1#1
  let main_v57 : IVec S_ 1 := (fun x v => Host.reduce IntOp.andi x v reducesTo_S256x256_S_d0_1 h_S_) main_v56 main_c_21
  let main_v58 : IVec S_ 1 := andi main_v53 main_v57
  let main_v59 : FVec F S256 .f32 := Host.absf main_arg12
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256x256 .f32 := Host.absf main_arg13
  let main_cst_24 : FVec F S_ .f32 := constant S_ .f32 0x7F800000#32
  let main_v65 : FVec F S256x256 .f32 := broadcastInDim S256x256 ![] bcast_S_S256x256 main_cst_24
  let main_v66 : IVec S256x256 1 := cmpf .olt main_v64 main_v65
  let main_c_25 : IVec S_ 1 := constantI S_ 1 1#1
  let main_v67 : IVec S_ 1 := (fun x v => Host.reduce IntOp.andi x v reducesTo_S256x256_S_d0_1 h_S_) main_v66 main_c_25
  fn_part4 (F := F) main_arg14 main_arg15 main_arg16 main_arg17 main_arg18 main_arg19 main_arg20 main_arg21 main_arg22 main_v63 main_v67

def fn_part2 {F : FTy → Type} [FloatOps F] (main_arg7 : FVec F S256x256 .f32) (main_arg8 : FVec F S256 .f32) (main_arg9 : FVec F S256x256 .f32) (main_arg10 : FVec F S256 .f32) (main_arg11 : FVec F S256x256 .f32) (main_arg12 : FVec F S256 .f32) (main_arg13 : FVec F S256x256 .f32) (main_arg14 : FVec F S256x256 .f32) (main_arg15 : FVec F S256x256 .f32) (main_arg16 : FVec F S256x256 .f32) (main_arg17 : FVec F S256x256 .f32) (main_arg18 : FVec F S256x256 .f32) (main_arg19 : FVec F S256x256 .f32) (main_arg20 : FVec F S256x256 .f32) (main_arg21 : FVec F S256x256 .f32) (main_arg22 : FVec F S256x256 .f32) (main_v33 : IVec S_ 1) : IVec S_ 1 :=
  let main_v34 : FVec F S256x256 .f32 := Host.absf main_arg7
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x256 .f32 := Host.absf main_arg9
  let main_cst_16 : FVec F S_ .f32 := constant S_ .f32 0x7F800000#32
  let main_v45 : FVec F S256x256 .f32 := broadcastInDim S256x256 ![] bcast_S_S256x256 main_cst_16
  let main_v46 : IVec S256x256 1 := cmpf .olt main_v44 main_v45
  let main_c_17 : IVec S_ 1 := constantI S_ 1 1#1
  let main_v47 : IVec S_ 1 := (fun x v => Host.reduce IntOp.andi x v reducesTo_S256x256_S_d0_1 h_S_) main_v46 main_c_17
  let main_v48 : IVec S_ 1 := andi main_v43 main_v47
  let main_v49 : FVec F S256 .f32 := Host.absf main_arg10
  let main_cst_18 : FVec F S_ .f32 := constant S_ .f32 0x7F800000#32
  let main_v50 : FVec F S256 .f32 := broadcastInDim S256 ![] bcast_S_S256 main_cst_18
  fn_part3 (F := F) main_arg11 main_arg12 main_arg13 main_arg14 main_arg15 main_arg16 main_arg17 main_arg18 main_arg19 main_arg20 main_arg21 main_arg22 main_v48 main_v49 main_v50

def fn_part1 {F : FTy → Type} [FloatOps F] (main_arg4 : FVec F S131072x256 .f32) (main_arg5 : FVec F S256x256 .f32) (main_arg6 : FVec F S256 .f32) (main_arg7 : FVec F S256x256 .f32) (main_arg8 : FVec F S256 .f32) (main_arg9 : FVec F S256x256 .f32) (main_arg10 : FVec F S256 .f32) (main_arg11 : FVec F S256x256 .f32) (main_arg12 : FVec F S256 .f32) (main_arg13 : FVec F S256x256 .f32) (main_arg14 : FVec F S256x256 .f32) (main_arg15 : FVec F S256x256 .f32) (main_arg16 : FVec F S256x256 .f32) (main_arg17 : FVec F S256x256 .f32) (main_arg18 : FVec F S256x256 .f32) (main_arg19 : FVec F S256x256 .f32) (main_arg20 : FVec F S256x256 .f32) (main_arg21 : FVec F S256x256 .f32) (main_arg22 : FVec F S256x256 .f32) (main_v13 : IVec S_ 1) (main_v16 : IVec S131072x256 1) : IVec S_ 1 :=
  let main_c_5 : IVec S_ 1 := constantI S_ 1 1#1
  let main_v17 : IVec S_ 1 := (fun x v => Host.reduce IntOp.andi x v reducesTo_S131072x256_S_d0_1 h_S_) main_v16 main_c_5
  let main_v18 : IVec S_ 1 := andi main_v13 main_v17
  let main_v19 : FVec F S131072x256 .f32 := Host.absf main_arg4
  let main_cst_6 : FVec F S_ .f32 := constant S_ .f32 0x7F800000#32
  let main_v20 : FVec F S131072x256 .f32 := broadcastInDim S131072x256 ![] bcast_S_S131072x256 main_cst_6
  let main_v21 : IVec S131072x256 1 := cmpf .olt main_v19 main_v20
  let main_c_7 : IVec S_ 1 := constantI S_ 1 1#1
  let main_v22 : IVec S_ 1 := (fun x v => Host.reduce IntOp.andi x v reducesTo_S131072x256_S_d0_1 h_S_) main_v21 main_c_7
  let main_v23 : IVec S_ 1 := andi main_v18 main_v22
  let main_v24 : FVec F S256x256 .f32 := Host.absf main_arg5
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_v33

def fn {F : FTy → Type} [FloatOps F] (main_arg0 : FVec F S131072x256 .f32) (main_arg1 : FVec F S131072x256 .f32) (main_arg2 : FVec F S131072x256 .f32) (main_arg3 : FVec F S131072x256 .f32) (main_arg4 : FVec F S131072x256 .f32) (main_arg5 : FVec F S256x256 .f32) (main_arg6 : FVec F S256 .f32) (main_arg7 : FVec F S256x256 .f32) (main_arg8 : FVec F S256 .f32) (main_arg9 : FVec F S256x256 .f32) (main_arg10 : FVec F S256 .f32) (main_arg11 : FVec F S256x256 .f32) (main_arg12 : FVec F S256 .f32) (main_arg13 : FVec F S256x256 .f32) (main_arg14 : FVec F S256x256 .f32) (main_arg15 : FVec F S256x256 .f32) (main_arg16 : FVec F S256x256 .f32) (main_arg17 : FVec F S256x256 .f32) (main_arg18 : FVec F S256x256 .f32) (main_arg19 : FVec F S256x256 .f32) (main_arg20 : FVec F S256x256 .f32) (main_arg21 : FVec F S256x256 .f32) (main_arg22 : FVec F S256x256 .f32) : IVec S_ 1 :=
  let main_v0 : FVec F S131072x256 .f32 := Host.absf main_arg0
  let main_cst : FVec F S_ .f32 := constant S_ .f32 0x7F800000#32
  let main_v1 : FVec F S131072x256 .f32 := broadcastInDim S131072x256 ![] bcast_S_S131072x256 main_cst
  let main_v2 : IVec S131072x256 1 := cmpf .olt main_v0 main_v1
  let main_c : IVec S_ 1 := constantI S_ 1 1#1
  let main_v3 : IVec S_ 1 := (fun x v => Host.reduce IntOp.andi x v reducesTo_S131072x256_S_d0_1 h_S_) main_v2 main_c
  let main_v4 : FVec F S131072x256 .f32 := Host.absf main_arg1
  let main_cst_0 : FVec F S_ .f32 := constant S_ .f32 0x7F800000#32
  let main_v5 : FVec F S131072x256 .f32 := broadcastInDim S131072x256 ![] bcast_S_S131072x256 main_cst_0
  let main_v6 : IVec S131072x256 1 := cmpf .olt main_v4 main_v5
  let main_c_1 : IVec S_ 1 := constantI S_ 1 1#1
  let main_v7 : IVec S_ 1 := (fun x v => Host.reduce IntOp.andi x v reducesTo_S131072x256_S_d0_1 h_S_) main_v6 main_c_1
  let main_v8 : IVec S_ 1 := andi main_v3 main_v7
  let main_v9 : FVec F S131072x256 .f32 := Host.absf main_arg2
  let main_cst_2 : FVec F S_ .f32 := constant S_ .f32 0x7F800000#32
  let main_v10 : FVec F S131072x256 .f32 := broadcastInDim S131072x256 ![] bcast_S_S131072x256 main_cst_2
  let main_v11 : IVec S131072x256 1 := cmpf .olt main_v9 main_v10
  let main_c_3 : IVec S_ 1 := constantI S_ 1 1#1
  let main_v12 : IVec S_ 1 := (fun x v => Host.reduce IntOp.andi x v reducesTo_S131072x256_S_d0_1 h_S_) main_v11 main_c_3
  let main_v13 : IVec S_ 1 := andi main_v8 main_v12
  let main_v14 : FVec F S131072x256 .f32 := Host.absf main_arg3
  let main_cst_4 : FVec F S_ .f32 := constant S_ .f32 0x7F800000#32
  let main_v15 : FVec F S131072x256 .f32 := broadcastInDim S131072x256 ![] bcast_S_S131072x256 main_cst_4
  let main_v16 : IVec S131072x256 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_v13 main_v16
-- ==== Kernel.lean ====
abbrev S131072x256 : Shape := ⟨2, ![131072, 256]⟩
abbrev S256x256 : Shape := ⟨2, ![256, 256]⟩
abbrev S256 : Shape := ⟨1, ![256]⟩
abbrev S1024x256 : Shape := ⟨2, ![1024, 256]⟩
abbrev S1024 : Shape := ⟨1, ![1024]⟩
abbrev S1280x256 : Shape := ⟨2, ![1280, 256]⟩
abbrev S256x1024 : Shape := ⟨2, ![256, 1024]⟩
abbrev S256x1280 : Shape := ⟨2, ![256, 1280]⟩
abbrev S1x1024 : Shape := ⟨2, ![1, 1024]⟩
abbrev S1024x1024 : Shape := ⟨2, ![1024, 1024]⟩
abbrev S1024x1280 : Shape := ⟨2, ![1024, 1280]⟩

abbrev nBuf : Space → Nat
  | .hbm => 36
  | .vmem => 18
  | .smem => 0
  | _ => 0

abbrev bufTy : (tb : Table) → Fin (tcTables nBuf tb) → BufTy
  | .hbm, ⟨0, _⟩ => ⟨S131072x256, .f32⟩
  | .hbm, ⟨1, _⟩ => ⟨S131072x256, .f32⟩
  | .hbm, ⟨2, _⟩ => ⟨S131072x256, .f32⟩
  | .hbm, ⟨3, _⟩ => ⟨S131072x256, .f32⟩
  | .hbm, ⟨4, _⟩ => ⟨S131072x256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S256x256, .f32⟩
  | .hbm, ⟨12, _⟩ => ⟨S256, .f32⟩
  | .hbm, ⟨13, _⟩ => ⟨S256x256, .f32⟩
  | .hbm, ⟨14, _⟩ => ⟨S256x256, .f32⟩
  | .hbm, ⟨15, _⟩ => ⟨S256x256, .f32⟩
  | .hbm, ⟨16, _⟩ => ⟨S256x256, .f32⟩
  | .hbm, ⟨17, _⟩ => ⟨S256x256, .f32⟩
  | .hbm, ⟨18, _⟩ => ⟨S256x256, .f32⟩
  | .hbm, ⟨19, _⟩ => ⟨S256x256, .f32⟩
  | .hbm, ⟨20, _⟩ => ⟨S256x256, .f32⟩
  | .hbm, ⟨21, _⟩ => ⟨S256x256, .f32⟩
  | .hbm, ⟨22, _⟩ => ⟨S256x256, .f32⟩
  | .hbm, ⟨23, _⟩ => ⟨S1024x256, .f32⟩
  | .hbm, ⟨24, _⟩ => ⟨S1024, .f32⟩
  | .hbm, ⟨25, _⟩ => ⟨S1280x256, .f32⟩
  | .hbm, ⟨26, _⟩ => ⟨S1280x256, .f32⟩
  | .hbm, ⟨27, _⟩ => ⟨S256x1024, .f32⟩
  | .hbm, ⟨28, _⟩ => ⟨S256x1024, .bf16⟩
  | .hbm, ⟨29, _⟩ => ⟨S256x1280, .f32⟩
  | .hbm, ⟨30, _⟩ => ⟨S256x1280, .bf16⟩
  | .hbm, ⟨31, _⟩ => ⟨S256x1280, .f32⟩
  | .hbm, ⟨32, _⟩ => ⟨S256x1280, .bf16⟩
  | .hbm, ⟨33, _⟩ => ⟨S1x1024, .f32⟩
  | .hbm, ⟨34, _⟩ => ⟨S131072x256, .f32⟩
  | .hbm, ⟨35, _⟩ => ⟨S131072x256, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | .local _ .vmem, ⟨7, _⟩ => ⟨S1024x256, .f32⟩
  | .local _ .vmem, ⟨8, _⟩ => ⟨S1024x256, .f32⟩
  | .local _ .vmem, ⟨9, _⟩ => ⟨S1024x256, .f32⟩
  | .local _ .vmem, ⟨10, _⟩ => ⟨S256x1024, .bf16⟩
  | .local _ .vmem, ⟨11, _⟩ => ⟨S1x1024, .f32⟩
  | .local _ .vmem, ⟨12, _⟩ => ⟨S256x1280, .bf16⟩
  | .local _ .vmem, ⟨13, _⟩ => ⟨S256x1280, .bf16⟩
  | .local _ .vmem, ⟨14, _⟩ => ⟨S1024x256, .f32⟩
  | .local _ .vmem, ⟨15, _⟩ => ⟨S1024x256, .f32⟩
  | .local _ .vmem, ⟨16, _⟩ => ⟨S1024x256, .f32⟩
  | .local _ .vmem, ⟨17, _⟩ => ⟨S1024x256, .f32⟩
  | _, _ => ⟨S131072x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11_0 : Ref sig .tc := ⟨.hbm, 34, rfl⟩
abbrev main_v11_1 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1280 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x1280 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  concatenates_S256x256_S256x256_S256x256_S256x256_S1024x256_d0 : Shape.Concatenates [S256x256, S256x256, S256x256, S256x256] S1024x256 0
  concatenates_S256_S256_S256_S256_S1024_d0 : Shape.Concatenates [S256, S256, S256, S256] S1024 0
  concatenates_S256x256_S256x256_S256x256_S256x256_S256x256_S1280x256_d0 : Shape.Concatenates [S256x256, S256x256, S256x256, S256x256, S256x256] S1280x256 0
  transposes_S1024x256_S256x1024_1_0 : S1024x256.Transposes [1, 0] S256x1024
  bitsLt_bf16_f32 : FTy.bits .bf16 < FTy.bits .f32
  transposes_S1280x256_S256x1280_1_0 : S1280x256.Transposes [1, 0] S256x1280
  shapeCasts_S1024_S1x1024 : S1024.ShapeCasts S1x1024
  inb_S1024x256_S1024x256_0_0 : ∀ a, (![0, 0] : Fin 2 → Nat) a + S1024x256.size a ≤ S1024x256.size a
  h_S1024x256 : 0 < S1024x256.numel
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S256x1280_S256x1280_0_0 : ∀ a, (![0, 0] : Fin 2 → Nat) a + S256x1280.size a ≤ S256x1280.size a
  h_S256x1280 : 0 < S256x1280.numel
  shapeCasts_S256x1280_S256x1280 : S256x1280.ShapeCasts S256x1280
  broadcasts_S1x1024_S1024x1024 : S1x1024.Broadcasts S1024x1024
  slices_S1024x1024_o0_0_S1024x256 : S1024x1024.Slices ![0, 0] S1024x256
  slices_S1024x1024_o0_256_S1024x256 : S1024x1024.Slices ![0, 256] S1024x256
  slices_S1024x1024_o0_512_S1024x256 : S1024x1024.Slices ![0, 512] S1024x256
  slices_S1024x1024_o0_768_S1024x256 : S1024x1024.Slices ![0, 768] S1024x256
  slices_S1024x1280_o0_0_S1024x256 : S1024x1280.Slices ![0, 0] S1024x256
  slices_S1024x1280_o0_256_S1024x256 : S1024x1280.Slices ![0, 256] S1024x256
  slices_S1024x1280_o0_512_S1024x256 : S1024x1280.Slices ![0, 512] S1024x256
  slices_S1024x1280_o0_768_S1024x256 : S1024x1280.Slices ![0, 768] S1024x256
  slices_S1024x1280_o0_1024_S1024x256 : S1024x1280.Slices ![0, 1024] S1024x256
  dot_S1024x256_S256x1024_S1024x1024_1_0_0_1_n_n_wf : DotDims.WF S1024x256 S256x1024 S1024x1024 [1] [0] [0] [1] [] []
  dot_S1024x256_S256x1280_S1024x1280_1_0_0_1_n_n_wf : DotDims.WF S1024x256 S256x1280 S1024x1280 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S131072x256.size a
  hwx0_0 : ∀ i : grid0.Coords, EltTy.bits .f32 = 32 ∨ (Rect.block (s := S131072x256) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S131072x256.size a
  hwx0_1 : ∀ i : grid0.Coords, EltTy.bits .f32 = 32 ∨ (Rect.block (s := S131072x256) S1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S131072x256.size a
  hwx0_2 : ∀ i : grid0.Coords, EltTy.bits .f32 = 32 ∨ (Rect.block (s := S131072x256) S1024x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x256.size a ≤ S131072x256.size a
  hwx0_3 : ∀ i : grid0.Coords, EltTy.bits .f32 = 32 ∨ (Rect.block (s := S131072x256) S1024x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x256.size a ≤ S131072x256.size a
  hwx0_4 : ∀ i : grid0.Coords, EltTy.bits .f32 = 32 ∨ (Rect.block (s := S131072x256) S1024x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x1024.size a ≤ S256x1024.size a
  hwx0_5 : ∀ i : grid0.Coords, EltTy.bits .bf16 = 32 ∨ (Rect.block (s := S256x1024) S256x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x1280.size a ≤ S256x1280.size a
  hwx0_7 : ∀ i : grid0.Coords, EltTy.bits .bf16 = 32 ∨ (Rect.block (s := S256x1280) S256x1280.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256x1280.size a ≤ S256x1280.size a
  hwx0_8 : ∀ i : grid0.Coords, EltTy.bits .bf16 = 32 ∨ (Rect.block (s := S256x1280) S256x1280.size (cc0_transform_8 i) (hinb0_8 i)).WholeWords (EltTy.packing .bf16)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1024x256.size a ≤ S131072x256.size a
  hwx0_9 : ∀ i : grid0.Coords, EltTy.bits .f32 = 32 ∨ (Rect.block (s := S131072x256) S1024x256.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1024x256.size a ≤ S131072x256.size a
  hwx0_10 : ∀ i : grid0.Coords, EltTy.bits .f32 = 32 ∨ (Rect.block (s := S131072x256) S1024x256.size (cc0_transform_10 i) (hinb0_10 i)).WholeWords (EltTy.packing .f32)

variable [Facts₀]

def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf
def dot_S1024x256_S256x1280_S1024x1280_1_0_0_1_n_n : DotDims S1024x256 S256x1280 S1024x1280 where
  lhsContracting := [1]
  rhsContracting := [0]
  lhsNonContracting := [0]
  rhsNonContracting := [1]
  lhsBatch := []
  rhsBatch := []
  wf := dot_S1024x256_S256x1280_S1024x1280_1_0_0_1_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1024x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5) S256x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v10) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7) S256x1280.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v9) S256x1280.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v11_0) S1024x256.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v11_1) S1024x256.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S131072x256 : Shape := ⟨2, ![131072, 256]⟩
abbrev S256x256 : Shape := ⟨2, ![256, 256]⟩
abbrev S256 : Shape := ⟨1, ![256]⟩
abbrev S1024x256 : Shape := ⟨2, ![1024, 256]⟩
abbrev S1024 : Shape := ⟨1, ![1024]⟩
abbrev S1280x256 : Shape := ⟨2, ![1280, 256]⟩
abbrev S256x1024 : Shape := ⟨2, ![256, 1024]⟩
abbrev S131072x1024 : Shape := ⟨2, ![131072, 1024]⟩
abbrev S1x1024 : Shape := ⟨2, ![1, 1024]⟩
abbrev S256x1280 : Shape := ⟨2, ![256, 1280]⟩
abbrev S131072x1280 : Shape := ⟨2, ![131072, 1280]⟩
abbrev S_ : Shape := ⟨0, ![]⟩

abbrev nBuf : Space → Nat
  | .hbm => 100
  | .vmem => 0
  | .smem => 0
  | _ => 0

abbrev bufTy : (tb : Table) → Fin (tcTables nBuf tb) → BufTy
  | .hbm, ⟨0, _⟩ => ⟨S131072x256, .f32⟩
  | .hbm, ⟨1, _⟩ => ⟨S131072x256, .f32⟩
  | .hbm, ⟨2, _⟩ => ⟨S131072x256, .f32⟩
  | .hbm, ⟨3, _⟩ => ⟨S131072x256, .f32⟩
  | .hbm, ⟨4, _⟩ => ⟨S131072x256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S256x256, .f32⟩
  | .hbm, ⟨12, _⟩ => ⟨S256, .f32⟩
  | .hbm, ⟨13, _⟩ => ⟨S256x256, .f32⟩
  | .hbm, ⟨14, _⟩ => ⟨S256x256, .f32⟩
  | .hbm, ⟨15, _⟩ => ⟨S256x256, .f32⟩
  | .hbm, ⟨16, _⟩ => ⟨S256x256, .f32⟩
  | .hbm, ⟨17, _⟩ => ⟨S256x256, .f32⟩
  | .hbm, ⟨18, _⟩ => ⟨S256x256, .f32⟩
  | .hbm, ⟨19, _⟩ => ⟨S256x256, .f32⟩
  | .hbm, ⟨20, _⟩ => ⟨S256x256, .f32⟩
  | .hbm, ⟨21, _⟩ => ⟨S256x256, .f32⟩
  | .hbm, ⟨22, _⟩ => ⟨S256x256, .f32⟩
  | .hbm, ⟨23, _⟩ => ⟨S1024x256, .f32⟩
  | .hbm, ⟨24, _⟩ => ⟨S1024, .f32⟩
  | .hbm, ⟨25, _⟩ => ⟨S1280x256, .f32⟩
  | .hbm, ⟨26, _⟩ => ⟨S1280x256, .f32⟩
  | .hbm, ⟨27, _⟩ => ⟨S256x1024, .f32⟩
  | .hbm, ⟨28, _⟩ => ⟨S131072x1024, .f32⟩
  | .hbm, ⟨29, _⟩ => ⟨S1x1024, .f32⟩
  | .hbm, ⟨30, _⟩ => ⟨S131072x1024, .f32⟩
  | .hbm, ⟨31, _⟩ => ⟨S131072x1024, .f32⟩
  | .hbm, ⟨32, _⟩ => ⟨S256x1280, .f32⟩
  | .hbm, ⟨33, _⟩ => ⟨S131072x1280, .f32⟩
  | .hbm, ⟨34, _⟩ => ⟨S256x1280, .f32⟩
  | .hbm, ⟨35, _⟩ => ⟨S131072x1280, .f32⟩
  | .hbm, ⟨36, _⟩ => ⟨S131072x256, .f32⟩
  | .hbm, ⟨37, _⟩ => ⟨S131072x256, .f32⟩
  | .hbm, ⟨38, _⟩ => ⟨S131072x256, .f32⟩
  | .hbm, ⟨39, _⟩ => ⟨S131072x256, .f32⟩
  | .hbm, ⟨40, _⟩ => ⟨S131072x256, .f32⟩
  | .hbm, ⟨41, _⟩ => ⟨S131072x256, .f32⟩
  | .hbm, ⟨42, _⟩ => ⟨S131072x256, .f32⟩
  | .hbm, ⟨43, _⟩ => ⟨S131072x256, .f32⟩
  | .hbm, ⟨44, _⟩ => ⟨S131072x256, .f32⟩
  | .hbm, ⟨45, _⟩ => ⟨S131072x256, .f32⟩
  | .hbm, ⟨46, _⟩ => ⟨S131072x256, .f32⟩
  | .hbm, ⟨47, _⟩ => ⟨S131072x256, .f32⟩
  | .hbm, ⟨48, _⟩ => ⟨S131072x256, .f32⟩
  | .hbm, ⟨49, _⟩ => ⟨S131072x256, .f32⟩
  | .hbm, ⟨50, _⟩ => ⟨S131072x256, .f32⟩
  | .hbm, ⟨51, _⟩ => ⟨S131072x256, .f32⟩
  | .hbm, ⟨52, _⟩ => ⟨S131072x256, .f32⟩
  | .hbm, ⟨53, _⟩ => ⟨S131072x256, .f32⟩
  | .hbm, ⟨54, _⟩ => ⟨S131072x256, .f32⟩
  | .hbm, ⟨55, _⟩ => ⟨S131072x256, .f32⟩
  | .hbm, ⟨56, _⟩ => ⟨S131072x256, .f32⟩
  | .hbm, ⟨57, _⟩ => ⟨S_, .f32⟩
  | .hbm, ⟨58, _⟩ => ⟨S131072x256, .f32⟩
  | .hbm, ⟨59, _⟩ => ⟨S131072x256, .f32⟩
  | .hbm, ⟨60, _⟩ => ⟨S_, .f32⟩
  | .hbm, ⟨61, _⟩ => ⟨S131072x256, .f32⟩
  | .hbm, ⟨62, _⟩ => ⟨S131072x256, .f32⟩
  | .hbm, ⟨63, _⟩ => ⟨S131072x256, .f32⟩
  | .hbm, ⟨64, _⟩ => ⟨S131072x256, .f32⟩
  | .hbm, ⟨65, _⟩ => ⟨S131072x256, .f32⟩
  | .hbm, ⟨66, _⟩ => ⟨S131072x256, .f32⟩
  | .hbm, ⟨67, _⟩ => ⟨S_, .f32⟩
  | .hbm, ⟨68, _⟩ => ⟨S131072x256, .f32⟩
  | .hbm, ⟨69, _⟩ => ⟨S131072x256, .f32⟩
  | .hbm, ⟨70, _⟩ => ⟨S_, .f32⟩
  | .hbm, ⟨71, _⟩ => ⟨S131072x256, .f32⟩
  | .hbm, ⟨72, _⟩ => ⟨S131072x256, .f32⟩
  | .hbm, ⟨73, _⟩ => ⟨S131072x256, .f32⟩
  | .hbm, ⟨74, _⟩ => ⟨S131072x256, .f32⟩
  | .hbm, ⟨75, _⟩ => ⟨S131072x256, .f32⟩
  | .hbm, ⟨76, _⟩ => ⟨S131072x256, .f32⟩
  | .hbm, ⟨77, _⟩ => ⟨S_, .f32⟩
  | .hbm, ⟨78, _⟩ => ⟨S131072x256, .f32⟩
  | .hbm, ⟨79, _⟩ => ⟨S131072x256, .f32⟩
  | .hbm, ⟨80, _⟩ => ⟨S_, .f32⟩
  | .hbm, ⟨81, _⟩ => ⟨S131072x256, .f32⟩
  | .hbm, ⟨82, _⟩ => ⟨S131072x256, .f32⟩
  | .hbm, ⟨83, _⟩ => ⟨S131072x256, .f32⟩
  | .hbm, ⟨84, _⟩ => ⟨S131072x256, .f32⟩
  | .hbm, ⟨85, _⟩ => ⟨S131072x256, .f32⟩
  | .hbm, ⟨86, _⟩ => ⟨S131072x256, .f32⟩
  | .hbm, ⟨87, _⟩ => ⟨S131072x256, .f32⟩
  | .hbm, ⟨88, _⟩ => ⟨S131072x256, .f32⟩
  | .hbm, ⟨89, _⟩ => ⟨S131072x256, .f32⟩
  | .hbm, ⟨90, _⟩ => ⟨S131072x256, .f32⟩
  | .hbm, ⟨91, _⟩ => ⟨S131072x256, .f32⟩
  | .hbm, ⟨92, _⟩ => ⟨S_, .f32⟩
  | .hbm, ⟨93, _⟩ => ⟨S131072x256, .f32⟩
  | .hbm, ⟨94, _⟩ => ⟨S131072x256, .f32⟩
  | .hbm, ⟨95, _⟩ => ⟨S_, .f32⟩
  | .hbm, ⟨96, _⟩ => ⟨S131072x256, .f32⟩
  | .hbm, ⟨97, _⟩ => ⟨S131072x256, .f32⟩
  | .hbm, ⟨98, _⟩ => ⟨S131072x256, .f32⟩
  | .hbm, ⟨99, _⟩ => ⟨S131072x256, .f32⟩
  | _, _ => ⟨S131072x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_cst : Ref sig .tc := ⟨.hbm, 57, rfl⟩
abbrev main_v34 : Ref sig .tc := ⟨.hbm, 58, rfl⟩
abbrev main_v35 : Ref sig .tc := ⟨.hbm, 59, rfl⟩
abbrev main_cst_0 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_cst_1 : Ref sig .tc := ⟨.hbm, 67, rfl⟩
abbrev main_v42 : Ref sig .tc := ⟨.hbm, 68, rfl⟩
abbrev main_v43 : Ref sig .tc := ⟨.hbm, 69, rfl⟩
abbrev main_cst_2 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_cst_3 : Ref sig .tc := ⟨.hbm, 77, rfl⟩
abbrev main_v50 : Ref sig .tc := ⟨.hbm, 78, rfl⟩
abbrev main_v51 : Ref sig .tc := ⟨.hbm, 79, rfl⟩
abbrev main_cst_4 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_cst_5 : Ref sig .tc := ⟨.hbm, 92, rfl⟩
abbrev main_v63 : Ref sig .tc := ⟨.hbm, 93, rfl⟩
abbrev main_v64 : Ref sig .tc := ⟨.hbm, 94, rfl⟩
abbrev main_cst_6 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩

abbrev nD : Nat := 1
abbrev τ : Topo := Topo.v7x

variable {F : FTy → Type} [FloatOps F]

class Facts₀ : Prop where
  concatenates_S256x256_S256x256_S256x256_S256x256_S1024x256_d0 : Shape.Concatenates [S256x256, S256x256, S256x256, S256x256] S1024x256 0
  concatenates_S256_S256_S256_S256_S1024_d0 : Shape.Concatenates [S256, S256, S256, S256] S1024 0
  concatenates_S256x256_S256x256_S256x256_S256x256_S256x256_S1280x256_d0 : Shape.Concatenates [S256x256, S256x256, S256x256, S256x256, S256x256] S1280x256 0
  transposes_S1024x256_S256x1024_1_0 : S1024x256.Transposes [1, 0] S256x1024
  bcast_S1024_S1x1024_1 : S1024.BroadcastsInDim S1x1024 (![1] : Fin 1 → Fin S1x1024.rank)
  bcast_S1x1024_S131072x1024_0_1 : S1x1024.BroadcastsInDim S131072x1024 (![0, 1] : Fin 2 → Fin S131072x1024.rank)
  transposes_S1280x256_S256x1280_1_0 : S1280x256.Transposes [1, 0] S256x1280
  slices_S131072x1024_S131072x256_0_0 : S131072x1024.Slices ![0, 0] S131072x256
  slices_S131072x1024_S131072x256_0_256 : S131072x1024.Slices ![0, 256] S131072x256
  slices_S131072x1024_S131072x256_0_512 : S131072x1024.Slices ![0, 512] S131072x256
  slices_S131072x1024_S131072x256_0_768 : S131072x1024.Slices ![0, 768] S131072x256
  slices_S131072x1280_S131072x256_0_0 : S131072x1280.Slices ![0, 0] S131072x256
  slices_S131072x1280_S131072x256_0_256 : S131072x1280.Slices ![0, 256] S131072x256
  slices_S131072x1280_S131072x256_0_512 : S131072x1280.Slices ![0, 512] S131072x256
  slices_S131072x1280_S131072x256_0_768 : S131072x1280.Slices ![0, 768] S131072x256
  slices_S131072x1280_S131072x256_0_1024 : S131072x1280.Slices ![0, 1024] S131072x256
  bcast_S_S131072x256 : S_.BroadcastsInDim S131072x256 (![] : Fin 0 → Fin S131072x256.rank)
  dot_S131072x256_S256x1024_S131072x1024_1_0_0_1_n_n_wf : DotDims.WF S131072x256 S256x1024 S131072x1024 [1] [0] [0] [1] [] []
  dot_S131072x256_S256x1280_S131072x1280_1_0_0_1_n_n_wf : DotDims.WF S131072x256 S256x1280 S131072x1280 [1] [0] [0] [1] [] []

variable [Facts₀]

def dot_S131072x256_S256x1024_S131072x1024_1_0_0_1_n_n : DotDims S131072x256 S256x1024 S131072x1024 where
  lhsContracting := [1]
  rhsContracting := [0]
  lhsNonContracting := [0]
  rhsNonContracting := [1]
  lhsBatch := []
  rhsBatch := []
  wf := dot_S131072x256_S256x1024_S131072x1024_1_0_0_1_n_n_wf
def dot_S131072x256_S256x1280_S131072x1280_1_0_0_1_n_n : DotDims S131072x256 S256x1280 S131072x1280 where
  lhsContracting := [1]
  rhsContracting := [0]
  lhsNonContracting := [0]
  rhsNonContracting := [1]
  lhsBatch := []
  rhsBatch := []
  wf := dot_S131072x256_S256x1280_S131072x1280_1_0_0_1_n_n_wf

class Facts : Prop extends Facts₀ where

variable [Facts]
-- ==== Proof.CellFrameBits.lean ====
/-
  The binary-tree LSTM cell, one launch over 128 row blocks: that the program runs to its end without a fault and
  leaves its twenty-three argument arrays as they were, and what its two result arrays hold afterwards.

  Before the launch the host stacks the four input-projection matrices, the four biases and the two families of
  five child-hidden matrices, transposes the three stacks and narrows them; none of these operations writes an
  argument array, so every argument reaches the launch as it was given. The launch stages, at row block `t`, the
  blocks `[1024 t, 1024 (t + 1)) × [0, 256)` of the five node arrays and, once, the three whole weight stacks and the
  bias row. The body reads each staged block whole, and stores each of its two result blocks whole, so after the body
  a result block is one function of the nine staged inputs: the new cell state
      c = σ(i-gate) · tanh(u-gate) + σ(left forget) · c_left + σ(right forget) · c_right
  and the new hidden state `h = σ(o-gate) · tanh c`, the five gate pre-activations being column slices of the three
  products `x · Wxᵀ + b`, `h_left · Ulᵀ`, `h_right · Urᵀ`. The result arrays after the run are those blocks written
  back, block `t` at rows `[1024 t, 1024 (t + 1))`.
-/
import proofs.«170559_j65017214926868_1_alg».proof.Proof.Gen.Kernel.Launch
import proofs.«170559_j65017214926868_1_alg».proof.Proof.Gen.Kernel.Skeleton
import proofs.«170559_j65017214926868_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.CellFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the launch finds them -/

/-- Core `c`'s buffers when the launch begins: the given memory after the eleven host operations (four stackings, three
    transpositions, three narrowings, one reshape). -/
abbrev V (c : Dev nD) (b : Ref sig .tc) : Buf (Elt F) ((c : Thread nD τ).loc b) :=
  StableHlo.after (List.flatten [hostOps0]) (fun b => m (c, b)) b

/-- None of the host operations allocates. -/
theorem hostOps0_fresh : (hostOps0 : List (HloOp τ sig (Elt F))).Forall fun op => op.fresh = ∅ := by
  simp only [List.Forall]; repeat' constructor

/-- The program is its host operations followed by the launch. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0] hostOps0_sub hostOps0_fresh main_chain

/-- No host operation writes argument 0: the launch finds it as given. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nary_writes, StableHlo.unary_writes, StableHlo.reshape_writes, Finset.mem_singleton]
    repeat' apply And.intro
    all_goals exact StableHlo.devRef_ne_of_ne (by decide)))
/-- No host operation writes argument 1: the launch finds it as given. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nary_writes, StableHlo.unary_writes, StableHlo.reshape_writes, Finset.mem_singleton]
    repeat' apply And.intro
    all_goals exact StableHlo.devRef_ne_of_ne (by decide)))
/-- No host operation writes argument 2: the launch finds it as given. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nary_writes, StableHlo.unary_writes, StableHlo.reshape_writes, Finset.mem_singleton]
    repeat' apply And.intro
    all_goals exact StableHlo.devRef_ne_of_ne (by decide)))
/-- No host operation writes argument 3: the launch finds it as given. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nary_writes, StableHlo.unary_writes, StableHlo.reshape_writes, Finset.mem_singleton]
    repeat' apply And.intro
    all_goals exact StableHlo.devRef_ne_of_ne (by decide)))
/-- No host operation writes argument 4: the launch finds it as given. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nary_writes, StableHlo.unary_writes, StableHlo.reshape_writes, Finset.mem_singleton]
    repeat' apply And.intro
    all_goals exact StableHlo.devRef_ne_of_ne (by decide)))
/-- No host operation writes argument 5: the launch finds it as given. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nary_writes, StableHlo.unary_writes, StableHlo.reshape_writes, Finset.mem_singleton]
    repeat' apply And.intro
    all_goals exact StableHlo.devRef_ne_of_ne (by decide)))
/-- No host operation writes argument 6: the launch finds it as given. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nary_writes, StableHlo.unary_writes, StableHlo.reshape_writes, Finset.mem_singleton]
    repeat' apply And.intro
    all_goals exact StableHlo.devRef_ne_of_ne (by decide)))
/-- No host operation writes argument 7: the launch finds it as given. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nary_writes, StableHlo.unary_writes, StableHlo.reshape_writes, Finset.mem_singleton]
    repeat' apply And.intro
    all_goals exact StableHlo.devRef_ne_of_ne (by decide)))
/-- No host operation writes argument 8: the launch finds it as given. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nary_writes, StableHlo.unary_writes, StableHlo.reshape_writes, Finset.mem_singleton]
    repeat' apply And.intro
    all_goals exact StableHlo.devRef_ne_of_ne (by decide)))
/-- No host operation writes argument 9: the launch finds it as given. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nary_writes, StableHlo.unary_writes, StableHlo.reshape_writes, Finset.mem_singleton]
    repeat' apply And.intro
    all_goals exact StableHlo.devRef_ne_of_ne (by decide)))
/-- No host operation writes argument 10: the launch finds it as given. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nary_writes, StableHlo.unary_writes, StableHlo.reshape_writes, Finset.mem_singleton]
    repeat' apply And.intro
    all_goals exact StableHlo.devRef_ne_of_ne (by decide)))
/-- No host operation writes argument 11: the launch finds it as given. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nary_writes, StableHlo.unary_writes, StableHlo.reshape_writes, Finset.mem_singleton]
    repeat' apply And.intro
    all_goals exact StableHlo.devRef_ne_of_ne (by decide)))
/-- No host operation writes argument 12: the launch finds it as given. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.nary_writes, StableHlo.unary_writes, StableHlo.reshape_writes, Finset.mem_singleton]
    repeat' apply And.intro
    all_goals exact StableHlo.devRef_ne_of_ne (by decide)))
/-- No host operation writes argument 13: the launch finds it as given. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.flatten_cons, List.flatten_nil, List.append_nil, List.cons_append,
      List.nil_append, List.Forall, StableHlo.nary_writes, StableHlo.unary_writes, StableHlo.reshape_writes, Finset.mem_singleton]
    repeat' apply And.intro
    all_goals exact StableHlo.devRef_ne_of_ne (by decide)))
/-- No host operation writes argument 14: the launch finds it as given. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.flatten_cons, List.flatten_nil, List.append_nil, List.cons_append,
      List.nil_append, List.Forall, StableHlo.nary_writes, StableHlo.unary_writes, StableHlo.reshape_writes, Finset.mem_singleton]
    repeat' apply And.intro
    all_goals exact StableHlo.devRef_ne_of_ne (by decide)))
/-- No host operation writes argument 15: the launch finds it as given. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.flatten_cons, List.flatten_nil, List.append_nil, List.cons_append,
      List.nil_append, List.Forall, StableHlo.nary_writes, StableHlo.unary_writes, StableHlo.reshape_writes, Finset.mem_singleton]
    repeat' apply And.intro
    all_goals exact StableHlo.devRef_ne_of_ne (by decide)))
/-- No host operation writes argument 16: the launch finds it as given. -/
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, List.flatten_cons, List.flatten_nil, List.append_nil, List.cons_append,
      List.nil_append, List.Forall, StableHlo.nary_writes, StableHlo.unary_writes, StableHlo.reshape_writes, Finset.mem_singleton]
    repeat' apply And.intro
    all_goals exact StableHlo.devRef_ne_of_ne (by decide)))
/-- No host operation writes argument 17: the launch finds it as given. -/
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, List.flatten_cons, List.flatten_nil, List.append_nil, List.cons_append,
      List.nil_append, List.Forall, StableHlo.nary_writes, StableHlo.unary_writes, StableHlo.reshape_writes, Finset.mem_singleton]
    repeat' apply And.intro
    all_goals exact StableHlo.devRef_ne_of_ne (by decide)))
/-- No host operation writes argument 18: the launch finds it as given. -/
theorem V_main_arg18 (c : Dev nD) : V m c main_arg18 = m ((c : Thread nD τ).loc main_arg18) :=
  StableHlo.after_of_forall_not_mem (b := Proc.devRef .tc main_arg18) _ _ (List.forall_iff_forall_mem.mp (by
    simp only [hostOps0, List.flatten_cons, List.flatten_nil, List.append_nil, List.cons_append,
      List.nil_append, List.Forall, StableHlo.nary_writes, StableHlo.unary_writes, StableHlo.reshape_writes, Finset.mem_singleton]
    repeat' apply And.intro
    all_goals exact StableHlo.devRef_ne_of_ne (by decide)))
/-- No host operation writes argument 19: the launch finds it as given. -/
theorem V_main_arg19 (c : Dev nD) : V m c main_arg19 = m ((c : Thread nD τ).loc main_arg19) :=
  StableHlo.after_of_forall_not_mem (b := Proc.devRef .tc main_arg19) _ _ (List.forall_iff_forall_mem.mp (by
    simp only [hostOps0, List.flatten_cons, List.flatten_nil, List.append_nil, List.cons_append,
      List.nil_append, List.Forall, StableHlo.nary_writes, StableHlo.unary_writes, StableHlo.reshape_writes, Finset.mem_singleton]
    repeat' apply And.intro
    all_goals exact StableHlo.devRef_ne_of_ne (by decide)))
/-- No host operation writes argument 20: the launch finds it as given. -/
theorem V_main_arg20 (c : Dev nD) : V m c main_arg20 = m ((c : Thread nD τ).loc main_arg20) :=
  StableHlo.after_of_forall_not_mem (b := Proc.devRef .tc main_arg20) _ _ (List.forall_iff_forall_mem.mp (by
    simp only [hostOps0, List.flatten_cons, List.flatten_nil, List.append_nil, List.cons_append,
      List.nil_append, List.Forall, StableHlo.nary_writes, StableHlo.unary_writes, StableHlo.reshape_writes, Finset.mem_singleton]
    repeat' apply And.intro
    all_goals exact StableHlo.devRef_ne_of_ne (by decide)))
/-- No host operation writes argument 21: the launch finds it as given. -/
theorem V_main_arg21 (c : Dev nD) : V m c main_arg21 = m ((c : Thread nD τ).loc main_arg21) :=
  StableHlo.after_of_forall_not_mem (b := Proc.devRef .tc main_arg21) _ _ (List.forall_iff_forall_mem.mp (by
    simp only [hostOps0, List.flatten_cons, List.flatten_nil, List.append_nil, List.cons_append,
      List.nil_append, List.Forall, StableHlo.nary_writes, StableHlo.unary_writes, StableHlo.reshape_writes, Finset.mem_singleton]
    repeat' apply And.intro
    all_goals exact StableHlo.devRef_ne_of_ne (by decide)))
/-- No host operation writes argument 22: the launch finds it as given. -/
theorem V_main_arg22 (c : Dev nD) : V m c main_arg22 = m ((c : Thread nD τ).loc main_arg22) :=
  StableHlo.after_of_forall_not_mem (b := Proc.devRef .tc main_arg22) _ _ (List.forall_iff_forall_mem.mp (by
    simp only [hostOps0, List.flatten_cons, List.flatten_nil, List.append_nil, List.cons_append,
      List.nil_append, List.Forall, StableHlo.nary_writes, StableHlo.unary_writes, StableHlo.reshape_writes, Finset.mem_singleton]
    repeat' apply And.intro
    all_goals exact StableHlo.devRef_ne_of_ne (by decide)))

/-! ## A window's block at a row block -/

/-- Window `w`'s block at point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every point, whether the point fetches it or the index has
    not moved since the last fetch, for any proof data over these arrays whose body leaves the block in place. -/
theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every point, whether the point fetches it or the index has
    not moved since the last fetch, for any proof data over these arrays whose body leaves the block in place. -/
theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at every point, whether the point fetches it or the index has
    not moved since the last fetch, for any proof data over these arrays whose body leaves the block in place. -/
theorem before_in2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds its block at every point, whether the point fetches it or the index has
    not moved since the last fetch, for any proof data over these arrays whose body leaves the block in place. -/
theorem before_in3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's staging buffer holds its block at every point, whether the point fetches it or the index has
    not moved since the last fetch, for any proof data over these arrays whose body leaves the block in place. -/
theorem before_in4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's staging buffer holds its block at every point, whether the point fetches it or the index has
    not moved since the last fetch, for any proof data over these arrays whose body leaves the block in place. -/
theorem before_in5 {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's staging buffer holds its block at every point, whether the point fetches it or the index has
    not moved since the last fetch, for any proof data over these arrays whose body leaves the block in place. -/
theorem before_in6 {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's staging buffer holds its block at every point, whether the point fetches it or the index has
    not moved since the last fetch, for any proof data over these arrays whose body leaves the block in place. -/
theorem before_in7 {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's staging buffer holds its block at every point, whether the point fetches it or the index has
    not moved since the last fetch, for any proof data over these arrays whose body leaves the block in place. -/
theorem before_in8 {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The arguments are unchanged -/

/-- From a run that ends with every staged array at what the write-backs made of it and every other buffer as the
    launch found it: the twenty-three arguments end as given — a staged node array because an input window writes
    nothing back, a weight or bias because no window stages it. -/
theorem args_kept (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).1 3).trans (((dats 0 c).arrAt_in 3 rfl _).trans ((hA c 3).trans (V_main_arg3 m c))),
      ((h c).1 4).trans (((dats 0 c).arrAt_in 4 rfl _).trans ((hA c 4).trans (V_main_arg4 m c))),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c),
      ((h c).2 main_arg19 (Pipeline.mem_restRefs_of main_arg19 (by decide) (by decide))).trans (V_main_arg19 m c),
      ((h c).2 main_arg20 (Pipeline.mem_restRefs_of main_arg20 (by decide) (by decide))).trans (V_main_arg20 m c),
      ((h c).2 main_arg21 (Pipeline.mem_restRefs_of main_arg21 (by decide) (by decide))).trans (V_main_arg21 m c),
      ((h c).2 main_arg22 (Pipeline.mem_restRefs_of main_arg22 (by decide) (by decide))).trans (V_main_arg22 m c)⟩) h

/-! ## What the body leaves in its two result blocks -/

/-- The whole 1024 × 256 block, the whole 256 × 1024 and 256 × 1280 weight stacks, the whole bias row. -/
abbrev rBlk : Rect S1024x256 := Rect.unit (s := S1024x256) ![0, 0] S1024x256.size inb_S1024x256_S1024x256_0_0
abbrev rWx : Rect S256x1024 := Rect.unit (s := S256x1024) ![0, 0] S256x1024.size inb_S256x1024_S256x1024_0_0
abbrev rBias : Rect S1x1024 := Rect.unit (s := S1x1024) ![0, 0] S1x1024.size inb_S1x1024_S1x1024_0_0
abbrev rU : Rect S256x1280 := Rect.unit (s := S256x1280) ![0, 0] S256x1280.size inb_S256x1280_S256x1280_0_0

/-- The new cell-state block from the nine staged inputs (`x0` node input, `x1` left cell, `x2` left hidden, `x3` right
    cell, `x4` right hidden, `x5` input weights, `x6` bias row, `x7` left weights, `x8` right weights): the one whole-block store. -/
def cellOut (x0 : Vec F S1024x256 .f32) (x1 : Vec F S1024x256 .f32) (x2 : Vec F S1024x256 .f32) (x3 : Vec F S1024x256 .f32) (x4 : Vec F S1024x256 .f32) (x5 : Vec F S256x1024 .bf16) (x6 : Vec F S1x1024 .f32) (x7 : Vec F S256x1280 .bf16) (x8 : Vec F S256x1280 .bf16) : Vec F S1024x256 .f32 :=
  View.canon [⟨rBlk, k0_pay1 (View.ld x1 rBlk) (View.ld x3 rBlk) (k0_pay6 (View.ld x0 rBlk) (View.ld x5 rWx) (View.ld x6 rBias)) (k0_pay7 (View.ld x0 rBlk) (View.ld x5 rWx) (View.ld x6 rBias)) (k0_pay9 (View.ld x2 rBlk) (View.ld x7 rU)) (k0_pay10 (View.ld x2 rBlk) (View.ld x7 rU)) (k0_pay11 (View.ld x2 rBlk) (View.ld x7 rU)) (k0_pay13 (View.ld x4 rBlk) (View.ld x8 rU)) (k0_pay14 (View.ld x4 rBlk) (View.ld x8 rU)) (k0_pay15 (View.ld x4 rBlk) (View.ld x8 rU)) (k0_pay17 (View.ld x0 rBlk) (View.ld x2 rBlk) (View.ld x4 rBlk) (View.ld x5 rWx) (View.ld x6 rBias) (View.ld x7 rU) (View.ld x8 rU))⟩]

/-- The new hidden-state block from the same nine inputs: the one whole-block store. -/
def hiddenOut (x0 : Vec F S1024x256 .f32) (x1 : Vec F S1024x256 .f32) (x2 : Vec F S1024x256 .f32) (x3 : Vec F S1024x256 .f32) (x4 : Vec F S1024x256 .f32) (x5 : Vec F S256x1024 .bf16) (x6 : Vec F S1x1024 .f32) (x7 : Vec F S256x1280 .bf16) (x8 : Vec F S256x1280 .bf16) : Vec F S1024x256 .f32 :=
  View.canon [⟨rBlk, k0_pay2 (View.ld x1 rBlk) (View.ld x3 rBlk) (k0_pay6 (View.ld x0 rBlk) (View.ld x5 rWx) (View.ld x6 rBias)) (k0_pay7 (View.ld x0 rBlk) (View.ld x5 rWx) (View.ld x6 rBias)) (k0_pay8 (View.ld x0 rBlk) (View.ld x5 rWx) (View.ld x6 rBias)) (k0_pay9 (View.ld x2 rBlk) (View.ld x7 rU)) (k0_pay10 (View.ld x2 rBlk) (View.ld x7 rU)) (k0_pay11 (View.ld x2 rBlk) (View.ld x7 rU)) (k0_pay12 (View.ld x2 rBlk) (View.ld x7 rU)) (k0_pay13 (View.ld x4 rBlk) (View.ld x8 rU)) (k0_pay14 (View.ld x4 rBlk) (View.ld x8 rU)) (k0_pay15 (View.ld x4 rBlk) (View.ld x8 rU)) (k0_pay16 (View.ld x4 rBlk) (View.ld x8 rU)) (k0_pay17 (View.ld x0 rBlk) (View.ld x2 rBlk) (View.ld x4 rBlk) (View.ld x5 rWx) (View.ld x6 rBias) (View.ld x7 rU) (View.ld x8 rU))⟩]

/-- A whole-block store covers the block. -/
theorem cover_blk (p0 : Vec F S1024x256 .f32) (y : S1024x256.Idx) :
    ∃ pc ∈ ([⟨rBlk, p0⟩] : List (View.Piece (Elt F) S1024x256 .f32)), y ∈ pc.1.set :=
  View.cover_of_tiled [⟨rBlk, p0⟩] S1024x256.size (by rfl) y

/-! ## The body's triple -/

set_option maxHeartbeats 4000000 in
/-- The body on whole staging buffers, the nine inputs' at known contents and the two results' at anything, runs to the
    continuation with the inputs' as they were and the results' at `cellOut` and `hiddenOut` of the inputs. -/
theorem sound_kernel (c : Dev nD) (E : Set ℕ) (i : grid0.Coords) (arg1 : Memref sig .tc .vmem S1024x256 .f32) (harg1 : arg1.IsWhole) (arg2 : Memref sig .tc .vmem S1024x256 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S256x1024 .bf16) (harg6 : arg6.IsWhole) (arg7 : Memref sig .tc .vmem S1x1024 .f32) (harg7 : arg7.IsWhole) (arg8 : Memref sig .tc .vmem S256x1280 .bf16) (harg8 : arg8.IsWhole) (arg9 : Memref sig .tc .vmem S256x1280 .bf16) (harg9 : arg9.IsWhole) (arg10 : Memref sig .tc .vmem S1024x256 .f32) (harg10 : arg10.IsWhole) (arg11 : Memref sig .tc .vmem S1024x256 .f32) (harg11 : arg11.IsWhole)
    (x0 : Vec F S1024x256 .f32) (x1 : Vec F S1024x256 .f32) (x2 : Vec F S1024x256 .f32) (x3 : Vec F S1024x256 .f32) (x4 : Vec F S1024x256 .f32) (x5 : Vec F S256x1024 .bf16) (x6 : Vec F S1x1024 .f32) (x7 : Vec F S256x1280 .bf16) (x8 : Vec F S256x1280 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (cellOut x0 x1 x2 x3 x4 x5 x6 x7 x8) ∗ owns (c : Thread nD τ) arg11 fullShare (hiddenOut x0 x1 x2 x3 x4 x5 x6 x7 x8)) -∗ K ⟨⟩))
      ⊢ wp frame (wpE (defs₀ (F := F)) Variants.none c none) E (cc0__cell_kernel i arg1 harg1 arg2 harg2 arg3 harg3 arg4 harg4 arg5 harg5 arg6 harg6 arg7 harg7 arg8 harg8 arg9 harg9 arg10 harg10 arg11 harg11) K := by
  simp only [cc0__cell_kernel_eq_skeleton]; unfold cc0__cell_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    try dsimp only
    exact View.read_writes_eq_canon _ _ _ (cover_blk _)
  iexists _; isplitr
  swap; · iexact H10
  ipureintro
  try dsimp only
  exact View.read_writes_eq_canon _ _ _ (cover_blk _)

/-! ## The launch's proof data -/

/-- On core `c`: the arrays as the launch finds them; after the body at point `t` each input buffer at its block and the
    two result buffers at `cellOut` and `hiddenOut` of the nine input blocks; nothing else touched, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => cellOut (iblk m c 0 t) (iblk m c 1 t) (iblk m c 2 t) (iblk m c 3 t) (iblk m c 4 t) (iblk m c 5 t) (iblk m c 6 t) (iblk m c 7 t) (iblk m c 8 t)
    | ⟨10, _⟩ => hiddenOut (iblk m c 0 t) (iblk m c 1 t) (iblk m c 2 t) (iblk m c 3 t) (iblk m c 4 t) (iblk m c 5 t) (iblk m c 6 t) (iblk m c 7 t) (iblk m c 8 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
theorem after_in3 (c : Dev nD) (t : Fin cfg0.N) : (dats m 0 c).after 3 t = iblk m c 3 t := by dsimp only [dats]
theorem after_in4 (c : Dev nD) (t : Fin cfg0.N) : (dats m 0 c).after 4 t = iblk m c 4 t := by dsimp only [dats]
theorem after_in5 (c : Dev nD) (t : Fin cfg0.N) : (dats m 0 c).after 5 t = iblk m c 5 t := by dsimp only [dats]
theorem after_in6 (c : Dev nD) (t : Fin cfg0.N) : (dats m 0 c).after 6 t = iblk m c 6 t := by dsimp only [dats]
theorem after_in7 (c : Dev nD) (t : Fin cfg0.N) : (dats m 0 c).after 7 t = iblk m c 7 t := by dsimp only [dats]
theorem after_in8 (c : Dev nD) (t : Fin cfg0.N) : (dats m 0 c).after 8 t = iblk m c 8 t := by dsimp only [dats]
theorem after_cell (c : Dev nD) (t : Fin cfg0.N) : (dats m 0 c).after 9 t = cellOut (iblk m c 0 t) (iblk m c 1 t) (iblk m c 2 t) (iblk m c 3 t) (iblk m c 4 t) (iblk m c 5 t) (iblk m c 6 t) (iblk m c 7 t) (iblk m c 8 t) := by dsimp only [dats]
theorem after_hidden (c : Dev nD) (t : Fin cfg0.N) : (dats m 0 c).after 10 t = hiddenOut (iblk m c 0 t) (iblk m c 1 t) (iblk m c 2 t) (iblk m c 3 t) (iblk m c 4 t) (iblk m c 5 t) (iblk m c 6 t) (iblk m c 7 t) (iblk m c 8 t) := by dsimp only [dats]

theorem before0 (c : Dev nD) (t : Fin cfg0.N) (d) : (dats m 0 c).before 0 t d = iblk m c 0 t :=
  before_in0 m (dats m 0 c) (A_eq m c 0) (after_in0 m c) t d
theorem before1 (c : Dev nD) (t : Fin cfg0.N) (d) : (dats m 0 c).before 1 t d = iblk m c 1 t :=
  before_in1 m (dats m 0 c) (A_eq m c 1) (after_in1 m c) t d
theorem before2 (c : Dev nD) (t : Fin cfg0.N) (d) : (dats m 0 c).before 2 t d = iblk m c 2 t :=
  before_in2 m (dats m 0 c) (A_eq m c 2) (after_in2 m c) t d
theorem before3 (c : Dev nD) (t : Fin cfg0.N) (d) : (dats m 0 c).before 3 t d = iblk m c 3 t :=
  before_in3 m (dats m 0 c) (A_eq m c 3) (after_in3 m c) t d
theorem before4 (c : Dev nD) (t : Fin cfg0.N) (d) : (dats m 0 c).before 4 t d = iblk m c 4 t :=
  before_in4 m (dats m 0 c) (A_eq m c 4) (after_in4 m c) t d
theorem before5 (c : Dev nD) (t : Fin cfg0.N) (d) : (dats m 0 c).before 5 t d = iblk m c 5 t :=
  before_in5 m (dats m 0 c) (A_eq m c 5) (after_in5 m c) t d
theorem before6 (c : Dev nD) (t : Fin cfg0.N) (d) : (dats m 0 c).before 6 t d = iblk m c 6 t :=
  before_in6 m (dats m 0 c) (A_eq m c 6) (after_in6 m c) t d
theorem before7 (c : Dev nD) (t : Fin cfg0.N) (d) : (dats m 0 c).before 7 t d = iblk m c 7 t :=
  before_in7 m (dats m 0 c) (A_eq m c 7) (after_in7 m c) t d
theorem before8 (c : Dev nD) (t : Fin cfg0.N) (d) : (dats m 0 c).before 8 t d = iblk m c 8 t :=
  before_in8 m (dats m 0 c) (A_eq m c 8) (after_in8 m c) t d

/-! ## The body at a row block -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t))

set_option maxHeartbeats 1000000 in
/-- At any point the input buffers hold their blocks, so the body's triple applies; the rest passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8]
  rw [show (dats m 0 c).Φ t.succ = (dats m 0 c).Φ t.castSucc from rfl,
    show (dats m 0 c).owesAt () t.succ = (dats m 0 c).owesAt () t.castSucc from rfl,
    after_in0, after_in1, after_in2, after_in3, after_in4, after_in5, after_in6, after_in7, after_in8, after_cell, after_hidden]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel c Set.univ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- From any memory with zero counters every weakly fair execution of the program ends, and then every staged array
    holds what the write-backs made of it and every other buffer what the launch found in it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program runs to its end without a fault and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  args_kept m ρ (dats m) (A_eq m) (run_main m ρ)

end Cert.Kernel.CellFrame

end
-- ==== Proof.CellFrameIdeal.lean ====
/-
  The binary-tree LSTM cell, one launch over 128 row blocks: that the program runs to its end without a fault and
  leaves its twenty-three argument arrays as they were, and what its two result arrays hold afterwards.

  Before the launch the host stacks the four input-projection matrices, the four biases and the two families of
  five child-hidden matrices, transposes the three stacks and narrows them; none of these operations writes an
  argument array, so every argument reaches the launch as it was given. The launch stages, at row block `t`, the
  blocks `[1024 t, 1024 (t + 1)) × [0, 256)` of the five node arrays and, once, the three whole weight stacks and the
  bias row. The body reads each staged block whole, and stores each of its two result blocks whole, so after the body
  a result block is one function of the nine staged inputs: the new cell state
      c = σ(i-gate) · tanh(u-gate) + σ(left forget) · c_left + σ(right forget) · c_right
  and the new hidden state `h = σ(o-gate) · tanh c`, the five gate pre-activations being column slices of the three
  products `x · Wxᵀ + b`, `h_left · Ulᵀ`, `h_right · Urᵀ`. The result arrays after the run are those blocks written
  back, block `t` at rows `[1024 t, 1024 (t + 1))`.
-/
import proofs.«170559_j65017214926868_1_alg».proof.Proof.Gen.KernelIdeal.Launch
import proofs.«170559_j65017214926868_1_alg».proof.Proof.Gen.KernelIdeal.Skeleton
import proofs.«170559_j65017214926868_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.CellFrame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the launch finds them -/

/-- Core `c`'s buffers when the launch begins: the given memory after the eleven host operations (four stackings, three
    transpositions, three narrowings, one reshape). -/
abbrev V (c : Dev nD) (b : Ref sig .tc) : Buf (Elt F) ((c : Thread nD τ).loc b) :=
  StableHlo.after (List.flatten [hostOps0]) (fun b => m (c, b)) b

/-- None of the host operations allocates. -/
theorem hostOps0_fresh : (hostOps0 : List (HloOp τ sig (Elt F))).Forall fun op => op.fresh = ∅ := by
  simp only [List.Forall]; repeat' constructor

/-- The program is its host operations followed by the launch. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0] hostOps0_sub hostOps0_fresh main_chain

/-- No host operation writes argument 0: the launch finds it as given. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nary_writes, StableHlo.unary_writes, StableHlo.reshape_writes, Finset.mem_singleton]
    repeat' apply And.intro
    all_goals exact StableHlo.devRef_ne_of_ne (by decide)))
/-- No host operation writes argument 1: the launch finds it as given. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nary_writes, StableHlo.unary_writes, StableHlo.reshape_writes, Finset.mem_singleton]
    repeat' apply And.intro
    all_goals exact StableHlo.devRef_ne_of_ne (by decide)))
/-- No host operation writes argument 2: the launch finds it as given. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nary_writes, StableHlo.unary_writes, StableHlo.reshape_writes, Finset.mem_singleton]
    repeat' apply And.intro
    all_goals exact StableHlo.devRef_ne_of_ne (by decide)))
/-- No host operation writes argument 3: the launch finds it as given. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nary_writes, StableHlo.unary_writes, StableHlo.reshape_writes, Finset.mem_singleton]
    repeat' apply And.intro
    all_goals exact StableHlo.devRef_ne_of_ne (by decide)))
/-- No host operation writes argument 4: the launch finds it as given. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nary_writes, StableHlo.unary_writes, StableHlo.reshape_writes, Finset.mem_singleton]
    repeat' apply And.intro
    all_goals exact StableHlo.devRef_ne_of_ne (by decide)))
/-- No host operation writes argument 5: the launch finds it as given. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nary_writes, StableHlo.unary_writes, StableHlo.reshape_writes, Finset.mem_singleton]
    repeat' apply And.intro
    all_goals exact StableHlo.devRef_ne_of_ne (by decide)))
/-- No host operation writes argument 6: the launch finds it as given. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nary_writes, StableHlo.unary_writes, StableHlo.reshape_writes, Finset.mem_singleton]
    repeat' apply And.intro
    all_goals exact StableHlo.devRef_ne_of_ne (by decide)))
/-- No host operation writes argument 7: the launch finds it as given. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nary_writes, StableHlo.unary_writes, StableHlo.reshape_writes, Finset.mem_singleton]
    repeat' apply And.intro
    all_goals exact StableHlo.devRef_ne_of_ne (by decide)))
/-- No host operation writes argument 8: the launch finds it as given. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nary_writes, StableHlo.unary_writes, StableHlo.reshape_writes, Finset.mem_singleton]
    repeat' apply And.intro
    all_goals exact StableHlo.devRef_ne_of_ne (by decide)))
/-- No host operation writes argument 9: the launch finds it as given. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nary_writes, StableHlo.unary_writes, StableHlo.reshape_writes, Finset.mem_singleton]
    repeat' apply And.intro
    all_goals exact StableHlo.devRef_ne_of_ne (by decide)))
/-- No host operation writes argument 10: the launch finds it as given. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nary_writes, StableHlo.unary_writes, StableHlo.reshape_writes, Finset.mem_singleton]
    repeat' apply And.intro
    all_goals exact StableHlo.devRef_ne_of_ne (by decide)))
/-- No host operation writes argument 11: the launch finds it as given. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nary_writes, StableHlo.unary_writes, StableHlo.reshape_writes, Finset.mem_singleton]
    repeat' apply And.intro
    all_goals exact StableHlo.devRef_ne_of_ne (by decide)))
/-- No host operation writes argument 12: the launch finds it as given. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.nary_writes, StableHlo.unary_writes, StableHlo.reshape_writes, Finset.mem_singleton]
    repeat' apply And.intro
    all_goals exact StableHlo.devRef_ne_of_ne (by decide)))
/-- No host operation writes argument 13: the launch finds it as given. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.flatten_cons, List.flatten_nil, List.append_nil, List.cons_append,
      List.nil_append, List.Forall, StableHlo.nary_writes, StableHlo.unary_writes, StableHlo.reshape_writes, Finset.mem_singleton]
    repeat' apply And.intro
    all_goals exact StableHlo.devRef_ne_of_ne (by decide)))
/-- No host operation writes argument 14: the launch finds it as given. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.flatten_cons, List.flatten_nil, List.append_nil, List.cons_append,
      List.nil_append, List.Forall, StableHlo.nary_writes, StableHlo.unary_writes, StableHlo.reshape_writes, Finset.mem_singleton]
    repeat' apply And.intro
    all_goals exact StableHlo.devRef_ne_of_ne (by decide)))
/-- No host operation writes argument 15: the launch finds it as given. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.flatten_cons, List.flatten_nil, List.append_nil, List.cons_append,
      List.nil_append, List.Forall, StableHlo.nary_writes, StableHlo.unary_writes, StableHlo.reshape_writes, Finset.mem_singleton]
    repeat' apply And.intro
    all_goals exact StableHlo.devRef_ne_of_ne (by decide)))
/-- No host operation writes argument 16: the launch finds it as given. -/
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, List.flatten_cons, List.flatten_nil, List.append_nil, List.cons_append,
      List.nil_append, List.Forall, StableHlo.nary_writes, StableHlo.unary_writes, StableHlo.reshape_writes, Finset.mem_singleton]
    repeat' apply And.intro
    all_goals exact StableHlo.devRef_ne_of_ne (by decide)))
/-- No host operation writes argument 17: the launch finds it as given. -/
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, List.flatten_cons, List.flatten_nil, List.append_nil, List.cons_append,
      List.nil_append, List.Forall, StableHlo.nary_writes, StableHlo.unary_writes, StableHlo.reshape_writes, Finset.mem_singleton]
    repeat' apply And.intro
    all_goals exact StableHlo.devRef_ne_of_ne (by decide)))
/-- No host operation writes argument 18: the launch finds it as given. -/
theorem V_main_arg18 (c : Dev nD) : V m c main_arg18 = m ((c : Thread nD τ).loc main_arg18) :=
  StableHlo.after_of_forall_not_mem (b := Proc.devRef .tc main_arg18) _ _ (List.forall_iff_forall_mem.mp (by
    simp only [hostOps0, List.flatten_cons, List.flatten_nil, List.append_nil, List.cons_append,
      List.nil_append, List.Forall, StableHlo.nary_writes, StableHlo.unary_writes, StableHlo.reshape_writes, Finset.mem_singleton]
    repeat' apply And.intro
    all_goals exact StableHlo.devRef_ne_of_ne (by decide)))
/-- No host operation writes argument 19: the launch finds it as given. -/
theorem V_main_arg19 (c : Dev nD) : V m c main_arg19 = m ((c : Thread nD τ).loc main_arg19) :=
  StableHlo.after_of_forall_not_mem (b := Proc.devRef .tc main_arg19) _ _ (List.forall_iff_forall_mem.mp (by
    simp only [hostOps0, List.flatten_cons, List.flatten_nil, List.append_nil, List.cons_append,
      List.nil_append, List.Forall, StableHlo.nary_writes, StableHlo.unary_writes, StableHlo.reshape_writes, Finset.mem_singleton]
    repeat' apply And.intro
    all_goals exact StableHlo.devRef_ne_of_ne (by decide)))
/-- No host operation writes argument 20: the launch finds it as given. -/
theorem V_main_arg20 (c : Dev nD) : V m c main_arg20 = m ((c : Thread nD τ).loc main_arg20) :=
  StableHlo.after_of_forall_not_mem (b := Proc.devRef .tc main_arg20) _ _ (List.forall_iff_forall_mem.mp (by
    simp only [hostOps0, List.flatten_cons, List.flatten_nil, List.append_nil, List.cons_append,
      List.nil_append, List.Forall, StableHlo.nary_writes, StableHlo.unary_writes, StableHlo.reshape_writes, Finset.mem_singleton]
    repeat' apply And.intro
    all_goals exact StableHlo.devRef_ne_of_ne (by decide)))
/-- No host operation writes argument 21: the launch finds it as given. -/
theorem V_main_arg21 (c : Dev nD) : V m c main_arg21 = m ((c : Thread nD τ).loc main_arg21) :=
  StableHlo.after_of_forall_not_mem (b := Proc.devRef .tc main_arg21) _ _ (List.forall_iff_forall_mem.mp (by
    simp only [hostOps0, List.flatten_cons, List.flatten_nil, List.append_nil, List.cons_append,
      List.nil_append, List.Forall, StableHlo.nary_writes, StableHlo.unary_writes, StableHlo.reshape_writes, Finset.mem_singleton]
    repeat' apply And.intro
    all_goals exact StableHlo.devRef_ne_of_ne (by decide)))
/-- No host operation writes argument 22: the launch finds it as given. -/
theorem V_main_arg22 (c : Dev nD) : V m c main_arg22 = m ((c : Thread nD τ).loc main_arg22) :=
  StableHlo.after_of_forall_not_mem (b := Proc.devRef .tc main_arg22) _ _ (List.forall_iff_forall_mem.mp (by
    simp only [hostOps0, List.flatten_cons, List.flatten_nil, List.append_nil, List.cons_append,
      List.nil_append, List.Forall, StableHlo.nary_writes, StableHlo.unary_writes, StableHlo.reshape_writes, Finset.mem_singleton]
    repeat' apply And.intro
    all_goals exact StableHlo.devRef_ne_of_ne (by decide)))

/-! ## A window's block at a row block -/

/-- Window `w`'s block at point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every point, whether the point fetches it or the index has
    not moved since the last fetch, for any proof data over these arrays whose body leaves the block in place. -/
theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every point, whether the point fetches it or the index has
    not moved since the last fetch, for any proof data over these arrays whose body leaves the block in place. -/
theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at every point, whether the point fetches it or the index has
    not moved since the last fetch, for any proof data over these arrays whose body leaves the block in place. -/
theorem before_in2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds its block at every point, whether the point fetches it or the index has
    not moved since the last fetch, for any proof data over these arrays whose body leaves the block in place. -/
theorem before_in3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's staging buffer holds its block at every point, whether the point fetches it or the index has
    not moved since the last fetch, for any proof data over these arrays whose body leaves the block in place. -/
theorem before_in4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's staging buffer holds its block at every point, whether the point fetches it or the index has
    not moved since the last fetch, for any proof data over these arrays whose body leaves the block in place. -/
theorem before_in5 {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's staging buffer holds its block at every point, whether the point fetches it or the index has
    not moved since the last fetch, for any proof data over these arrays whose body leaves the block in place. -/
theorem before_in6 {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's staging buffer holds its block at every point, whether the point fetches it or the index has
    not moved since the last fetch, for any proof data over these arrays whose body leaves the block in place. -/
theorem before_in7 {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's staging buffer holds its block at every point, whether the point fetches it or the index has
    not moved since the last fetch, for any proof data over these arrays whose body leaves the block in place. -/
theorem before_in8 {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The arguments are unchanged -/

/-- From a run that ends with every staged array at what the write-backs made of it and every other buffer as the
    launch found it: the twenty-three arguments end as given — a staged node array because an input window writes
    nothing back, a weight or bias because no window stages it. -/
theorem args_kept (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).1 3).trans (((dats 0 c).arrAt_in 3 rfl _).trans ((hA c 3).trans (V_main_arg3 m c))),
      ((h c).1 4).trans (((dats 0 c).arrAt_in 4 rfl _).trans ((hA c 4).trans (V_main_arg4 m c))),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c),
      ((h c).2 main_arg19 (Pipeline.mem_restRefs_of main_arg19 (by decide) (by decide))).trans (V_main_arg19 m c),
      ((h c).2 main_arg20 (Pipeline.mem_restRefs_of main_arg20 (by decide) (by decide))).trans (V_main_arg20 m c),
      ((h c).2 main_arg21 (Pipeline.mem_restRefs_of main_arg21 (by decide) (by decide))).trans (V_main_arg21 m c),
      ((h c).2 main_arg22 (Pipeline.mem_restRefs_of main_arg22 (by decide) (by decide))).trans (V_main_arg22 m c)⟩) h

/-! ## What the body leaves in its two result blocks -/

/-- The whole 1024 × 256 block, the whole 256 × 1024 and 256 × 1280 weight stacks, the whole bias row. -/
abbrev rBlk : Rect S1024x256 := Rect.unit (s := S1024x256) ![0, 0] S1024x256.size inb_S1024x256_S1024x256_0_0
abbrev rWx : Rect S256x1024 := Rect.unit (s := S256x1024) ![0, 0] S256x1024.size inb_S256x1024_S256x1024_0_0
abbrev rBias : Rect S1x1024 := Rect.unit (s := S1x1024) ![0, 0] S1x1024.size inb_S1x1024_S1x1024_0_0
abbrev rU : Rect S256x1280 := Rect.unit (s := S256x1280) ![0, 0] S256x1280.size inb_S256x1280_S256x1280_0_0

/-- The new cell-state block from the nine staged inputs (`x0` node input, `x1` left cell, `x2` left hidden, `x3` right
    cell, `x4` right hidden, `x5` input weights, `x6` bias row, `x7` left weights, `x8` right weights): the one whole-block store. -/
def cellOut (x0 : Vec F S1024x256 .f32) (x1 : Vec F S1024x256 .f32) (x2 : Vec F S1024x256 .f32) (x3 : Vec F S1024x256 .f32) (x4 : Vec F S1024x256 .f32) (x5 : Vec F S256x1024 .bf16) (x6 : Vec F S1x1024 .f32) (x7 : Vec F S256x1280 .bf16) (x8 : Vec F S256x1280 .bf16) : Vec F S1024x256 .f32 :=
  View.canon [⟨rBlk, k0_pay1 (View.ld x1 rBlk) (View.ld x3 rBlk) (k0_pay6 (View.ld x0 rBlk) (View.ld x5 rWx) (View.ld x6 rBias)) (k0_pay7 (View.ld x0 rBlk) (View.ld x5 rWx) (View.ld x6 rBias)) (k0_pay9 (View.ld x2 rBlk) (View.ld x7 rU)) (k0_pay10 (View.ld x2 rBlk) (View.ld x7 rU)) (k0_pay11 (View.ld x2 rBlk) (View.ld x7 rU)) (k0_pay13 (View.ld x4 rBlk) (View.ld x8 rU)) (k0_pay14 (View.ld x4 rBlk) (View.ld x8 rU)) (k0_pay15 (View.ld x4 rBlk) (View.ld x8 rU)) (k0_pay17 (View.ld x0 rBlk) (View.ld x2 rBlk) (View.ld x4 rBlk) (View.ld x5 rWx) (View.ld x6 rBias) (View.ld x7 rU) (View.ld x8 rU))⟩]

/-- The new hidden-state block from the same nine inputs: the one whole-block store. -/
def hiddenOut (x0 : Vec F S1024x256 .f32) (x1 : Vec F S1024x256 .f32) (x2 : Vec F S1024x256 .f32) (x3 : Vec F S1024x256 .f32) (x4 : Vec F S1024x256 .f32) (x5 : Vec F S256x1024 .bf16) (x6 : Vec F S1x1024 .f32) (x7 : Vec F S256x1280 .bf16) (x8 : Vec F S256x1280 .bf16) : Vec F S1024x256 .f32 :=
  View.canon [⟨rBlk, k0_pay2 (View.ld x1 rBlk) (View.ld x3 rBlk) (k0_pay6 (View.ld x0 rBlk) (View.ld x5 rWx) (View.ld x6 rBias)) (k0_pay7 (View.ld x0 rBlk) (View.ld x5 rWx) (View.ld x6 rBias)) (k0_pay8 (View.ld x0 rBlk) (View.ld x5 rWx) (View.ld x6 rBias)) (k0_pay9 (View.ld x2 rBlk) (View.ld x7 rU)) (k0_pay10 (View.ld x2 rBlk) (View.ld x7 rU)) (k0_pay11 (View.ld x2 rBlk) (View.ld x7 rU)) (k0_pay12 (View.ld x2 rBlk) (View.ld x7 rU)) (k0_pay13 (View.ld x4 rBlk) (View.ld x8 rU)) (k0_pay14 (View.ld x4 rBlk) (View.ld x8 rU)) (k0_pay15 (View.ld x4 rBlk) (View.ld x8 rU)) (k0_pay16 (View.ld x4 rBlk) (View.ld x8 rU)) (k0_pay17 (View.ld x0 rBlk) (View.ld x2 rBlk) (View.ld x4 rBlk) (View.ld x5 rWx) (View.ld x6 rBias) (View.ld x7 rU) (View.ld x8 rU))⟩]

/-- A whole-block store covers the block. -/
theorem cover_blk (p0 : Vec F S1024x256 .f32) (y : S1024x256.Idx) :
    ∃ pc ∈ ([⟨rBlk, p0⟩] : List (View.Piece (Elt F) S1024x256 .f32)), y ∈ pc.1.set :=
  View.cover_of_tiled [⟨rBlk, p0⟩] S1024x256.size (by rfl) y

/-! ## The body's triple -/

set_option maxHeartbeats 4000000 in
/-- The body on whole staging buffers, the nine inputs' at known contents and the two results' at anything, runs to the
    continuation with the inputs' as they were and the results' at `cellOut` and `hiddenOut` of the inputs. -/
theorem sound_kernel (c : Dev nD) (E : Set ℕ) (i : grid0.Coords) (arg1 : Memref sig .tc .vmem S1024x256 .f32) (harg1 : arg1.IsWhole) (arg2 : Memref sig .tc .vmem S1024x256 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S256x1024 .bf16) (harg6 : arg6.IsWhole) (arg7 : Memref sig .tc .vmem S1x1024 .f32) (harg7 : arg7.IsWhole) (arg8 : Memref sig .tc .vmem S256x1280 .bf16) (harg8 : arg8.IsWhole) (arg9 : Memref sig .tc .vmem S256x1280 .bf16) (harg9 : arg9.IsWhole) (arg10 : Memref sig .tc .vmem S1024x256 .f32) (harg10 : arg10.IsWhole) (arg11 : Memref sig .tc .vmem S1024x256 .f32) (harg11 : arg11.IsWhole)
    (x0 : Vec F S1024x256 .f32) (x1 : Vec F S1024x256 .f32) (x2 : Vec F S1024x256 .f32) (x3 : Vec F S1024x256 .f32) (x4 : Vec F S1024x256 .f32) (x5 : Vec F S256x1024 .bf16) (x6 : Vec F S1x1024 .f32) (x7 : Vec F S256x1280 .bf16) (x8 : Vec F S256x1280 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (cellOut x0 x1 x2 x3 x4 x5 x6 x7 x8) ∗ owns (c : Thread nD τ) arg11 fullShare (hiddenOut x0 x1 x2 x3 x4 x5 x6 x7 x8)) -∗ K ⟨⟩))
      ⊢ wp frame (wpE (defs₀ (F := F)) Variants.none c none) E (cc0__cell_kernel i arg1 harg1 arg2 harg2 arg3 harg3 arg4 harg4 arg5 harg5 arg6 harg6 arg7 harg7 arg8 harg8 arg9 harg9 arg10 harg10 arg11 harg11) K := by
  simp only [cc0__cell_kernel_eq_skeleton]; unfold cc0__cell_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    try dsimp only
    exact View.read_writes_eq_canon _ _ _ (cover_blk _)
  iexists _; isplitr
  swap; · iexact H10
  ipureintro
  try dsimp only
  exact View.read_writes_eq_canon _ _ _ (cover_blk _)

/-! ## The launch's proof data -/

/-- On core `c`: the arrays as the launch finds them; after the body at point `t` each input buffer at its block and the
    two result buffers at `cellOut` and `hiddenOut` of the nine input blocks; nothing else touched, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => cellOut (iblk m c 0 t) (iblk m c 1 t) (iblk m c 2 t) (iblk m c 3 t) (iblk m c 4 t) (iblk m c 5 t) (iblk m c 6 t) (iblk m c 7 t) (iblk m c 8 t)
    | ⟨10, _⟩ => hiddenOut (iblk m c 0 t) (iblk m c 1 t) (iblk m c 2 t) (iblk m c 3 t) (iblk m c 4 t) (iblk m c 5 t) (iblk m c 6 t) (iblk m c 7 t) (iblk m c 8 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
theorem after_in3 (c : Dev nD) (t : Fin cfg0.N) : (dats m 0 c).after 3 t = iblk m c 3 t := by dsimp only [dats]
theorem after_in4 (c : Dev nD) (t : Fin cfg0.N) : (dats m 0 c).after 4 t = iblk m c 4 t := by dsimp only [dats]
theorem after_in5 (c : Dev nD) (t : Fin cfg0.N) : (dats m 0 c).after 5 t = iblk m c 5 t := by dsimp only [dats]
theorem after_in6 (c : Dev nD) (t : Fin cfg0.N) : (dats m 0 c).after 6 t = iblk m c 6 t := by dsimp only [dats]
theorem after_in7 (c : Dev nD) (t : Fin cfg0.N) : (dats m 0 c).after 7 t = iblk m c 7 t := by dsimp only [dats]
theorem after_in8 (c : Dev nD) (t : Fin cfg0.N) : (dats m 0 c).after 8 t = iblk m c 8 t := by dsimp only [dats]
theorem after_cell (c : Dev nD) (t : Fin cfg0.N) : (dats m 0 c).after 9 t = cellOut (iblk m c 0 t) (iblk m c 1 t) (iblk m c 2 t) (iblk m c 3 t) (iblk m c 4 t) (iblk m c 5 t) (iblk m c 6 t) (iblk m c 7 t) (iblk m c 8 t) := by dsimp only [dats]
theorem after_hidden (c : Dev nD) (t : Fin cfg0.N) : (dats m 0 c).after 10 t = hiddenOut (iblk m c 0 t) (iblk m c 1 t) (iblk m c 2 t) (iblk m c 3 t) (iblk m c 4 t) (iblk m c 5 t) (iblk m c 6 t) (iblk m c 7 t) (iblk m c 8 t) := by dsimp only [dats]

theorem before0 (c : Dev nD) (t : Fin cfg0.N) (d) : (dats m 0 c).before 0 t d = iblk m c 0 t :=
  before_in0 m (dats m 0 c) (A_eq m c 0) (after_in0 m c) t d
theorem before1 (c : Dev nD) (t : Fin cfg0.N) (d) : (dats m 0 c).before 1 t d = iblk m c 1 t :=
  before_in1 m (dats m 0 c) (A_eq m c 1) (after_in1 m c) t d
theorem before2 (c : Dev nD) (t : Fin cfg0.N) (d) : (dats m 0 c).before 2 t d = iblk m c 2 t :=
  before_in2 m (dats m 0 c) (A_eq m c 2) (after_in2 m c) t d
theorem before3 (c : Dev nD) (t : Fin cfg0.N) (d) : (dats m 0 c).before 3 t d = iblk m c 3 t :=
  before_in3 m (dats m 0 c) (A_eq m c 3) (after_in3 m c) t d
theorem before4 (c : Dev nD) (t : Fin cfg0.N) (d) : (dats m 0 c).before 4 t d = iblk m c 4 t :=
  before_in4 m (dats m 0 c) (A_eq m c 4) (after_in4 m c) t d
theorem before5 (c : Dev nD) (t : Fin cfg0.N) (d) : (dats m 0 c).before 5 t d = iblk m c 5 t :=
  before_in5 m (dats m 0 c) (A_eq m c 5) (after_in5 m c) t d
theorem before6 (c : Dev nD) (t : Fin cfg0.N) (d) : (dats m 0 c).before 6 t d = iblk m c 6 t :=
  before_in6 m (dats m 0 c) (A_eq m c 6) (after_in6 m c) t d
theorem before7 (c : Dev nD) (t : Fin cfg0.N) (d) : (dats m 0 c).before 7 t d = iblk m c 7 t :=
  before_in7 m (dats m 0 c) (A_eq m c 7) (after_in7 m c) t d
theorem before8 (c : Dev nD) (t : Fin cfg0.N) (d) : (dats m 0 c).before 8 t d = iblk m c 8 t :=
  before_in8 m (dats m 0 c) (A_eq m c 8) (after_in8 m c) t d

/-! ## The body at a row block -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t))

set_option maxHeartbeats 1000000 in
/-- At any point the input buffers hold their blocks, so the body's triple applies; the rest passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8]
  rw [show (dats m 0 c).Φ t.succ = (dats m 0 c).Φ t.castSucc from rfl,
    show (dats m 0 c).owesAt () t.succ = (dats m 0 c).owesAt () t.castSucc from rfl,
    after_in0, after_in1, after_in2, after_in3, after_in4, after_in5, after_in6, after_in7, after_in8, after_cell, after_hidden]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel c Set.univ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- From any memory with zero counters every weakly fair execution of the program ends, and then every staged array
    holds what the write-backs made of it and every other buffer what the launch found in it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program runs to its end without a fault and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  args_kept m ρ (dats m) (A_eq m) (run_main m ρ)

end Cert.KernelIdeal.CellFrame

end
-- ==== Proof.LibDot2.lean ====
/-
  A rank-2 matrix product read at an index, at the ideal instance (floats are the extended reals).

  The product of an `[M, K]` array by a `[K, N]` array is written either as the accelerator's
  multiply-accumulate into an accumulator that is zero everywhere, or as the host's general dot
  product; at the ideal instance both are, at `(p, q)`, the sum over the contraction index of the
  products of the operands' entries, with no rounding and no order of summation left in it. The
  contraction index set of a product with ONE contracted axis is a rank-1 index set; re-indexed by
  its coordinate the sum runs over `Fin K`:
      (l · r)[p, q] = ∑ k : Fin K, l[p, k] * r[k, q].
  The second family is the product with the left operand read transposed, `[K, M]` by `[K, N]`,
  contracting axis 0 of both:
      (lᵀ · r)[p, q] = ∑ k : Fin K, l[k, p] * r[k, q].
  For any dimension numbers the two spellings of one product (accumulating into zero, and the
  host's) are one and the same array.
-/
import Idealize.ShloMosaic.PureOps.Ideal
import Idealize.ShloMosaic.PureOps.Ideal.Laws
import Idealize.ShloMosaic.Lib.ValueIdx

noncomputable section

open scoped BigOperators

namespace Idealize.ShloMosaic.Dot2

open Idealize.ShloMosaic Idealize.ShloMosaic.ValueIdx

/-! ## `[M, K] × [K, N] → [M, N]` -/

/-- [M,K] x [K,N] -> [M,N], contracting lhs axis 1 with rhs axis 0: the dimension numbers of the
    plain matrix product, no batch axis; the result's axis 0 is the left operand's axis 0 and its
    axis 1 the right operand's axis 1. -/
abbrev mmDims (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

section MM
variable {M K N : Nat}
  (wf : DotDims.WF ⟨2, ![M, K]⟩ ⟨2, ![K, N]⟩ ⟨2, ![M, N]⟩ [1] [0] [0] [1] [] [])

/-- The left operand's axis 0 is its free axis: its coordinate is the result's row, whatever the
    contraction index. -/
private theorem mm_lhs0 (j : (⟨2, ![M, N]⟩ : Shape).Idx) (k : (mmDims M K N wf).contr.Idx) :
    ((mmDims M K N wf).lhsIdx j k 0).val = (j 0).val := by
  unfold DotDims.lhsIdx
  rw [dif_neg (show (0 : Fin 2) ∉ ([] : List (Fin 2)) by decide),
    dif_pos (show (0 : Fin 2) ∈ [(0 : Fin 2)] by decide)]
  rfl

/-- The left operand's axis 1 is the contracted one: at the contraction index with coordinate `c`
    its coordinate is `c`. -/
private theorem mm_lhs1 (j : (⟨2, ![M, N]⟩ : Shape).Idx) (c : Fin K) :
    ((mmDims M K N wf).lhsIdx j ((contrEquiv1 (mmDims M K N wf) K rfl rfl).symm c) 1).val = c.val := by
  rw [(mmDims M K N wf).lhsIdx_val_of_single rfl]
  exact contrEquiv1_symm_val (mmDims M K N wf) K rfl rfl c

/-- The right operand's axis 0 is the contracted one: at the contraction index with coordinate `c`
    its coordinate is `c`. -/
private theorem mm_rhs0 (j : (⟨2, ![M, N]⟩ : Shape).Idx) (c : Fin K) :
    ((mmDims M K N wf).rhsIdx j ((contrEquiv1 (mmDims M K N wf) K rfl rfl).symm c) 0).val = c.val := by
  rw [(mmDims M K N wf).rhsIdx_val_of_single rfl]
  exact contrEquiv1_symm_val (mmDims M K N wf) K rfl rfl c

/-- The right operand's axis 1 is its free axis: its coordinate is the result's column, whatever
    the contraction index. -/
private theorem mm_rhs1 (j : (⟨2, ![M, N]⟩ : Shape).Idx) (k : (mmDims M K N wf).contr.Idx) :
    ((mmDims M K N wf).rhsIdx j k 1).val = (j 1).val := by
  unfold DotDims.rhsIdx
  rw [dif_neg (show (1 : Fin 2) ∉ ([] : List (Fin 2)) by decide),
    dif_pos (show (1 : Fin 2) ∈ [(1 : Fin 2)] by decide)]
  rfl

/-- The contraction's sum at `(p, q)`, over the contraction index set and through the operand
    index maps, is the sum over the contracted coordinate `k : Fin K` of `l[p, k] * r[k, q]`. -/
theorem mm_sum (l : (⟨2, ![M, K]⟩ : Shape).Idx → EReal) (r : (⟨2, ![K, N]⟩ : Shape).Idx → EReal)
    (p : Fin M) (q : Fin N) :
    ∑ k : (mmDims M K N wf).contr.Idx,
        l ((mmDims M K N wf).lhsIdx (ix2 p q) k) * r ((mmDims M K N wf).rhsIdx (ix2 p q) k)
      = ∑ k : Fin K, l (ix2 p k) * r (ix2 k q) := by
  rw [← Equiv.sum_comp (contrEquiv1 (mmDims M K N wf) K rfl rfl).symm]
  refine Finset.sum_congr rfl fun c _ => ?_
  have hl : (mmDims M K N wf).lhsIdx (ix2 p q) ((contrEquiv1 (mmDims M K N wf) K rfl rfl).symm c)
      = ix2 p c := by
    funext a; apply Fin.ext
    match a with
    | ⟨0, _⟩ => exact mm_lhs0 wf (ix2 p q) _
    | ⟨1, _⟩ => exact mm_lhs1 wf (ix2 p q) c
  have hr : (mmDims M K N wf).rhsIdx (ix2 p q) ((contrEquiv1 (mmDims M K N wf) K rfl rfl).symm c)
      = ix2 c q := by
    funext a; apply Fin.ext
    match a with
    | ⟨0, _⟩ => exact mm_rhs0 wf (ix2 p q) c
    | ⟨1, _⟩ => exact mm_rhs1 wf (ix2 p q) _
  rw [hl, hr]

end MM

/-- The accelerator's product of `[M, K]` by `[K, N]` accumulated into the all-zero array, at
    `(p, q)`: `∑ k, l[p, k] * r[k, q]` in the extended reals. -/
theorem matmul_zero_mm_apply {M K N : Nat} {φ₁ φ₂ : FTy}
    (wf : DotDims.WF ⟨2, ![M, K]⟩ ⟨2, ![K, N]⟩ ⟨2, ![M, N]⟩ [1] [0] [0] [1] [] [])
    (prec : Option ContractPrecision) (l : FVec Ideal ⟨2, ![M, K]⟩ φ₁) (r : FVec Ideal ⟨2, ![K, N]⟩ φ₂)
    (p : Fin M) (q : Fin N) :
    FloatOps.matmul (mmDims M K N wf) prec l r (constant ⟨2, ![M, N]⟩ .f32 0x00000000#32) (ix2 p q)
      = ∑ k : Fin K, l (ix2 p k) * r (ix2 k q) := by
  rw [Ideal.matmul_constant_zero_apply]
  exact mm_sum wf l r p q

/-- The host's general dot product of `[M, K]` by `[K, N]`, at `(p, q)`, whatever its schedule:
    `∑ k, l[p, k] * r[k, q]` in the extended reals. -/
theorem dotGeneral_mm_apply {M K N : Nat} {φ₁ φ₂ : FTy}
    (wf : DotDims.WF ⟨2, ![M, K]⟩ ⟨2, ![K, N]⟩ ⟨2, ![M, N]⟩ [1] [0] [0] [1] [] [])
    (prec : Option ContractPrecision) (sched : HostSchedule)
    (l : FVec Ideal ⟨2, ![M, K]⟩ φ₁) (r : FVec Ideal ⟨2, ![K, N]⟩ φ₂) (p : Fin M) (q : Fin N) :
    FloatOps.dotGeneral (mmDims M K N wf) prec sched l r (ix2 p q)
      = ∑ k : Fin K, l (ix2 p k) * r (ix2 k q) := by
  rw [Ideal.dotGeneral_apply]
  exact mm_sum wf l r p q

/-- The same for the host's product as a one-device program states it (the single-device
    schedule): at `(p, q)` it is `∑ k, l[p, k] * r[k, q]`. -/
theorem host_dotGeneral_mm_apply {M K N : Nat} {φ₁ φ₂ : FTy}
    (wf : DotDims.WF ⟨2, ![M, K]⟩ ⟨2, ![K, N]⟩ ⟨2, ![M, N]⟩ [1] [0] [0] [1] [] [])
    (prec : Option ContractPrecision)
    (l : FVec Ideal ⟨2, ![M, K]⟩ φ₁) (r : FVec Ideal ⟨2, ![K, N]⟩ φ₂) (p : Fin M) (q : Fin N) :
    Host.dotGeneral (mmDims M K N wf) prec l r (ix2 p q)
      = ∑ k : Fin K, l (ix2 p k) * r (ix2 k q) :=
  dotGeneral_mm_apply wf prec .single l r p q

/-! ## The two spellings of one product -/

/-- the two spellings of one product are one array: for any dimension numbers, the accelerator's
    product accumulated into the all-zero array is the host's product (which has no accumulator),
    whatever the host's schedule; both are the contraction's sum at every index. -/
theorem matmul_zero_eq_dotGeneral {sl sr so : Shape} {φ₁ φ₂ : FTy} (d : DotDims sl sr so)
    (prec : Option ContractPrecision) (sched : HostSchedule) (l : FVec Ideal sl φ₁) (r : FVec Ideal sr φ₂) :
    FloatOps.matmul d prec l r (constant so .f32 0x00000000#32) = FloatOps.dotGeneral d prec sched l r := by
  funext j
  rw [Ideal.matmul_constant_zero_apply, Ideal.dotGeneral_apply]

/-- The same against the host's product as a one-device program states it (the single-device
    schedule). -/
theorem matmul_zero_eq_host_dotGeneral {sl sr so : Shape} {φ₁ φ₂ : FTy} (d : DotDims sl sr so)
    (prec : Option ContractPrecision) (l : FVec Ideal sl φ₁) (r : FVec Ideal sr φ₂) :
    FloatOps.matmul d prec l r (constant so .f32 0x00000000#32) = Host.dotGeneral d prec l r :=
  matmul_zero_eq_dotGeneral d prec .single l r

/-! ## `[K, M] × [K, N] → [M, N]`, the left operand read transposed -/

/-- [K,M] x [K,N] -> [M,N], contracting axis 0 of both (the left operand read transposed): the
    result's axis 0 is the left operand's axis 1 and its axis 1 the right operand's axis 1. -/
abbrev tmDims (K M N : Nat)
    (wf : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := wf

section TM
variable {K M N : Nat}
  (wf : DotDims.WF ⟨2, ![K, M]⟩ ⟨2, ![K, N]⟩ ⟨2, ![M, N]⟩ [0] [0] [1] [1] [] [])

/-- The left operand's axis 0 is the contracted one: at the contraction index with coordinate `c`
    its coordinate is `c`. -/
private theorem tm_lhs0 (j : (⟨2, ![M, N]⟩ : Shape).Idx) (c : Fin K) :
    ((tmDims K M N wf).lhsIdx j ((contrEquiv1 (tmDims K M N wf) K rfl rfl).symm c) 0).val = c.val := by
  rw [(tmDims K M N wf).lhsIdx_val_of_single rfl]
  exact contrEquiv1_symm_val (tmDims K M N wf) K rfl rfl c

/-- The left operand's axis 1 is its free axis: its coordinate is the result's row, whatever the
    contraction index. -/
private theorem tm_lhs1 (j : (⟨2, ![M, N]⟩ : Shape).Idx) (k : (tmDims K M N wf).contr.Idx) :
    ((tmDims K M N wf).lhsIdx j k 1).val = (j 0).val := by
  unfold DotDims.lhsIdx
  rw [dif_neg (show (1 : Fin 2) ∉ ([] : List (Fin 2)) by decide),
    dif_pos (show (1 : Fin 2) ∈ [(1 : Fin 2)] by decide)]
  rfl

/-- The right operand's axis 0 is the contracted one: at the contraction index with coordinate `c`
    its coordinate is `c`. -/
private theorem tm_rhs0 (j : (⟨2, ![M, N]⟩ : Shape).Idx) (c : Fin K) :
    ((tmDims K M N wf).rhsIdx j ((contrEquiv1 (tmDims K M N wf) K rfl rfl).symm c) 0).val = c.val := by
  rw [(tmDims K M N wf).rhsIdx_val_of_single rfl]
  exact contrEquiv1_symm_val (tmDims K M N wf) K rfl rfl c

/-- The right operand's axis 1 is its free axis: its coordinate is the result's column, whatever
    the contraction index. -/
private theorem tm_rhs1 (j : (⟨2, ![M, N]⟩ : Shape).Idx) (k : (tmDims K M N wf).contr.Idx) :
    ((tmDims K M N wf).rhsIdx j k 1).val = (j 1).val := by
  unfold DotDims.rhsIdx
  rw [dif_neg (show (1 : Fin 2) ∉ ([] : List (Fin 2)) by decide),
    dif_pos (show (1 : Fin 2) ∈ [(1 : Fin 2)] by decide)]
  rfl

/-- The transposed-left contraction's sum at `(p, q)`, over the contraction index set and through
    the operand index maps, is the sum over the contracted coordinate `k : Fin K` of
    `l[k, p] * r[k, q]`. -/
theorem tm_sum (l : (⟨2, ![K, M]⟩ : Shape).Idx → EReal) (r : (⟨2, ![K, N]⟩ : Shape).Idx → EReal)
    (p : Fin M) (q : Fin N) :
    ∑ k : (tmDims K M N wf).contr.Idx,
        l ((tmDims K M N wf).lhsIdx (ix2 p q) k) * r ((tmDims K M N wf).rhsIdx (ix2 p q) k)
      = ∑ k : Fin K, l (ix2 k p) * r (ix2 k q) := by
  rw [← Equiv.sum_comp (contrEquiv1 (tmDims K M N wf) K rfl rfl).symm]
  refine Finset.sum_congr rfl fun c _ => ?_
  have hl : (tmDims K M N wf).lhsIdx (ix2 p q) ((contrEquiv1 (tmDims K M N wf) K rfl rfl).symm c)
      = ix2 c p := by
    funext a; apply Fin.ext
    match a with
    | ⟨0, _⟩ => exact tm_lhs0 wf (ix2 p q) c
    | ⟨1, _⟩ => exact tm_lhs1 wf (ix2 p q) _
  have hr : (tmDims K M N wf).rhsIdx (ix2 p q) ((contrEquiv1 (tmDims K M N wf) K rfl rfl).symm c)
      = ix2 c q := by
    funext a; apply Fin.ext
    match a with
    | ⟨0, _⟩ => exact tm_rhs0 wf (ix2 p q) c
    | ⟨1, _⟩ => exact tm_rhs1 wf (ix2 p q) _
  rw [hl, hr]

end TM

/-- The accelerator's product of `[K, M]` (read transposed) by `[K, N]` accumulated into the
    all-zero array, at `(p, q)`: `∑ k, l[k, p] * r[k, q]` in the extended reals. -/
theorem matmul_zero_tm_apply {K M N : Nat} {φ₁ φ₂ : FTy}
    (wf : DotDims.WF ⟨2, ![K, M]⟩ ⟨2, ![K, N]⟩ ⟨2, ![M, N]⟩ [0] [0] [1] [1] [] [])
    (prec : Option ContractPrecision) (l : FVec Ideal ⟨2, ![K, M]⟩ φ₁) (r : FVec Ideal ⟨2, ![K, N]⟩ φ₂)
    (p : Fin M) (q : Fin N) :
    FloatOps.matmul (tmDims K M N wf) prec l r (constant ⟨2, ![M, N]⟩ .f32 0x00000000#32) (ix2 p q)
      = ∑ k : Fin K, l (ix2 k p) * r (ix2 k q) := by
  rw [Ideal.matmul_constant_zero_apply]
  exact tm_sum wf l r p q

end Idealize.ShloMosaic.Dot2

end
-- ==== Proof.CellSpec.lean ====
/-
  The binary-tree LSTM cell at one node and one hidden unit, over the extended reals.

  A node has an input vector `x`, the hidden vectors `hₗ`, `hᵣ` and the cell scalars `cₗ`, `cᵣ` of its two children
  (all of width 256). The parameters are three stacks of columns: `Wx` (256 × 1024: the candidate, input, forget and
  output projections of `x`, 256 columns each), a bias `b` of 1024 entries laid out the same way, and `Ul`, `Ur`
  (256 × 1280: the candidate, input, left-forget, right-forget and output projections of `hₗ`, resp. `hᵣ`).
  With `pre(a, d) = (x · Wx[:, a + q] + b[a + q]) + hₗ · Ul[:, d + q] + hᵣ · Ur[:, d + q]` for hidden unit `q`,
      c = σ(pre(256, 256)) · tanh(pre(0, 0)) + σ(pre(512, 512)) · cₗ + σ(pre(512, 768)) · cᵣ
      h = σ(pre(768, 1024)) · tanh c
  where `σ t = 1 / (1 + e^(−t))`, every sum and product taken in this order. Both forget gates share the one forget
  projection of `x` (offset 512). Nothing here needs the entries to be finite: no term is moved across another.
-/
import Idealize.ShloMosaic.PureOps.Ideal
import Idealize.ShloMosaic.Lib.ValueIdx
import Idealize.ShloMosaic.Lib.IdealHost

noncomputable section

open scoped BigOperators

namespace Cert.TreeCell

open Idealize.ShloMosaic Idealize.ShloMosaic.ValueIdx

/-- Column `o + q` of a stack of `n` columns: hidden unit `q` of the 256-column gate that starts at column `o`. -/
def col (n o : Nat) (h : o + 256 ≤ n) (q : Fin 256) : Fin n := ⟨o + q.val, by have := q.isLt; omega⟩

theorem col_val (n o : Nat) (h : o + 256 ≤ n) (q : Fin 256) : (col n o h q).val = o + q.val := rfl

/-- A 256-vector against column `c` of a 256 × `n` stack. -/
def dotRow {n : Nat} (v : Fin 256 → EReal) (w : (⟨2, ![256, n]⟩ : Shape).Idx → EReal) (c : Fin n) : EReal :=
  ∑ k : Fin 256, v k * w (ix2 k c)

/-- A gate's pre-activation: the biased projection of the input at column `a` of `wx`, plus the projections of the two
    children's hidden vectors at column `d` of `ul` and `ur`. -/
def gatePre (xr hl hr : Fin 256 → EReal) (wx : (⟨2, ![256, 1024]⟩ : Shape).Idx → EReal) (b : Fin 1024 → EReal)
    (ul ur : (⟨2, ![256, 1280]⟩ : Shape).Idx → EReal) (a : Fin 1024) (d : Fin 1280) : EReal :=
  (dotRow xr wx a + b a) + dotRow hl ul d + dotRow hr ur d

/-- The new cell state at hidden unit `q`. -/
def cellVal (xr hl hr : Fin 256 → EReal) (cl cr : EReal) (wx : (⟨2, ![256, 1024]⟩ : Shape).Idx → EReal) (b : Fin 1024 → EReal)
    (ul ur : (⟨2, ![256, 1280]⟩ : Shape).Idx → EReal) (q : Fin 256) : EReal :=
  Ideal.logistic (gatePre xr hl hr wx b ul ur (col 1024 256 (by norm_num) q) (col 1280 256 (by norm_num) q))
      * Ideal.tanh (gatePre xr hl hr wx b ul ur (col 1024 0 (by norm_num) q) (col 1280 0 (by norm_num) q))
    + Ideal.logistic (gatePre xr hl hr wx b ul ur (col 1024 512 (by norm_num) q) (col 1280 512 (by norm_num) q)) * cl
    + Ideal.logistic (gatePre xr hl hr wx b ul ur (col 1024 512 (by norm_num) q) (col 1280 768 (by norm_num) q)) * cr

/-- The new hidden state at hidden unit `q`. -/
def hiddenVal (xr hl hr : Fin 256 → EReal) (cl cr : EReal) (wx : (⟨2, ![256, 1024]⟩ : Shape).Idx → EReal) (b : Fin 1024 → EReal)
    (ul ur : (⟨2, ![256, 1280]⟩ : Shape).Idx → EReal) (q : Fin 256) : EReal :=
  Ideal.logistic (gatePre xr hl hr wx b ul ur (col 1024 768 (by norm_num) q) (col 1280 1024 (by norm_num) q))
    * Ideal.tanh (cellVal xr hl hr cl cr wx b ul ur q)

/-- The cell over `M` nodes at once: row `r` of the five node arrays is node `r`. -/
def cellArr {M : Nat} (x lc lh rc rh : (⟨2, ![M, 256]⟩ : Shape).Idx → EReal) (wx : (⟨2, ![256, 1024]⟩ : Shape).Idx → EReal)
    (b : Fin 1024 → EReal) (ul ur : (⟨2, ![256, 1280]⟩ : Shape).Idx → EReal) (r : Fin M) (q : Fin 256) : EReal :=
  cellVal (fun k => x (ix2 r k)) (fun k => lh (ix2 r k)) (fun k => rh (ix2 r k)) (lc (ix2 r q)) (rc (ix2 r q)) wx b ul ur q

def hiddenArr {M : Nat} (x lc lh rc rh : (⟨2, ![M, 256]⟩ : Shape).Idx → EReal) (wx : (⟨2, ![256, 1024]⟩ : Shape).Idx → EReal)
    (b : Fin 1024 → EReal) (ul ur : (⟨2, ![256, 1280]⟩ : Shape).Idx → EReal) (r : Fin M) (q : Fin 256) : EReal :=
  hiddenVal (fun k => x (ix2 r k)) (fun k => lh (ix2 r k)) (fun k => rh (ix2 r k)) (lc (ix2 r q)) (rc (ix2 r q)) wx b ul ur q

/-- The logistic function is its spelling by negation, exponential, one plus, and one over. -/
theorem logistic_spelt (t : EReal) : Ideal.div 1 (1 + Ideal.exp (-t)) = Ideal.logistic t := rfl

end Cert.TreeCell

end
-- ==== Proof.CellBlock.lean ====
/-
  The launch body's two stored values, read at row `p` and hidden unit `q` of a 1024-row block, are the tree cell's
  new cell state and new hidden state of node `p` of that block.

  The body forms three products of a 1024 × 256 block by a 256-row weight stack into an all-zero accumulator: at
  `(p, c)` each is the sum over `k` of `block[p, k] · stack[k, c]` (the narrowing of the operands changes no entry).
  The bias row is repeated down the 1024 rows. A gate's pre-activation is a 256-column slice of each product, the slice
  starting at column `o` reading column `o + q`. The rest is entrywise: sums, the logistic function, tanh, products.
-/
import proofs.«170559_j65017214926868_1_alg».proof.Proof.Gen.KernelIdeal.Skeleton
import proofs.«170559_j65017214926868_1_alg».proof.Proof.LibDot2
import proofs.«170559_j65017214926868_1_alg».proof.Proof.CellSpec
import Idealize.ShloMosaic.Lib.ValueLayout
import Idealize.ShloMosaic.PureOps.Ideal.Laws

noncomputable section

open scoped BigOperators

namespace Cert.KernelIdeal.CellBlock

open Cert.KernelIdeal Cert.KernelIdeal.Gen Cert.TreeCell
open Idealize.ShloMosaic Idealize.ShloMosaic.ValueIdx

/-! ## The three products -/

/-- The input projection with its bias, at row `p` and column `c` of the 1024-column stack. -/
theorem xproj_apply (x0 : Vec Ideal S1024x256 .f32) (x5 : Vec Ideal S256x1024 .bf16) (x6 : Vec Ideal S1x1024 .f32) (p : Fin 1024) (c : Fin 1024) :
    k0_pay3 (F := Ideal) x0 x5 x6 (ix2 p c) = dotRow (fun k => x0 (ix2 p k)) x5 c + x6 (ix2 (0 : Fin 1) c) := by
  unfold k0_pay3
  simp only [shapeCast_self]
  refine congrArg₂ (· + ·) ?_ ?_
  · exact Dot2.matmul_zero_mm_apply dot_S1024x256_S256x1024_S1024x1024_1_0_0_1_n_n_wf none _ _ p c
  · exact broadcastTo_1b_ab_apply _ _ p c

/-- The left child's hidden projection, at row `p` and column `c` of the 1280-column stack. -/
theorem lproj_apply (x2 : Vec Ideal S1024x256 .f32) (x7 : Vec Ideal S256x1280 .bf16) (p : Fin 1024) (c : Fin 1280) :
    k0_pay4 (F := Ideal) x2 x7 (ix2 p c) = dotRow (fun k => x2 (ix2 p k)) x7 c := by
  unfold k0_pay4
  simp only [shapeCast_self]
  exact Dot2.matmul_zero_mm_apply dot_S1024x256_S256x1280_S1024x1280_1_0_0_1_n_n_wf none _ _ p c

/-- The right child's hidden projection, at row `p` and column `c` of the 1280-column stack. -/
theorem rproj_apply (x4 : Vec Ideal S1024x256 .f32) (x8 : Vec Ideal S256x1280 .bf16) (p : Fin 1024) (c : Fin 1280) :
    k0_pay5 (F := Ideal) x4 x8 (ix2 p c) = dotRow (fun k => x4 (ix2 p k)) x8 c := by
  unfold k0_pay5
  simp only [shapeCast_self]
  exact Dot2.matmul_zero_mm_apply dot_S1024x256_S256x1280_S1024x1280_1_0_0_1_n_n_wf none _ _ p c

/-! ## The gate slices: 256 columns from column `o` on -/

theorem slice3_0 (x0 : Vec Ideal S1024x256 .f32) (x5 : Vec Ideal S256x1024 .bf16) (x6 : Vec Ideal S1x1024 .f32) (p : Fin 1024) (q : Fin 256) :
    extractStridedSlice S1024x256 ![0, 0] (k0_pay3 (F := Ideal) x0 x5 x6) slices_S1024x1024_o0_0_S1024x256 (ix2 p q)
      = dotRow (fun k => x0 (ix2 p k)) x5 (col 1024 0 (by norm_num) q) + x6 (ix2 (0 : Fin 1) (col 1024 0 (by norm_num) q)) :=
  (slice2_axis1_apply 0 _ slices_S1024x1024_o0_0_S1024x256 p q (col 1024 0 (by norm_num) q) rfl).trans (xproj_apply x0 x5 x6 p _)
theorem slice3_256 (x0 : Vec Ideal S1024x256 .f32) (x5 : Vec Ideal S256x1024 .bf16) (x6 : Vec Ideal S1x1024 .f32) (p : Fin 1024) (q : Fin 256) :
    extractStridedSlice S1024x256 ![0, 256] (k0_pay3 (F := Ideal) x0 x5 x6) slices_S1024x1024_o0_256_S1024x256 (ix2 p q)
      = dotRow (fun k => x0 (ix2 p k)) x5 (col 1024 256 (by norm_num) q) + x6 (ix2 (0 : Fin 1) (col 1024 256 (by norm_num) q)) :=
  (slice2_axis1_apply 256 _ slices_S1024x1024_o0_256_S1024x256 p q (col 1024 256 (by norm_num) q) rfl).trans (xproj_apply x0 x5 x6 p _)
theorem slice3_512 (x0 : Vec Ideal S1024x256 .f32) (x5 : Vec Ideal S256x1024 .bf16) (x6 : Vec Ideal S1x1024 .f32) (p : Fin 1024) (q : Fin 256) :
    extractStridedSlice S1024x256 ![0, 512] (k0_pay3 (F := Ideal) x0 x5 x6) slices_S1024x1024_o0_512_S1024x256 (ix2 p q)
      = dotRow (fun k => x0 (ix2 p k)) x5 (col 1024 512 (by norm_num) q) + x6 (ix2 (0 : Fin 1) (col 1024 512 (by norm_num) q)) :=
  (slice2_axis1_apply 512 _ slices_S1024x1024_o0_512_S1024x256 p q (col 1024 512 (by norm_num) q) rfl).trans (xproj_apply x0 x5 x6 p _)
theorem slice3_768 (x0 : Vec Ideal S1024x256 .f32) (x5 : Vec Ideal S256x1024 .bf16) (x6 : Vec Ideal S1x1024 .f32) (p : Fin 1024) (q : Fin 256) :
    extractStridedSlice S1024x256 ![0, 768] (k0_pay3 (F := Ideal) x0 x5 x6) slices_S1024x1024_o0_768_S1024x256 (ix2 p q)
      = dotRow (fun k => x0 (ix2 p k)) x5 (col 1024 768 (by norm_num) q) + x6 (ix2 (0 : Fin 1) (col 1024 768 (by norm_num) q)) :=
  (slice2_axis1_apply 768 _ slices_S1024x1024_o0_768_S1024x256 p q (col 1024 768 (by norm_num) q) rfl).trans (xproj_apply x0 x5 x6 p _)
theorem slice4_0 (x2 : Vec Ideal S1024x256 .f32) (x7 : Vec Ideal S256x1280 .bf16) (p : Fin 1024) (q : Fin 256) :
    extractStridedSlice S1024x256 ![0, 0] (k0_pay4 (F := Ideal) x2 x7) slices_S1024x1280_o0_0_S1024x256 (ix2 p q)
      = dotRow (fun k => x2 (ix2 p k)) x7 (col 1280 0 (by norm_num) q) :=
  (slice2_axis1_apply 0 _ slices_S1024x1280_o0_0_S1024x256 p q (col 1280 0 (by norm_num) q) rfl).trans (lproj_apply x2 x7 p _)
theorem slice4_256 (x2 : Vec Ideal S1024x256 .f32) (x7 : Vec Ideal S256x1280 .bf16) (p : Fin 1024) (q : Fin 256) :
    extractStridedSlice S1024x256 ![0, 256] (k0_pay4 (F := Ideal) x2 x7) slices_S1024x1280_o0_256_S1024x256 (ix2 p q)
      = dotRow (fun k => x2 (ix2 p k)) x7 (col 1280 256 (by norm_num) q) :=
  (slice2_axis1_apply 256 _ slices_S1024x1280_o0_256_S1024x256 p q (col 1280 256 (by norm_num) q) rfl).trans (lproj_apply x2 x7 p _)
theorem slice4_512 (x2 : Vec Ideal S1024x256 .f32) (x7 : Vec Ideal S256x1280 .bf16) (p : Fin 1024) (q : Fin 256) :
    extractStridedSlice S1024x256 ![0, 512] (k0_pay4 (F := Ideal) x2 x7) slices_S1024x1280_o0_512_S1024x256 (ix2 p q)
      = dotRow (fun k => x2 (ix2 p k)) x7 (col 1280 512 (by norm_num) q) :=
  (slice2_axis1_apply 512 _ slices_S1024x1280_o0_512_S1024x256 p q (col 1280 512 (by norm_num) q) rfl).trans (lproj_apply x2 x7 p _)
theorem slice4_768 (x2 : Vec Ideal S1024x256 .f32) (x7 : Vec Ideal S256x1280 .bf16) (p : Fin 1024) (q : Fin 256) :
    extractStridedSlice S1024x256 ![0, 768] (k0_pay4 (F := Ideal) x2 x7) slices_S1024x1280_o0_768_S1024x256 (ix2 p q)
      = dotRow (fun k => x2 (ix2 p k)) x7 (col 1280 768 (by norm_num) q) :=
  (slice2_axis1_apply 768 _ slices_S1024x1280_o0_768_S1024x256 p q (col 1280 768 (by norm_num) q) rfl).trans (lproj_apply x2 x7 p _)
theorem slice4_1024 (x2 : Vec Ideal S1024x256 .f32) (x7 : Vec Ideal S256x1280 .bf16) (p : Fin 1024) (q : Fin 256) :
    extractStridedSlice S1024x256 ![0, 1024] (k0_pay4 (F := Ideal) x2 x7) slices_S1024x1280_o0_1024_S1024x256 (ix2 p q)
      = dotRow (fun k => x2 (ix2 p k)) x7 (col 1280 1024 (by norm_num) q) :=
  (slice2_axis1_apply 1024 _ slices_S1024x1280_o0_1024_S1024x256 p q (col 1280 1024 (by norm_num) q) rfl).trans (lproj_apply x2 x7 p _)
theorem slice5_0 (x4 : Vec Ideal S1024x256 .f32) (x8 : Vec Ideal S256x1280 .bf16) (p : Fin 1024) (q : Fin 256) :
    extractStridedSlice S1024x256 ![0, 0] (k0_pay5 (F := Ideal) x4 x8) slices_S1024x1280_o0_0_S1024x256 (ix2 p q)
      = dotRow (fun k => x4 (ix2 p k)) x8 (col 1280 0 (by norm_num) q) :=
  (slice2_axis1_apply 0 _ slices_S1024x1280_o0_0_S1024x256 p q (col 1280 0 (by norm_num) q) rfl).trans (rproj_apply x4 x8 p _)
theorem slice5_256 (x4 : Vec Ideal S1024x256 .f32) (x8 : Vec Ideal S256x1280 .bf16) (p : Fin 1024) (q : Fin 256) :
    extractStridedSlice S1024x256 ![0, 256] (k0_pay5 (F := Ideal) x4 x8) slices_S1024x1280_o0_256_S1024x256 (ix2 p q)
      = dotRow (fun k => x4 (ix2 p k)) x8 (col 1280 256 (by norm_num) q) :=
  (slice2_axis1_apply 256 _ slices_S1024x1280_o0_256_S1024x256 p q (col 1280 256 (by norm_num) q) rfl).trans (rproj_apply x4 x8 p _)
theorem slice5_512 (x4 : Vec Ideal S1024x256 .f32) (x8 : Vec Ideal S256x1280 .bf16) (p : Fin 1024) (q : Fin 256) :
    extractStridedSlice S1024x256 ![0, 512] (k0_pay5 (F := Ideal) x4 x8) slices_S1024x1280_o0_512_S1024x256 (ix2 p q)
      = dotRow (fun k => x4 (ix2 p k)) x8 (col 1280 512 (by norm_num) q) :=
  (slice2_axis1_apply 512 _ slices_S1024x1280_o0_512_S1024x256 p q (col 1280 512 (by norm_num) q) rfl).trans (rproj_apply x4 x8 p _)
theorem slice5_768 (x4 : Vec Ideal S1024x256 .f32) (x8 : Vec Ideal S256x1280 .bf16) (p : Fin 1024) (q : Fin 256) :
    extractStridedSlice S1024x256 ![0, 768] (k0_pay5 (F := Ideal) x4 x8) slices_S1024x1280_o0_768_S1024x256 (ix2 p q)
      = dotRow (fun k => x4 (ix2 p k)) x8 (col 1280 768 (by norm_num) q) :=
  (slice2_axis1_apply 768 _ slices_S1024x1280_o0_768_S1024x256 p q (col 1280 768 (by norm_num) q) rfl).trans (rproj_apply x4 x8 p _)
theorem slice5_1024 (x4 : Vec Ideal S1024x256 .f32) (x8 : Vec Ideal S256x1280 .bf16) (p : Fin 1024) (q : Fin 256) :
    extractStridedSlice S1024x256 ![0, 1024] (k0_pay5 (F := Ideal) x4 x8) slices_S1024x1280_o0_1024_S1024x256 (ix2 p q)
      = dotRow (fun k => x4 (ix2 p k)) x8 (col 1280 1024 (by norm_num) q) :=
  (slice2_axis1_apply 1024 _ slices_S1024x1280_o0_1024_S1024x256 p q (col 1280 1024 (by norm_num) q) rfl).trans (rproj_apply x4 x8 p _)

/-! ## The entrywise part -/

/-- The stored cell state, entry by entry, from its eleven operands. -/
theorem cellPay_apply (v6 v7 : Vec Ideal S1024x256 .f32) (v22 v23 v26 v27 v28 v31 v32 v33 v37 : FVec Ideal S1024x256 .f32) (i : S1024x256.Idx) :
    k0_pay1 (F := Ideal) v6 v7 v22 v23 v26 v27 v28 v31 v32 v33 v37 i
      = Ideal.logistic (v22 i + v26 i + v31 i) * v37 i + Ideal.logistic (v23 i + v27 i + v32 i) * v6 i
        + Ideal.logistic (v23 i + v28 i + v33 i) * v7 i := rfl

/-- The stored hidden state, entry by entry: the output gate times tanh of the stored cell state. -/
theorem hiddenPay_apply (v6 v7 : Vec Ideal S1024x256 .f32) (v22 v23 v24 v26 v27 v28 v29 v31 v32 v33 v34 v37 : FVec Ideal S1024x256 .f32) (i : S1024x256.Idx) :
    k0_pay2 (F := Ideal) v6 v7 v22 v23 v24 v26 v27 v28 v29 v31 v32 v33 v34 v37 i
      = Ideal.logistic (v24 i + v29 i + v34 i) * Ideal.tanh (k0_pay1 (F := Ideal) v6 v7 v22 v23 v26 v27 v28 v31 v32 v33 v37 i) := rfl

/-- The candidate: tanh of the three column-0 slices' sum. -/
theorem candPay_apply (x0 x2 x4 : Vec Ideal S1024x256 .f32) (x5 : Vec Ideal S256x1024 .bf16) (x6 : Vec Ideal S1x1024 .f32) (x7 x8 : Vec Ideal S256x1280 .bf16) (i : S1024x256.Idx) :
    k0_pay17 (F := Ideal) x0 x2 x4 x5 x6 x7 x8 i
      = Ideal.tanh (extractStridedSlice S1024x256 ![0, 0] (k0_pay3 (F := Ideal) x0 x5 x6) slices_S1024x1024_o0_0_S1024x256 i
          + extractStridedSlice S1024x256 ![0, 0] (k0_pay4 (F := Ideal) x2 x7) slices_S1024x1280_o0_0_S1024x256 i
          + extractStridedSlice S1024x256 ![0, 0] (k0_pay5 (F := Ideal) x4 x8) slices_S1024x1280_o0_0_S1024x256 i) := rfl

theorem pay6_eq (x0 : Vec Ideal S1024x256 .f32) (x5 : Vec Ideal S256x1024 .bf16) (x6 : Vec Ideal S1x1024 .f32) : k0_pay6 (F := Ideal) x0 x5 x6 = extractStridedSlice S1024x256 ![0, 256] (k0_pay3 (F := Ideal) x0 x5 x6) slices_S1024x1024_o0_256_S1024x256 := rfl
theorem pay7_eq (x0 : Vec Ideal S1024x256 .f32) (x5 : Vec Ideal S256x1024 .bf16) (x6 : Vec Ideal S1x1024 .f32) : k0_pay7 (F := Ideal) x0 x5 x6 = extractStridedSlice S1024x256 ![0, 512] (k0_pay3 (F := Ideal) x0 x5 x6) slices_S1024x1024_o0_512_S1024x256 := rfl
theorem pay8_eq (x0 : Vec Ideal S1024x256 .f32) (x5 : Vec Ideal S256x1024 .bf16) (x6 : Vec Ideal S1x1024 .f32) : k0_pay8 (F := Ideal) x0 x5 x6 = extractStridedSlice S1024x256 ![0, 768] (k0_pay3 (F := Ideal) x0 x5 x6) slices_S1024x1024_o0_768_S1024x256 := rfl
theorem pay9_eq (x2 : Vec Ideal S1024x256 .f32) (x7 : Vec Ideal S256x1280 .bf16) : k0_pay9 (F := Ideal) x2 x7 = extractStridedSlice S1024x256 ![0, 256] (k0_pay4 (F := Ideal) x2 x7) slices_S1024x1280_o0_256_S1024x256 := rfl
theorem pay10_eq (x2 : Vec Ideal S1024x256 .f32) (x7 : Vec Ideal S256x1280 .bf16) : k0_pay10 (F := Ideal) x2 x7 = extractStridedSlice S1024x256 ![0, 512] (k0_pay4 (F := Ideal) x2 x7) slices_S1024x1280_o0_512_S1024x256 := rfl
theorem pay11_eq (x2 : Vec Ideal S1024x256 .f32) (x7 : Vec Ideal S256x1280 .bf16) : k0_pay11 (F := Ideal) x2 x7 = extractStridedSlice S1024x256 ![0, 768] (k0_pay4 (F := Ideal) x2 x7) slices_S1024x1280_o0_768_S1024x256 := rfl
theorem pay12_eq (x2 : Vec Ideal S1024x256 .f32) (x7 : Vec Ideal S256x1280 .bf16) : k0_pay12 (F := Ideal) x2 x7 = extractStridedSlice S1024x256 ![0, 1024] (k0_pay4 (F := Ideal) x2 x7) slices_S1024x1280_o0_1024_S1024x256 := rfl
theorem pay13_eq (x4 : Vec Ideal S1024x256 .f32) (x8 : Vec Ideal S256x1280 .bf16) : k0_pay13 (F := Ideal) x4 x8 = extractStridedSlice S1024x256 ![0, 256] (k0_pay5 (F := Ideal) x4 x8) slices_S1024x1280_o0_256_S1024x256 := rfl
theorem pay14_eq (x4 : Vec Ideal S1024x256 .f32) (x8 : Vec Ideal S256x1280 .bf16) : k0_pay14 (F := Ideal) x4 x8 = extractStridedSlice S1024x256 ![0, 512] (k0_pay5 (F := Ideal) x4 x8) slices_S1024x1280_o0_512_S1024x256 := rfl
theorem pay15_eq (x4 : Vec Ideal S1024x256 .f32) (x8 : Vec Ideal S256x1280 .bf16) : k0_pay15 (F := Ideal) x4 x8 = extractStridedSlice S1024x256 ![0, 768] (k0_pay5 (F := Ideal) x4 x8) slices_S1024x1280_o0_768_S1024x256 := rfl
theorem pay16_eq (x4 : Vec Ideal S1024x256 .f32) (x8 : Vec Ideal S256x1280 .bf16) : k0_pay16 (F := Ideal) x4 x8 = extractStridedSlice S1024x256 ![0, 1024] (k0_pay5 (F := Ideal) x4 x8) slices_S1024x1280_o0_1024_S1024x256 := rfl

/-! ## The two stored blocks are the cell -/

/-- The stored cell-state block at `(p, q)`: the new cell state of node `p` of the block at hidden unit `q`, from the
    nine loaded blocks (`x0` input, `x1` left cell, `x2` left hidden, `x3` right cell, `x4` right hidden, `x5` input
    weights, `x6` bias row, `x7` left weights, `x8` right weights). -/
theorem cell_block (x0 x1 x2 x3 x4 : Vec Ideal S1024x256 .f32) (x5 : Vec Ideal S256x1024 .bf16) (x6 : Vec Ideal S1x1024 .f32) (x7 x8 : Vec Ideal S256x1280 .bf16) (p : Fin 1024) (q : Fin 256) :
    k0_pay1 (F := Ideal) x1 x3 (k0_pay6 (F := Ideal) x0 x5 x6) (k0_pay7 (F := Ideal) x0 x5 x6) (k0_pay9 (F := Ideal) x2 x7) (k0_pay10 (F := Ideal) x2 x7) (k0_pay11 (F := Ideal) x2 x7) (k0_pay13 (F := Ideal) x4 x8) (k0_pay14 (F := Ideal) x4 x8) (k0_pay15 (F := Ideal) x4 x8) (k0_pay17 (F := Ideal) x0 x2 x4 x5 x6 x7 x8) (ix2 p q)
      = cellArr x0 x1 x2 x3 x4 x5 (fun c => x6 (ix2 (0 : Fin 1) c)) x7 x8 p q := by
  rw [cellPay_apply, candPay_apply, pay6_eq, pay7_eq, pay9_eq, pay10_eq, pay11_eq, pay13_eq, pay14_eq, pay15_eq]
  rw [slice3_256, slice3_512, slice4_256, slice4_512, slice4_768, slice5_256, slice5_512, slice5_768, slice3_0, slice4_0, slice5_0]
  rfl

/-- The stored hidden-state block at `(p, q)`: the new hidden state of node `p` at hidden unit `q`. -/
theorem hidden_block (x0 x1 x2 x3 x4 : Vec Ideal S1024x256 .f32) (x5 : Vec Ideal S256x1024 .bf16) (x6 : Vec Ideal S1x1024 .f32) (x7 x8 : Vec Ideal S256x1280 .bf16) (p : Fin 1024) (q : Fin 256) :
    k0_pay2 (F := Ideal) x1 x3 (k0_pay6 (F := Ideal) x0 x5 x6) (k0_pay7 (F := Ideal) x0 x5 x6) (k0_pay8 (F := Ideal) x0 x5 x6) (k0_pay9 (F := Ideal) x2 x7) (k0_pay10 (F := Ideal) x2 x7) (k0_pay11 (F := Ideal) x2 x7) (k0_pay12 (F := Ideal) x2 x7) (k0_pay13 (F := Ideal) x4 x8) (k0_pay14 (F := Ideal) x4 x8) (k0_pay15 (F := Ideal) x4 x8) (k0_pay16 (F := Ideal) x4 x8) (k0_pay17 (F := Ideal) x0 x2 x4 x5 x6 x7 x8) (ix2 p q)
      = hiddenArr x0 x1 x2 x3 x4 x5 (fun c => x6 (ix2 (0 : Fin 1) c)) x7 x8 p q := by
  rw [hiddenPay_apply, cell_block, pay8_eq, pay12_eq, pay16_eq, slice3_768, slice4_1024, slice5_1024]
  rfl

end Cert.KernelIdeal.CellBlock

end
-- ==== Proof.CellValue.lean ====
/-
  What the launch leaves in its two result arrays: at node `r` and hidden unit `q`, the tree cell's new cell state and
  new hidden state of node `r`, over the weight stacks as the launch finds them.

  The launch finds the input weights as the four square matrices joined along the rows, transposed and narrowed (narrowing
  changes no entry), the two child stacks likewise from five matrices each, and the bias as the four bias vectors joined
  and viewed as one row. Point `t` of the grid stages rows `[1024 t, 1024 (t + 1))` of each node array, so entry `(p, k)` of a
  staged block is entry `(1024 t + p, k)` of its array; the weight blocks are the whole stacks at every point. The block a
  point writes back is therefore the cell of nodes `1024 t + p`, and the 128 blocks tile the 131072 rows: node `r` lies in
  the block of point `r / 1024`.
-/
import proofs.«170559_j65017214926868_1_alg».proof.Proof.CellFrameIdeal
import proofs.«170559_j65017214926868_1_alg».proof.Proof.CellBlock
import Idealize.ShloMosaic.Lib.Pipeline.Value
import Idealize.ShloMosaic.Lib.StableHlo.Run
import Idealize.ShloMosaic.Lib.ValueLayout

set_option maxRecDepth 16384

noncomputable section

open scoped BigOperators

namespace Cert.KernelIdeal.CellValue

open Cert.KernelIdeal Cert.KernelIdeal.Gen Cert.KernelIdeal.CellFrame Cert.KernelIdeal.CellBlock Cert.TreeCell
open Idealize.ShloMosaic Idealize.ShloMosaic.TcCoe Idealize.ShloMosaic.ValueIdx Idealize.SL.Sem Idealize.ShloMosaic.StableHlo
open Idealize.ShloMosaic.Pipeline (Dat)

variable (m : (ℓ : Loc nD τ sig) → Buf (Elt Ideal) ℓ) (ρ : Dev nD → PrngReg)

/-! ## The weight stacks -/

/-- Four square matrices joined along the rows, then transposed: column `256 g + j` is row `j` of matrix `g`. -/
def wxStack (a b c d : S256x256.Idx → EReal) : S256x1024.Idx → EReal :=
  transpose S256x1024 [1, 0] (concatenate S1024x256 0 [⟨S256x256, a⟩, ⟨S256x256, b⟩, ⟨S256x256, c⟩, ⟨S256x256, d⟩]
    concatenates_S256x256_S256x256_S256x256_S256x256_S1024x256_d0) transposes_S1024x256_S256x1024_1_0

/-- Five square matrices joined along the rows, then transposed. -/
def uStack (a b c d e : S256x256.Idx → EReal) : S256x1280.Idx → EReal :=
  transpose S256x1280 [1, 0] (concatenate S1280x256 0 [⟨S256x256, a⟩, ⟨S256x256, b⟩, ⟨S256x256, c⟩, ⟨S256x256, d⟩, ⟨S256x256, e⟩]
    concatenates_S256x256_S256x256_S256x256_S256x256_S256x256_S1280x256_d0) transposes_S1280x256_S256x1280_1_0

/-- Four bias vectors joined. -/
def biasStack (a b c d : S256.Idx → EReal) : S1024.Idx → EReal :=
  concatenate S1024 0 [⟨S256, a⟩, ⟨S256, b⟩, ⟨S256, c⟩, ⟨S256, d⟩] concatenates_S256_S256_S256_S256_S1024_d0

/-- The input-weight window's array as the launch finds it. -/
theorem V_wx (c : Dev nD) : (V m c main_v5 : S256x1024.Idx → EReal) = (wxStack (m ((c : Thread nD τ).loc main_arg5)) (m ((c : Thread nD τ).loc main_arg11)) (m ((c : Thread nD τ).loc main_arg9)) (m ((c : Thread nD τ).loc main_arg7))) := by
  dsimp only [V]
  simp only [hostOps0, List.flatten_cons, List.flatten_nil, List.append_nil]
  after_results
  rfl

/-- The left child's weight window's array as the launch finds it. -/
theorem V_ul (c : Dev nD) : (V m c main_v7 : S256x1280.Idx → EReal) = (uStack (m ((c : Thread nD τ).loc main_arg19)) (m ((c : Thread nD τ).loc main_arg13)) (m ((c : Thread nD τ).loc main_arg15)) (m ((c : Thread nD τ).loc main_arg17)) (m ((c : Thread nD τ).loc main_arg21))) := by
  dsimp only [V]
  simp only [hostOps0, List.flatten_cons, List.flatten_nil, List.append_nil]
  after_results
  rfl

/-- The right child's weight window's array as the launch finds it. -/
theorem V_ur (c : Dev nD) : (V m c main_v9 : S256x1280.Idx → EReal) = (uStack (m ((c : Thread nD τ).loc main_arg20)) (m ((c : Thread nD τ).loc main_arg14)) (m ((c : Thread nD τ).loc main_arg16)) (m ((c : Thread nD τ).loc main_arg18)) (m ((c : Thread nD τ).loc main_arg22))) := by
  dsimp only [V]
  simp only [hostOps0, List.flatten_cons, List.flatten_nil, List.append_nil]
  after_results
  rfl

/-- The bias window's array as the launch finds it: the joined biases as one row. -/
theorem V_bias (c : Dev nD) : (V m c main_v10 : S1x1024.Idx → EReal) = shapeCast S1x1024 (biasStack (m ((c : Thread nD τ).loc main_arg6)) (m ((c : Thread nD τ).loc main_arg12)) (m ((c : Thread nD τ).loc main_arg10)) (m ((c : Thread nD τ).loc main_arg8))) shapeCasts_S1024_S1x1024 := by
  dsimp only [V]
  simp only [hostOps0, List.flatten_cons, List.flatten_nil, List.append_nil]
  after_results
  rfl

/-! ## Where a point's blocks lie -/

/-- Node `p` of point `t`'s block is node `1024 t + p`. -/
def row (t : Fin cfg0.N) (p : Fin 1024) : Fin 131072 :=
  ⟨1024 * t.val + p.val, by have h1 := t.isLt; have h2 := p.isLt; have hN : cfg0.N = 128 := N_0; omega⟩

theorem idx_rows0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx_rows1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
theorem idx_rows2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)
theorem idx_rows3 : ∀ t : Fin cfg0.N, win0_3.index t (0 : Fin 2) = t.val ∧ win0_3.index t (1 : Fin 2) = 0 :=
  (by decide +kernel : ∀ t : Fin grid0.N, win0_3.index t (0 : Fin 2) = t.val ∧ win0_3.index t (1 : Fin 2) = 0)
theorem idx_rows4 : ∀ t : Fin cfg0.N, win0_4.index t (0 : Fin 2) = t.val ∧ win0_4.index t (1 : Fin 2) = 0 :=
  (by decide +kernel : ∀ t : Fin grid0.N, win0_4.index t (0 : Fin 2) = t.val ∧ win0_4.index t (1 : Fin 2) = 0)
theorem idx_rows9 : ∀ t : Fin cfg0.N, win0_9.index t (0 : Fin 2) = t.val ∧ win0_9.index t (1 : Fin 2) = 0 :=
  (by decide +kernel : ∀ t : Fin grid0.N, win0_9.index t (0 : Fin 2) = t.val ∧ win0_9.index t (1 : Fin 2) = 0)
theorem idx_rows10 : ∀ t : Fin cfg0.N, win0_10.index t (0 : Fin 2) = t.val ∧ win0_10.index t (1 : Fin 2) = 0 :=
  (by decide +kernel : ∀ t : Fin grid0.N, win0_10.index t (0 : Fin 2) = t.val ∧ win0_10.index t (1 : Fin 2) = 0)
theorem idx_whole5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)
theorem idx_whole6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)
theorem idx_whole7 : ∀ t : Fin cfg0.N, win0_7.index t (0 : Fin 2) = 0 ∧ win0_7.index t (1 : Fin 2) = 0 :=
  (by decide +kernel : ∀ t : Fin grid0.N, win0_7.index t (0 : Fin 2) = 0 ∧ win0_7.index t (1 : Fin 2) = 0)
theorem idx_whole8 : ∀ t : Fin cfg0.N, win0_8.index t (0 : Fin 2) = 0 ∧ win0_8.index t (1 : Fin 2) = 0 :=
  (by decide +kernel : ∀ t : Fin grid0.N, win0_8.index t (0 : Fin 2) = 0 ∧ win0_8.index t (1 : Fin 2) = 0)

/-- Window 0's block at point `t` sits at rows `1024 t + p`, all 256 columns. -/
theorem emb_rows0 (t : Fin cfg0.N) (j : S1024x256.Idx) : ((cfg0.win 0).blk t).view.emb j = ix2 (row t (j 0)) (j 1) := by
  funext a; apply Fin.ext
  obtain ⟨e0, e1⟩ := idx_rows0 t
  match a with
  | ⟨0, _⟩ => show win0_0.index t (0 : Fin 2) * 1024 + 1 * (j 0).val = 1024 * t.val + (j 0).val; rw [e0]; omega
  | ⟨1, _⟩ => show win0_0.index t (1 : Fin 2) * 256 + 1 * (j 1).val = (j 1).val; rw [e1]; omega
/-- Window 1's block at point `t` sits at rows `1024 t + p`, all 256 columns. -/
theorem emb_rows1 (t : Fin cfg0.N) (j : S1024x256.Idx) : ((cfg0.win 1).blk t).view.emb j = ix2 (row t (j 0)) (j 1) := by
  funext a; apply Fin.ext
  obtain ⟨e0, e1⟩ := idx_rows1 t
  match a with
  | ⟨0, _⟩ => show win0_1.index t (0 : Fin 2) * 1024 + 1 * (j 0).val = 1024 * t.val + (j 0).val; rw [e0]; omega
  | ⟨1, _⟩ => show win0_1.index t (1 : Fin 2) * 256 + 1 * (j 1).val = (j 1).val; rw [e1]; omega
/-- Window 2's block at point `t` sits at rows `1024 t + p`, all 256 columns. -/
theorem emb_rows2 (t : Fin cfg0.N) (j : S1024x256.Idx) : ((cfg0.win 2).blk t).view.emb j = ix2 (row t (j 0)) (j 1) := by
  funext a; apply Fin.ext
  obtain ⟨e0, e1⟩ := idx_rows2 t
  match a with
  | ⟨0, _⟩ => show win0_2.index t (0 : Fin 2) * 1024 + 1 * (j 0).val = 1024 * t.val + (j 0).val; rw [e0]; omega
  | ⟨1, _⟩ => show win0_2.index t (1 : Fin 2) * 256 + 1 * (j 1).val = (j 1).val; rw [e1]; omega
/-- Window 3's block at point `t` sits at rows `1024 t + p`, all 256 columns. -/
theorem emb_rows3 (t : Fin cfg0.N) (j : S1024x256.Idx) : ((cfg0.win 3).blk t).view.emb j = ix2 (row t (j 0)) (j 1) := by
  funext a; apply Fin.ext
  obtain ⟨e0, e1⟩ := idx_rows3 t
  match a with
  | ⟨0, _⟩ => show win0_3.index t (0 : Fin 2) * 1024 + 1 * (j 0).val = 1024 * t.val + (j 0).val; rw [e0]; omega
  | ⟨1, _⟩ => show win0_3.index t (1 : Fin 2) * 256 + 1 * (j 1).val = (j 1).val; rw [e1]; omega
/-- Window 4's block at point `t` sits at rows `1024 t + p`, all 256 columns. -/
theorem emb_rows4 (t : Fin cfg0.N) (j : S1024x256.Idx) : ((cfg0.win 4).blk t).view.emb j = ix2 (row t (j 0)) (j 1) := by
  funext a; apply Fin.ext
  obtain ⟨e0, e1⟩ := idx_rows4 t
  match a with
  | ⟨0, _⟩ => show win0_4.index t (0 : Fin 2) * 1024 + 1 * (j 0).val = 1024 * t.val + (j 0).val; rw [e0]; omega
  | ⟨1, _⟩ => show win0_4.index t (1 : Fin 2) * 256 + 1 * (j 1).val = (j 1).val; rw [e1]; omega
/-- Window 9's block at point `t` sits at rows `1024 t + p`, all 256 columns. -/
theorem emb_rows9 (t : Fin cfg0.N) (j : S1024x256.Idx) : ((cfg0.win 9).blk t).view.emb j = ix2 (row t (j 0)) (j 1) := by
  funext a; apply Fin.ext
  obtain ⟨e0, e1⟩ := idx_rows9 t
  match a with
  | ⟨0, _⟩ => show win0_9.index t (0 : Fin 2) * 1024 + 1 * (j 0).val = 1024 * t.val + (j 0).val; rw [e0]; omega
  | ⟨1, _⟩ => show win0_9.index t (1 : Fin 2) * 256 + 1 * (j 1).val = (j 1).val; rw [e1]; omega
/-- Window 10's block at point `t` sits at rows `1024 t + p`, all 256 columns. -/
theorem emb_rows10 (t : Fin cfg0.N) (j : S1024x256.Idx) : ((cfg0.win 10).blk t).view.emb j = ix2 (row t (j 0)) (j 1) := by
  funext a; apply Fin.ext
  obtain ⟨e0, e1⟩ := idx_rows10 t
  match a with
  | ⟨0, _⟩ => show win0_10.index t (0 : Fin 2) * 1024 + 1 * (j 0).val = 1024 * t.val + (j 0).val; rw [e0]; omega
  | ⟨1, _⟩ => show win0_10.index t (1 : Fin 2) * 256 + 1 * (j 1).val = (j 1).val; rw [e1]; omega
/-- Window 5's block is its whole array at every point. -/
theorem blk_whole5 (c : Dev nD) (t : Fin cfg0.N) : (iblk m c 5 t : Vec Ideal S256x1024 .bf16) = V m c main_v5 := by
  funext y
  unfold iblk
  rw [View.read_apply]
  show V m c main_v5 _ = V m c main_v5 y
  congr 1
  funext a; apply Fin.ext
  obtain ⟨e0, e1⟩ := idx_whole5 t
  match a with
  | ⟨0, _⟩ => show win0_5.index t (0 : Fin 2) * 256 + 1 * (y 0).val = (y 0).val; rw [e0]; omega
  | ⟨1, _⟩ => show win0_5.index t (1 : Fin 2) * 1024 + 1 * (y 1).val = (y 1).val; rw [e1]; omega
/-- Window 6's block is its whole array at every point. -/
theorem blk_whole6 (c : Dev nD) (t : Fin cfg0.N) : (iblk m c 6 t : Vec Ideal S1x1024 .f32) = V m c main_v10 := by
  funext y
  unfold iblk
  rw [View.read_apply]
  show V m c main_v10 _ = V m c main_v10 y
  congr 1
  funext a; apply Fin.ext
  obtain ⟨e0, e1⟩ := idx_whole6 t
  match a with
  | ⟨0, _⟩ => show win0_6.index t (0 : Fin 2) * 1 + 1 * (y 0).val = (y 0).val; rw [e0]; omega
  | ⟨1, _⟩ => show win0_6.index t (1 : Fin 2) * 1024 + 1 * (y 1).val = (y 1).val; rw [e1]; omega
/-- Window 7's block is its whole array at every point. -/
theorem blk_whole7 (c : Dev nD) (t : Fin cfg0.N) : (iblk m c 7 t : Vec Ideal S256x1280 .bf16) = V m c main_v7 := by
  funext y
  unfold iblk
  rw [View.read_apply]
  show V m c main_v7 _ = V m c main_v7 y
  congr 1
  funext a; apply Fin.ext
  obtain ⟨e0, e1⟩ := idx_whole7 t
  match a with
  | ⟨0, _⟩ => show win0_7.index t (0 : Fin 2) * 256 + 1 * (y 0).val = (y 0).val; rw [e0]; omega
  | ⟨1, _⟩ => show win0_7.index t (1 : Fin 2) * 1280 + 1 * (y 1).val = (y 1).val; rw [e1]; omega
/-- Window 8's block is its whole array at every point. -/
theorem blk_whole8 (c : Dev nD) (t : Fin cfg0.N) : (iblk m c 8 t : Vec Ideal S256x1280 .bf16) = V m c main_v9 := by
  funext y
  unfold iblk
  rw [View.read_apply]
  show V m c main_v9 _ = V m c main_v9 y
  congr 1
  funext a; apply Fin.ext
  obtain ⟨e0, e1⟩ := idx_whole8 t
  match a with
  | ⟨0, _⟩ => show win0_8.index t (0 : Fin 2) * 256 + 1 * (y 0).val = (y 0).val; rw [e0]; omega
  | ⟨1, _⟩ => show win0_8.index t (1 : Fin 2) * 1280 + 1 * (y 1).val = (y 1).val; rw [e1]; omega
/-- Node window 0's block at `(p, k)` is argument 0 at `(1024 t + p, k)`. -/
theorem blk_node0 (c : Dev nD) (t : Fin cfg0.N) (p : Fin 1024) (k : Fin 256) :
    (iblk m c 0 t : Vec Ideal S1024x256 .f32) (ix2 p k) = (m ((c : Thread nD τ).loc main_arg0)) (ix2 (row t p) k) := by
  unfold iblk
  rw [View.read_apply]
  show V m c main_arg0 _ = _
  rw [V_main_arg0, emb_rows0]
  rfl
/-- Node window 1's block at `(p, k)` is argument 1 at `(1024 t + p, k)`. -/
theorem blk_node1 (c : Dev nD) (t : Fin cfg0.N) (p : Fin 1024) (k : Fin 256) :
    (iblk m c 1 t : Vec Ideal S1024x256 .f32) (ix2 p k) = (m ((c : Thread nD τ).loc main_arg1)) (ix2 (row t p) k) := by
  unfold iblk
  rw [View.read_apply]
  show V m c main_arg1 _ = _
  rw [V_main_arg1, emb_rows1]
  rfl
/-- Node window 2's block at `(p, k)` is argument 2 at `(1024 t + p, k)`. -/
theorem blk_node2 (c : Dev nD) (t : Fin cfg0.N) (p : Fin 1024) (k : Fin 256) :
    (iblk m c 2 t : Vec Ideal S1024x256 .f32) (ix2 p k) = (m ((c : Thread nD τ).loc main_arg2)) (ix2 (row t p) k) := by
  unfold iblk
  rw [View.read_apply]
  show V m c main_arg2 _ = _
  rw [V_main_arg2, emb_rows2]
  rfl
/-- Node window 3's block at `(p, k)` is argument 3 at `(1024 t + p, k)`. -/
theorem blk_node3 (c : Dev nD) (t : Fin cfg0.N) (p : Fin 1024) (k : Fin 256) :
    (iblk m c 3 t : Vec Ideal S1024x256 .f32) (ix2 p k) = (m ((c : Thread nD τ).loc main_arg3)) (ix2 (row t p) k) := by
  unfold iblk
  rw [View.read_apply]
  show V m c main_arg3 _ = _
  rw [V_main_arg3, emb_rows3]
  rfl
/-- Node window 4's block at `(p, k)` is argument 4 at `(1024 t + p, k)`. -/
theorem blk_node4 (c : Dev nD) (t : Fin cfg0.N) (p : Fin 1024) (k : Fin 256) :
    (iblk m c 4 t : Vec Ideal S1024x256 .f32) (ix2 p k) = (m ((c : Thread nD τ).loc main_arg4)) (ix2 (row t p) k) := by
  unfold iblk
  rw [View.read_apply]
  show V m c main_arg4 _ = _
  rw [V_main_arg4, emb_rows4]
  rfl

/-! ## The two result arrays as whole-array functions -/

/-- The new cell state of every node. -/
def cellG (c : Dev nD) : S131072x256.Idx → EReal := fun i =>
  cellArr (m ((c : Thread nD τ).loc main_arg0)) (m ((c : Thread nD τ).loc main_arg1)) (m ((c : Thread nD τ).loc main_arg2)) (m ((c : Thread nD τ).loc main_arg3)) (m ((c : Thread nD τ).loc main_arg4)) (wxStack (m ((c : Thread nD τ).loc main_arg5)) (m ((c : Thread nD τ).loc main_arg11)) (m ((c : Thread nD τ).loc main_arg9)) (m ((c : Thread nD τ).loc main_arg7))) (fun c' : Fin 1024 => biasStack (m ((c : Thread nD τ).loc main_arg6)) (m ((c : Thread nD τ).loc main_arg12)) (m ((c : Thread nD τ).loc main_arg10)) (m ((c : Thread nD τ).loc main_arg8)) (ix1 c')) (uStack (m ((c : Thread nD τ).loc main_arg19)) (m ((c : Thread nD τ).loc main_arg13)) (m ((c : Thread nD τ).loc main_arg15)) (m ((c : Thread nD τ).loc main_arg17)) (m ((c : Thread nD τ).loc main_arg21))) (uStack (m ((c : Thread nD τ).loc main_arg20)) (m ((c : Thread nD τ).loc main_arg14)) (m ((c : Thread nD τ).loc main_arg16)) (m ((c : Thread nD τ).loc main_arg18)) (m ((c : Thread nD τ).loc main_arg22))) (i 0) (i 1)

/-- The new hidden state of every node. -/
def hiddenG (c : Dev nD) : S131072x256.Idx → EReal := fun i =>
  hiddenArr (m ((c : Thread nD τ).loc main_arg0)) (m ((c : Thread nD τ).loc main_arg1)) (m ((c : Thread nD τ).loc main_arg2)) (m ((c : Thread nD τ).loc main_arg3)) (m ((c : Thread nD τ).loc main_arg4)) (wxStack (m ((c : Thread nD τ).loc main_arg5)) (m ((c : Thread nD τ).loc main_arg11)) (m ((c : Thread nD τ).loc main_arg9)) (m ((c : Thread nD τ).loc main_arg7))) (fun c' : Fin 1024 => biasStack (m ((c : Thread nD τ).loc main_arg6)) (m ((c : Thread nD τ).loc main_arg12)) (m ((c : Thread nD τ).loc main_arg10)) (m ((c : Thread nD τ).loc main_arg8)) (ix1 c')) (uStack (m ((c : Thread nD τ).loc main_arg19)) (m ((c : Thread nD τ).loc main_arg13)) (m ((c : Thread nD τ).loc main_arg15)) (m ((c : Thread nD τ).loc main_arg17)) (m ((c : Thread nD τ).loc main_arg21))) (uStack (m ((c : Thread nD τ).loc main_arg20)) (m ((c : Thread nD τ).loc main_arg14)) (m ((c : Thread nD τ).loc main_arg16)) (m ((c : Thread nD τ).loc main_arg18)) (m ((c : Thread nD τ).loc main_arg22))) (i 0) (i 1)

theorem hz : (![0, 0] : Fin 2 → Nat) = fun _ => 0 := funext fun a => by fin_cases a <;> rfl

/-- The bias row of a block, column by column, is the joined biases. -/
theorem bias_row (c : Dev nD) (t : Fin cfg0.N) :
    (fun c' : Fin 1024 => (iblk m c 6 t : Vec Ideal S1x1024 .f32) (ix2 (0 : Fin 1) c')) = (fun c' : Fin 1024 => biasStack (m ((c : Thread nD τ).loc main_arg6)) (m ((c : Thread nD τ).loc main_arg12)) (m ((c : Thread nD τ).loc main_arg10)) (m ((c : Thread nD τ).loc main_arg8)) (ix1 c')) := by
  funext c'
  rw [blk_whole6, V_bias]
  exact shapeCast_a_1a_apply _ _ 0 c'

/-- The nine input blocks of point `t`, fed to the cell at `(p, q)`, give the cell of node `1024 t + p`. -/
theorem cell_at_point (c : Dev nD) (t : Fin cfg0.N) (p : Fin 1024) (q : Fin 256) :
    cellArr (iblk m c 0 t : Vec Ideal S1024x256 .f32) (iblk m c 1 t : Vec Ideal S1024x256 .f32) (iblk m c 2 t : Vec Ideal S1024x256 .f32)
        (iblk m c 3 t : Vec Ideal S1024x256 .f32) (iblk m c 4 t : Vec Ideal S1024x256 .f32) (iblk m c 5 t : Vec Ideal S256x1024 .bf16)
        (fun c' : Fin 1024 => (iblk m c 6 t : Vec Ideal S1x1024 .f32) (ix2 (0 : Fin 1) c'))
        (iblk m c 7 t : Vec Ideal S256x1280 .bf16) (iblk m c 8 t : Vec Ideal S256x1280 .bf16) p q
      = cellG m c (ix2 (row t p) q) := by
  unfold cellG cellArr
  rw [bias_row, blk_whole5, blk_whole7, blk_whole8, V_wx, V_ul, V_ur]
  simp only [blk_node0, blk_node1, blk_node2, blk_node3, blk_node4]

theorem hidden_at_point (c : Dev nD) (t : Fin cfg0.N) (p : Fin 1024) (q : Fin 256) :
    hiddenArr (iblk m c 0 t : Vec Ideal S1024x256 .f32) (iblk m c 1 t : Vec Ideal S1024x256 .f32) (iblk m c 2 t : Vec Ideal S1024x256 .f32)
        (iblk m c 3 t : Vec Ideal S1024x256 .f32) (iblk m c 4 t : Vec Ideal S1024x256 .f32) (iblk m c 5 t : Vec Ideal S256x1024 .bf16)
        (fun c' : Fin 1024 => (iblk m c 6 t : Vec Ideal S1x1024 .f32) (ix2 (0 : Fin 1) c'))
        (iblk m c 7 t : Vec Ideal S256x1280 .bf16) (iblk m c 8 t : Vec Ideal S256x1280 .bf16) p q
      = hiddenG m c (ix2 (row t p) q) := by
  unfold hiddenG hiddenArr
  rw [bias_row, blk_whole5, blk_whole7, blk_whole8, V_wx, V_ul, V_ur]
  simp only [blk_node0, blk_node1, blk_node2, blk_node3, blk_node4]

/-! ## What a point writes back -/

/-- Point `t` writes back block `t` of the cell-state function. -/
theorem flushed_cell (c : Dev nD) (t : Fin cfg0.N) :
    (dats m 0 c).flushed 9 t = ((cfg0.win 9).blk t).view.read (Elt Ideal) (cellG m c) := by
  show (cfg0.win 9).cut (grid0.coords t) ((dats m 0 c).after 9 t) = _
  rw [after_cell]
  unfold cellOut
  rw [View.canon_unit_zero hz]
  simp only [View.ld_unit_zero (S := S1024x256) hz, View.ld_unit_zero (S := S256x1024) hz, View.ld_unit_zero (S := S1x1024) hz, View.ld_unit_zero (S := S256x1280) hz]
  funext j
  rw [View.read_apply, emb_rows9]
  obtain ⟨p, q, rfl⟩ : ∃ (p : Fin 1024) (q : Fin 256), j = ix2 p q := ⟨j 0, j 1, eq_ix2 j⟩
  refine (cell_block (iblk m c 0 t) (iblk m c 1 t) (iblk m c 2 t) (iblk m c 3 t) (iblk m c 4 t) (iblk m c 5 t) (iblk m c 6 t) (iblk m c 7 t) (iblk m c 8 t) p q).trans ?_
  exact cell_at_point m c t p q

/-- Point `t` writes back block `t` of the hidden-state function. -/
theorem flushed_hidden (c : Dev nD) (t : Fin cfg0.N) :
    (dats m 0 c).flushed 10 t = ((cfg0.win 10).blk t).view.read (Elt Ideal) (hiddenG m c) := by
  show (cfg0.win 10).cut (grid0.coords t) ((dats m 0 c).after 10 t) = _
  rw [after_hidden]
  unfold hiddenOut
  rw [View.canon_unit_zero hz]
  simp only [View.ld_unit_zero (S := S1024x256) hz, View.ld_unit_zero (S := S256x1024) hz, View.ld_unit_zero (S := S1x1024) hz, View.ld_unit_zero (S := S256x1280) hz]
  funext j
  rw [View.read_apply, emb_rows10]
  obtain ⟨p, q, rfl⟩ : ∃ (p : Fin 1024) (q : Fin 256), j = ix2 p q := ⟨j 0, j 1, eq_ix2 j⟩
  refine (hidden_block (iblk m c 0 t) (iblk m c 1 t) (iblk m c 2 t) (iblk m c 3 t) (iblk m c 4 t) (iblk m c 5 t) (iblk m c 6 t) (iblk m c 7 t) (iblk m c 8 t) p q).trans ?_
  exact hidden_at_point m c t p q

/-! ## The blocks tile the rows -/

/-- Every entry of result 0 is in the block of the point its row selects. -/
theorem cover9 (i : S131072x256.Idx) : ∃ t : Fin cfg0.N, (cfg0.win 9).flush t = true ∧ i ∈ ((cfg0.win 9).blk t).view.set := by
  have hN : cfg0.N = 128 := N_0
  have h0 : (i 0).val < 131072 := (i 0).isLt
  have h1 : (i 1).val < 256 := (i 1).isLt
  let t : Fin cfg0.N := ⟨(i 0).val / 1024, by omega⟩
  refine ⟨t, flush0_9 t, ?_⟩
  show i ∈ ((View.whole main_v11_0).slice (win0_9.rect t)).set
  rw [View.set_slice_whole, Rect.mem_set_unit]
  obtain ⟨e0, e1⟩ := idx_rows9 t
  have ht : t.val = (i 0).val / 1024 := rfl
  intro a
  match a with
  | ⟨0, _⟩ => show win0_9.index t (0 : Fin 2) * 1024 ≤ (i 0).val ∧ (i 0).val < win0_9.index t (0 : Fin 2) * 1024 + 1024; rw [e0]; omega
  | ⟨1, _⟩ => show win0_9.index t (1 : Fin 2) * 256 ≤ (i 1).val ∧ (i 1).val < win0_9.index t (1 : Fin 2) * 256 + 256; rw [e1]; omega
/-- Every entry of result 1 is in the block of the point its row selects. -/
theorem cover10 (i : S131072x256.Idx) : ∃ t : Fin cfg0.N, (cfg0.win 10).flush t = true ∧ i ∈ ((cfg0.win 10).blk t).view.set := by
  have hN : cfg0.N = 128 := N_0
  have h0 : (i 0).val < 131072 := (i 0).isLt
  have h1 : (i 1).val < 256 := (i 1).isLt
  let t : Fin cfg0.N := ⟨(i 0).val / 1024, by omega⟩
  refine ⟨t, flush0_10 t, ?_⟩
  show i ∈ ((View.whole main_v11_1).slice (win0_10.rect t)).set
  rw [View.set_slice_whole, Rect.mem_set_unit]
  obtain ⟨e0, e1⟩ := idx_rows10 t
  have ht : t.val = (i 0).val / 1024 := rfl
  intro a
  match a with
  | ⟨0, _⟩ => show win0_10.index t (0 : Fin 2) * 1024 ≤ (i 0).val ∧ (i 0).val < win0_10.index t (0 : Fin 2) * 1024 + 1024; rw [e0]; omega
  | ⟨1, _⟩ => show win0_10.index t (1 : Fin 2) * 256 ≤ (i 1).val ∧ (i 1).val < win0_10.index t (1 : Fin 2) * 256 + 256; rw [e1]; omega

/-! ## The arrays after the run -/

theorem final_cell (c : Dev nD) : (dats m 0 c).arrAt 9 cfg0.N = cellG m c :=
  (dats m 0 c).arrAt_eq_of_cover 9 (cellG m c) (fun t _ => flushed_cell m c t) cover9

theorem final_hidden (c : Dev nD) : (dats m 0 c).arrAt 10 cfg0.N = hiddenG m c :=
  (dats m 0 c).arrAt_eq_of_cover 10 (hiddenG m c) (fun t _ => flushed_hidden m c t) cover10

/-- Every weakly fair execution ends with the first result at the cell states, the second at the hidden states, and the
    arguments as given. -/
theorem run : θ_run defs (onTc (τ := τ) (main (F := Ideal))) ⟨m, fun _ => 0, ρ⟩ (fun r => ∀ c : Dev nD,
      r.2.mem ((c.tc : Thread nD τ).loc main_v11_0) = cellG m c
      ∧ r.2.mem ((c.tc : Thread nD τ).loc main_v11_1) = hiddenG m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  (θ_run defs _ _).mono (fun _ h c => ⟨((h c).1 9).trans (final_cell m c), ((h c).1 10).trans (final_hidden m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c),
      ((h c).2 main_arg19 (Pipeline.mem_restRefs_of main_arg19 (by decide) (by decide))).trans (V_main_arg19 m c),
      ((h c).2 main_arg20 (Pipeline.mem_restRefs_of main_arg20 (by decide) (by decide))).trans (V_main_arg20 m c),
      ((h c).2 main_arg21 (Pipeline.mem_restRefs_of main_arg21 (by decide) (by decide))).trans (V_main_arg21 m c),
      ((h c).2 main_arg22 (Pipeline.mem_restRefs_of main_arg22 (by decide) (by decide))).trans (V_main_arg22 m c)⟩) (run_main (F := Ideal) m ρ)

end Cert.KernelIdeal.CellValue

end
-- ==== Proof.CellRef.lean ====
/-
  The reference program's two results, read at node `r` and hidden unit `q`, are the tree cell's new cell state and
  new hidden state of node `r`, over the same stacked and transposed weights the launch is handed.

  The reference multiplies the whole 131072 × 256 node arrays by the transposed stacks: at `(r, c)` a product is the sum
  over `k` of `a[r, k] · stack[k, c]`; the bias is spread over all rows; a gate's pre-activation takes the 256-column
  slice from column `o` on, reading column `o + q`; the logistic function is spelt `1 / (1 + exp (−t))` with the
  constant `1.0`, which is the number one. The stacks themselves (a joining of four or five square matrices along the
  rows, then a transposition) are never opened: the launch is handed the very same arrays.
-/
import proofs.«170559_j65017214926868_1_alg».proof.Proof.Gen.ReferenceIdeal.Read
import proofs.«170559_j65017214926868_1_alg».proof.Proof.CellSpec
import Idealize.ShloMosaic.Lib.IdealHost

noncomputable section

open scoped BigOperators

namespace Cert.ReferenceIdeal.CellRef

open Cert.ReferenceIdeal Cert.ReferenceIdeal.Gen Cert.ReferenceIdeal.Read Cert.TreeCell
open Idealize.ShloMosaic Idealize.ShloMosaic.ValueIdx

/-- `1 / (1 + exp (−t))` with both ones the constant `1.0` is the logistic function of `t`. -/
theorem sigma_spelt (t : EReal) :
    FloatOps.hostDivf (F := Ideal) (φ := .f32) (FloatOps.ofBits .f32 0x3F800000#32)
        (FloatOps.addf (FloatOps.ofBits .f32 0x3F800000#32) (FloatOps.hostUnary .exp (FloatOps.hostNegf t)))
      = Ideal.logistic t := by
  simp only [Ideal.ofBits_def, Ideal.ofBits_one_f32]
  rfl

/-! ## The three products -/

theorem xproj_ref (x0 : (⟨S131072x256, .f32⟩ : BufTy).Contents (Elt Ideal)) (x5 : (⟨S256x256, .f32⟩ : BufTy).Contents (Elt Ideal)) (x6 : (⟨S256, .f32⟩ : BufTy).Contents (Elt Ideal)) (x7 : (⟨S256x256, .f32⟩ : BufTy).Contents (Elt Ideal)) (x8 : (⟨S256, .f32⟩ : BufTy).Contents (Elt Ideal)) (x9 : (⟨S256x256, .f32⟩ : BufTy).Contents (Elt Ideal)) (x10 : (⟨S256, .f32⟩ : BufTy).Contents (Elt Ideal)) (x11 : (⟨S256x256, .f32⟩ : BufTy).Contents (Elt Ideal)) (x12 : (⟨S256, .f32⟩ : BufTy).Contents (Elt Ideal)) (r : Fin 131072) (c : Fin 1024) :
    val_main_v8 (F := Ideal) x0 x5 x6 x7 x8 x9 x10 x11 x12 (ix2 r c)
      = dotRow (fun k => x0 (ix2 r k)) (val_main_v4 (F := Ideal) x5 x7 x9 x11) c + val_main_v1 (F := Ideal) x6 x8 x10 x12 (ix1 c) := by
  rw [val_main_v8_apply, val_main_v5_apply, val_main_v7_apply, val_main_v6_apply]
  have hl : ∀ k : Fin 256, lidx_main_v5 (ix2 r c) k = ix2 r k := fun k => funext fun a => Fin.ext (by match a with | ⟨0, _⟩ => rfl | ⟨1, _⟩ => rfl)
  have hr : ∀ k : Fin 256, ridx_main_v5 (ix2 r c) k = ix2 k c := fun k => funext fun a => Fin.ext (by match a with | ⟨0, _⟩ => rfl | ⟨1, _⟩ => rfl)
  have hb : idx_main_v6 (idx_main_v7 (ix2 r c)) = ix1 c := funext fun a => Fin.ext (by match a with | ⟨0, _⟩ => rfl)
  simp only [hl, hr, hb]
  rfl

theorem lproj_ref (x2 : (⟨S131072x256, .f32⟩ : BufTy).Contents (Elt Ideal)) (x13 x15 x17 x19 x21 : (⟨S256x256, .f32⟩ : BufTy).Contents (Elt Ideal)) (r : Fin 131072) (c : Fin 1280) :
    val_main_v10 (F := Ideal) x2 x13 x15 x17 x19 x21 (ix2 r c) = dotRow (fun k => x2 (ix2 r k)) (val_main_v9 (F := Ideal) x13 x15 x17 x19 x21) c := by
  rw [val_main_v10_apply]
  have hl : ∀ k : Fin 256, lidx_main_v10 (ix2 r c) k = ix2 r k := fun k => funext fun a => Fin.ext (by match a with | ⟨0, _⟩ => rfl | ⟨1, _⟩ => rfl)
  have hr : ∀ k : Fin 256, ridx_main_v10 (ix2 r c) k = ix2 k c := fun k => funext fun a => Fin.ext (by match a with | ⟨0, _⟩ => rfl | ⟨1, _⟩ => rfl)
  simp only [hl, hr]
  rfl

theorem rproj_ref (x4 : (⟨S131072x256, .f32⟩ : BufTy).Contents (Elt Ideal)) (x14 x16 x18 x20 x22 : (⟨S256x256, .f32⟩ : BufTy).Contents (Elt Ideal)) (r : Fin 131072) (c : Fin 1280) :
    val_main_v12 (F := Ideal) x4 x14 x16 x18 x20 x22 (ix2 r c) = dotRow (fun k => x4 (ix2 r k)) (val_main_v11 (F := Ideal) x14 x16 x18 x20 x22) c := by
  rw [val_main_v12_apply]
  have hl : ∀ k : Fin 256, lidx_main_v12 (ix2 r c) k = ix2 r k := fun k => funext fun a => Fin.ext (by match a with | ⟨0, _⟩ => rfl | ⟨1, _⟩ => rfl)
  have hr : ∀ k : Fin 256, ridx_main_v12 (ix2 r c) k = ix2 k c := fun k => funext fun a => Fin.ext (by match a with | ⟨0, _⟩ => rfl | ⟨1, _⟩ => rfl)
  simp only [hl, hr]
  rfl

/-! ## The gate slices -/

theorem slice_v13 (x0 : (⟨S131072x256, .f32⟩ : BufTy).Contents (Elt Ideal)) (x5 : (⟨S256x256, .f32⟩ : BufTy).Contents (Elt Ideal)) (x6 : (⟨S256, .f32⟩ : BufTy).Contents (Elt Ideal)) (x7 : (⟨S256x256, .f32⟩ : BufTy).Contents (Elt Ideal)) (x8 : (⟨S256, .f32⟩ : BufTy).Contents (Elt Ideal)) (x9 : (⟨S256x256, .f32⟩ : BufTy).Contents (Elt Ideal)) (x10 : (⟨S256, .f32⟩ : BufTy).Contents (Elt Ideal)) (x11 : (⟨S256x256, .f32⟩ : BufTy).Contents (Elt Ideal)) (x12 : (⟨S256, .f32⟩ : BufTy).Contents (Elt Ideal)) (r : Fin 131072) (q : Fin 256) :
    val_main_v13 (F := Ideal) x0 x5 x6 x7 x8 x9 x10 x11 x12 (ix2 r q) = val_main_v8 (F := Ideal) x0 x5 x6 x7 x8 x9 x10 x11 x12 (ix2 r (col 1024 0 (by norm_num) q)) := by
  rw [val_main_v13_apply]
  exact congrArg _ (funext fun a => Fin.ext (by match a with | ⟨0, _⟩ => rfl | ⟨1, _⟩ => exact (Nat.zero_add _).symm))
theorem slice_v14 (x0 : (⟨S131072x256, .f32⟩ : BufTy).Contents (Elt Ideal)) (x5 : (⟨S256x256, .f32⟩ : BufTy).Contents (Elt Ideal)) (x6 : (⟨S256, .f32⟩ : BufTy).Contents (Elt Ideal)) (x7 : (⟨S256x256, .f32⟩ : BufTy).Contents (Elt Ideal)) (x8 : (⟨S256, .f32⟩ : BufTy).Contents (Elt Ideal)) (x9 : (⟨S256x256, .f32⟩ : BufTy).Contents (Elt Ideal)) (x10 : (⟨S256, .f32⟩ : BufTy).Contents (Elt Ideal)) (x11 : (⟨S256x256, .f32⟩ : BufTy).Contents (Elt Ideal)) (x12 : (⟨S256, .f32⟩ : BufTy).Contents (Elt Ideal)) (r : Fin 131072) (q : Fin 256) :
    val_main_v14 (F := Ideal) x0 x5 x6 x7 x8 x9 x10 x11 x12 (ix2 r q) = val_main_v8 (F := Ideal) x0 x5 x6 x7 x8 x9 x10 x11 x12 (ix2 r (col 1024 256 (by norm_num) q)) := by
  rw [val_main_v14_apply]
  exact congrArg _ (funext fun a => Fin.ext (by match a with | ⟨0, _⟩ => rfl | ⟨1, _⟩ => exact rfl))
theorem slice_v15 (x0 : (⟨S131072x256, .f32⟩ : BufTy).Contents (Elt Ideal)) (x5 : (⟨S256x256, .f32⟩ : BufTy).Contents (Elt Ideal)) (x6 : (⟨S256, .f32⟩ : BufTy).Contents (Elt Ideal)) (x7 : (⟨S256x256, .f32⟩ : BufTy).Contents (Elt Ideal)) (x8 : (⟨S256, .f32⟩ : BufTy).Contents (Elt Ideal)) (x9 : (⟨S256x256, .f32⟩ : BufTy).Contents (Elt Ideal)) (x10 : (⟨S256, .f32⟩ : BufTy).Contents (Elt Ideal)) (x11 : (⟨S256x256, .f32⟩ : BufTy).Contents (Elt Ideal)) (x12 : (⟨S256, .f32⟩ : BufTy).Contents (Elt Ideal)) (r : Fin 131072) (q : Fin 256) :
    val_main_v15 (F := Ideal) x0 x5 x6 x7 x8 x9 x10 x11 x12 (ix2 r q) = val_main_v8 (F := Ideal) x0 x5 x6 x7 x8 x9 x10 x11 x12 (ix2 r (col 1024 512 (by norm_num) q)) := by
  rw [val_main_v15_apply]
  exact congrArg _ (funext fun a => Fin.ext (by match a with | ⟨0, _⟩ => rfl | ⟨1, _⟩ => exact rfl))
theorem slice_v16 (x0 : (⟨S131072x256, .f32⟩ : BufTy).Contents (Elt Ideal)) (x5 : (⟨S256x256, .f32⟩ : BufTy).Contents (Elt Ideal)) (x6 : (⟨S256, .f32⟩ : BufTy).Contents (Elt Ideal)) (x7 : (⟨S256x256, .f32⟩ : BufTy).Contents (Elt Ideal)) (x8 : (⟨S256, .f32⟩ : BufTy).Contents (Elt Ideal)) (x9 : (⟨S256x256, .f32⟩ : BufTy).Contents (Elt Ideal)) (x10 : (⟨S256, .f32⟩ : BufTy).Contents (Elt Ideal)) (x11 : (⟨S256x256, .f32⟩ : BufTy).Contents (Elt Ideal)) (x12 : (⟨S256, .f32⟩ : BufTy).Contents (Elt Ideal)) (r : Fin 131072) (q : Fin 256) :
    val_main_v16 (F := Ideal) x0 x5 x6 x7 x8 x9 x10 x11 x12 (ix2 r q) = val_main_v8 (F := Ideal) x0 x5 x6 x7 x8 x9 x10 x11 x12 (ix2 r (col 1024 768 (by norm_num) q)) := by
  rw [val_main_v16_apply]
  exact congrArg _ (funext fun a => Fin.ext (by match a with | ⟨0, _⟩ => rfl | ⟨1, _⟩ => exact rfl))
theorem slice_v17 (x2 : (⟨S131072x256, .f32⟩ : BufTy).Contents (Elt Ideal)) (x13 x15 x17 x19 x21 : (⟨S256x256, .f32⟩ : BufTy).Contents (Elt Ideal)) (r : Fin 131072) (q : Fin 256) :
    val_main_v17 (F := Ideal) x2 x13 x15 x17 x19 x21 (ix2 r q) = val_main_v10 (F := Ideal) x2 x13 x15 x17 x19 x21 (ix2 r (col 1280 0 (by norm_num) q)) := by
  rw [val_main_v17_apply]
  exact congrArg _ (funext fun a => Fin.ext (by match a with | ⟨0, _⟩ => rfl | ⟨1, _⟩ => exact (Nat.zero_add _).symm))
theorem slice_v18 (x2 : (⟨S131072x256, .f32⟩ : BufTy).Contents (Elt Ideal)) (x13 x15 x17 x19 x21 : (⟨S256x256, .f32⟩ : BufTy).Contents (Elt Ideal)) (r : Fin 131072) (q : Fin 256) :
    val_main_v18 (F := Ideal) x2 x13 x15 x17 x19 x21 (ix2 r q) = val_main_v10 (F := Ideal) x2 x13 x15 x17 x19 x21 (ix2 r (col 1280 256 (by norm_num) q)) := by
  rw [val_main_v18_apply]
  exact congrArg _ (funext fun a => Fin.ext (by match a with | ⟨0, _⟩ => rfl | ⟨1, _⟩ => exact rfl))
theorem slice_v19 (x2 : (⟨S131072x256, .f32⟩ : BufTy).Contents (Elt Ideal)) (x13 x15 x17 x19 x21 : (⟨S256x256, .f32⟩ : BufTy).Contents (Elt Ideal)) (r : Fin 131072) (q : Fin 256) :
    val_main_v19 (F := Ideal) x2 x13 x15 x17 x19 x21 (ix2 r q) = val_main_v10 (F := Ideal) x2 x13 x15 x17 x19 x21 (ix2 r (col 1280 512 (by norm_num) q)) := by
  rw [val_main_v19_apply]
  exact congrArg _ (funext fun a => Fin.ext (by match a with | ⟨0, _⟩ => rfl | ⟨1, _⟩ => exact rfl))
theorem slice_v20 (x2 : (⟨S131072x256, .f32⟩ : BufTy).Contents (Elt Ideal)) (x13 x15 x17 x19 x21 : (⟨S256x256, .f32⟩ : BufTy).Contents (Elt Ideal)) (r : Fin 131072) (q : Fin 256) :
    val_main_v20 (F := Ideal) x2 x13 x15 x17 x19 x21 (ix2 r q) = val_main_v10 (F := Ideal) x2 x13 x15 x17 x19 x21 (ix2 r (col 1280 768 (by norm_num) q)) := by
  rw [val_main_v20_apply]
  exact congrArg _ (funext fun a => Fin.ext (by match a with | ⟨0, _⟩ => rfl | ⟨1, _⟩ => exact rfl))
theorem slice_v21 (x2 : (⟨S131072x256, .f32⟩ : BufTy).Contents (Elt Ideal)) (x13 x15 x17 x19 x21 : (⟨S256x256, .f32⟩ : BufTy).Contents (Elt Ideal)) (r : Fin 131072) (q : Fin 256) :
    val_main_v21 (F := Ideal) x2 x13 x15 x17 x19 x21 (ix2 r q) = val_main_v10 (F := Ideal) x2 x13 x15 x17 x19 x21 (ix2 r (col 1280 1024 (by norm_num) q)) := by
  rw [val_main_v21_apply]
  exact congrArg _ (funext fun a => Fin.ext (by match a with | ⟨0, _⟩ => rfl | ⟨1, _⟩ => exact rfl))
theorem slice_v22 (x4 : (⟨S131072x256, .f32⟩ : BufTy).Contents (Elt Ideal)) (x14 x16 x18 x20 x22 : (⟨S256x256, .f32⟩ : BufTy).Contents (Elt Ideal)) (r : Fin 131072) (q : Fin 256) :
    val_main_v22 (F := Ideal) x4 x14 x16 x18 x20 x22 (ix2 r q) = val_main_v12 (F := Ideal) x4 x14 x16 x18 x20 x22 (ix2 r (col 1280 0 (by norm_num) q)) := by
  rw [val_main_v22_apply]
  exact congrArg _ (funext fun a => Fin.ext (by match a with | ⟨0, _⟩ => rfl | ⟨1, _⟩ => exact (Nat.zero_add _).symm))
theorem slice_v23 (x4 : (⟨S131072x256, .f32⟩ : BufTy).Contents (Elt Ideal)) (x14 x16 x18 x20 x22 : (⟨S256x256, .f32⟩ : BufTy).Contents (Elt Ideal)) (r : Fin 131072) (q : Fin 256) :
    val_main_v23 (F := Ideal) x4 x14 x16 x18 x20 x22 (ix2 r q) = val_main_v12 (F := Ideal) x4 x14 x16 x18 x20 x22 (ix2 r (col 1280 256 (by norm_num) q)) := by
  rw [val_main_v23_apply]
  exact congrArg _ (funext fun a => Fin.ext (by match a with | ⟨0, _⟩ => rfl | ⟨1, _⟩ => exact rfl))
theorem slice_v24 (x4 : (⟨S131072x256, .f32⟩ : BufTy).Contents (Elt Ideal)) (x14 x16 x18 x20 x22 : (⟨S256x256, .f32⟩ : BufTy).Contents (Elt Ideal)) (r : Fin 131072) (q : Fin 256) :
    val_main_v24 (F := Ideal) x4 x14 x16 x18 x20 x22 (ix2 r q) = val_main_v12 (F := Ideal) x4 x14 x16 x18 x20 x22 (ix2 r (col 1280 512 (by norm_num) q)) := by
  rw [val_main_v24_apply]
  exact congrArg _ (funext fun a => Fin.ext (by match a with | ⟨0, _⟩ => rfl | ⟨1, _⟩ => exact rfl))
theorem slice_v25 (x4 : (⟨S131072x256, .f32⟩ : BufTy).Contents (Elt Ideal)) (x14 x16 x18 x20 x22 : (⟨S256x256, .f32⟩ : BufTy).Contents (Elt Ideal)) (r : Fin 131072) (q : Fin 256) :
    val_main_v25 (F := Ideal) x4 x14 x16 x18 x20 x22 (ix2 r q) = val_main_v12 (F := Ideal) x4 x14 x16 x18 x20 x22 (ix2 r (col 1280 768 (by norm_num) q)) := by
  rw [val_main_v25_apply]
  exact congrArg _ (funext fun a => Fin.ext (by match a with | ⟨0, _⟩ => rfl | ⟨1, _⟩ => exact rfl))
theorem slice_v26 (x4 : (⟨S131072x256, .f32⟩ : BufTy).Contents (Elt Ideal)) (x14 x16 x18 x20 x22 : (⟨S256x256, .f32⟩ : BufTy).Contents (Elt Ideal)) (r : Fin 131072) (q : Fin 256) :
    val_main_v26 (F := Ideal) x4 x14 x16 x18 x20 x22 (ix2 r q) = val_main_v12 (F := Ideal) x4 x14 x16 x18 x20 x22 (ix2 r (col 1280 1024 (by norm_num) q)) := by
  rw [val_main_v26_apply]
  exact congrArg _ (funext fun a => Fin.ext (by match a with | ⟨0, _⟩ => rfl | ⟨1, _⟩ => exact rfl))

/-! ## The five pre-activations -/

theorem gate_u (x0 x2 x4 : (⟨S131072x256, .f32⟩ : BufTy).Contents (Elt Ideal)) (x5 : (⟨S256x256, .f32⟩ : BufTy).Contents (Elt Ideal)) (x6 : (⟨S256, .f32⟩ : BufTy).Contents (Elt Ideal)) (x7 : (⟨S256x256, .f32⟩ : BufTy).Contents (Elt Ideal)) (x8 : (⟨S256, .f32⟩ : BufTy).Contents (Elt Ideal)) (x9 : (⟨S256x256, .f32⟩ : BufTy).Contents (Elt Ideal)) (x10 : (⟨S256, .f32⟩ : BufTy).Contents (Elt Ideal)) (x11 : (⟨S256x256, .f32⟩ : BufTy).Contents (Elt Ideal)) (x12 : (⟨S256, .f32⟩ : BufTy).Contents (Elt Ideal)) (x13 x14 x15 x16 x17 x18 x19 x20 x21 x22 : (⟨S256x256, .f32⟩ : BufTy).Contents (Elt Ideal)) (r : Fin 131072) (q : Fin 256) :
    val_main_v28 (F := Ideal) x0 x2 x4 x5 x6 x7 x8 x9 x10 x11 x12 x13 x14 x15 x16 x17 x18 x19 x20 x21 x22 (ix2 r q)
      = gatePre (fun k => x0 (ix2 r k)) (fun k => x2 (ix2 r k)) (fun k => x4 (ix2 r k)) (val_main_v4 (F := Ideal) x5 x7 x9 x11) (fun c : Fin 1024 => val_main_v1 (F := Ideal) x6 x8 x10 x12 (ix1 c)) (val_main_v9 (F := Ideal) x13 x15 x17 x19 x21) (val_main_v11 (F := Ideal) x14 x16 x18 x20 x22) (col 1024 0 (by norm_num) q) (col 1280 0 (by norm_num) q) := by
  rw [val_main_v28_apply, val_main_v27_apply, slice_v13, slice_v17, slice_v22, xproj_ref, lproj_ref, rproj_ref]
  rfl
theorem gate_i (x0 x2 x4 : (⟨S131072x256, .f32⟩ : BufTy).Contents (Elt Ideal)) (x5 : (⟨S256x256, .f32⟩ : BufTy).Contents (Elt Ideal)) (x6 : (⟨S256, .f32⟩ : BufTy).Contents (Elt Ideal)) (x7 : (⟨S256x256, .f32⟩ : BufTy).Contents (Elt Ideal)) (x8 : (⟨S256, .f32⟩ : BufTy).Contents (Elt Ideal)) (x9 : (⟨S256x256, .f32⟩ : BufTy).Contents (Elt Ideal)) (x10 : (⟨S256, .f32⟩ : BufTy).Contents (Elt Ideal)) (x11 : (⟨S256x256, .f32⟩ : BufTy).Contents (Elt Ideal)) (x12 : (⟨S256, .f32⟩ : BufTy).Contents (Elt Ideal)) (x13 x14 x15 x16 x17 x18 x19 x20 x21 x22 : (⟨S256x256, .f32⟩ : BufTy).Contents (Elt Ideal)) (r : Fin 131072) (q : Fin 256) :
    val_main_v31 (F := Ideal) x0 x2 x4 x5 x6 x7 x8 x9 x10 x11 x12 x13 x14 x15 x16 x17 x18 x19 x20 x21 x22 (ix2 r q)
      = gatePre (fun k => x0 (ix2 r k)) (fun k => x2 (ix2 r k)) (fun k => x4 (ix2 r k)) (val_main_v4 (F := Ideal) x5 x7 x9 x11) (fun c : Fin 1024 => val_main_v1 (F := Ideal) x6 x8 x10 x12 (ix1 c)) (val_main_v9 (F := Ideal) x13 x15 x17 x19 x21) (val_main_v11 (F := Ideal) x14 x16 x18 x20 x22) (col 1024 256 (by norm_num) q) (col 1280 256 (by norm_num) q) := by
  rw [val_main_v31_apply, val_main_v30_apply, slice_v14, slice_v18, slice_v23, xproj_ref, lproj_ref, rproj_ref]
  rfl
theorem gate_lf (x0 x2 x4 : (⟨S131072x256, .f32⟩ : BufTy).Contents (Elt Ideal)) (x5 : (⟨S256x256, .f32⟩ : BufTy).Contents (Elt Ideal)) (x6 : (⟨S256, .f32⟩ : BufTy).Contents (Elt Ideal)) (x7 : (⟨S256x256, .f32⟩ : BufTy).Contents (Elt Ideal)) (x8 : (⟨S256, .f32⟩ : BufTy).Contents (Elt Ideal)) (x9 : (⟨S256x256, .f32⟩ : BufTy).Contents (Elt Ideal)) (x10 : (⟨S256, .f32⟩ : BufTy).Contents (Elt Ideal)) (x11 : (⟨S256x256, .f32⟩ : BufTy).Contents (Elt Ideal)) (x12 : (⟨S256, .f32⟩ : BufTy).Contents (Elt Ideal)) (x13 x14 x15 x16 x17 x18 x19 x20 x21 x22 : (⟨S256x256, .f32⟩ : BufTy).Contents (Elt Ideal)) (r : Fin 131072) (q : Fin 256) :
    val_main_v39 (F := Ideal) x0 x2 x4 x5 x6 x7 x8 x9 x10 x11 x12 x13 x14 x15 x16 x17 x18 x19 x20 x21 x22 (ix2 r q)
      = gatePre (fun k => x0 (ix2 r k)) (fun k => x2 (ix2 r k)) (fun k => x4 (ix2 r k)) (val_main_v4 (F := Ideal) x5 x7 x9 x11) (fun c : Fin 1024 => val_main_v1 (F := Ideal) x6 x8 x10 x12 (ix1 c)) (val_main_v9 (F := Ideal) x13 x15 x17 x19 x21) (val_main_v11 (F := Ideal) x14 x16 x18 x20 x22) (col 1024 512 (by norm_num) q) (col 1280 512 (by norm_num) q) := by
  rw [val_main_v39_apply, val_main_v38_apply, slice_v15, slice_v19, slice_v24, xproj_ref, lproj_ref, rproj_ref]
  rfl
theorem gate_rf (x0 x2 x4 : (⟨S131072x256, .f32⟩ : BufTy).Contents (Elt Ideal)) (x5 : (⟨S256x256, .f32⟩ : BufTy).Contents (Elt Ideal)) (x6 : (⟨S256, .f32⟩ : BufTy).Contents (Elt Ideal)) (x7 : (⟨S256x256, .f32⟩ : BufTy).Contents (Elt Ideal)) (x8 : (⟨S256, .f32⟩ : BufTy).Contents (Elt Ideal)) (x9 : (⟨S256x256, .f32⟩ : BufTy).Contents (Elt Ideal)) (x10 : (⟨S256, .f32⟩ : BufTy).Contents (Elt Ideal)) (x11 : (⟨S256x256, .f32⟩ : BufTy).Contents (Elt Ideal)) (x12 : (⟨S256, .f32⟩ : BufTy).Contents (Elt Ideal)) (x13 x14 x15 x16 x17 x18 x19 x20 x21 x22 : (⟨S256x256, .f32⟩ : BufTy).Contents (Elt Ideal)) (r : Fin 131072) (q : Fin 256) :
    val_main_v47 (F := Ideal) x0 x2 x4 x5 x6 x7 x8 x9 x10 x11 x12 x13 x14 x15 x16 x17 x18 x19 x20 x21 x22 (ix2 r q)
      = gatePre (fun k => x0 (ix2 r k)) (fun k => x2 (ix2 r k)) (fun k => x4 (ix2 r k)) (val_main_v4 (F := Ideal) x5 x7 x9 x11) (fun c : Fin 1024 => val_main_v1 (F := Ideal) x6 x8 x10 x12 (ix1 c)) (val_main_v9 (F := Ideal) x13 x15 x17 x19 x21) (val_main_v11 (F := Ideal) x14 x16 x18 x20 x22) (col 1024 512 (by norm_num) q) (col 1280 768 (by norm_num) q) := by
  rw [val_main_v47_apply, val_main_v46_apply, slice_v15, slice_v20, slice_v25, xproj_ref, lproj_ref, rproj_ref]
  rfl
theorem gate_o (x0 x2 x4 : (⟨S131072x256, .f32⟩ : BufTy).Contents (Elt Ideal)) (x5 : (⟨S256x256, .f32⟩ : BufTy).Contents (Elt Ideal)) (x6 : (⟨S256, .f32⟩ : BufTy).Contents (Elt Ideal)) (x7 : (⟨S256x256, .f32⟩ : BufTy).Contents (Elt Ideal)) (x8 : (⟨S256, .f32⟩ : BufTy).Contents (Elt Ideal)) (x9 : (⟨S256x256, .f32⟩ : BufTy).Contents (Elt Ideal)) (x10 : (⟨S256, .f32⟩ : BufTy).Contents (Elt Ideal)) (x11 : (⟨S256x256, .f32⟩ : BufTy).Contents (Elt Ideal)) (x12 : (⟨S256, .f32⟩ : BufTy).Contents (Elt Ideal)) (x13 x14 x15 x16 x17 x18 x19 x20 x21 x22 : (⟨S256x256, .f32⟩ : BufTy).Contents (Elt Ideal)) (r : Fin 131072) (q : Fin 256) :
    val_main_v60 (F := Ideal) x0 x2 x4 x5 x6 x7 x8 x9 x10 x11 x12 x13 x14 x15 x16 x17 x18 x19 x20 x21 x22 (ix2 r q)
      = gatePre (fun k => x0 (ix2 r k)) (fun k => x2 (ix2 r k)) (fun k => x4 (ix2 r k)) (val_main_v4 (F := Ideal) x5 x7 x9 x11) (fun c : Fin 1024 => val_main_v1 (F := Ideal) x6 x8 x10 x12 (ix1 c)) (val_main_v9 (F := Ideal) x13 x15 x17 x19 x21) (val_main_v11 (F := Ideal) x14 x16 x18 x20 x22) (col 1024 768 (by norm_num) q) (col 1280 1024 (by norm_num) q) := by
  rw [val_main_v60_apply, val_main_v59_apply, slice_v16, slice_v21, slice_v26, xproj_ref, lproj_ref, rproj_ref]
  rfl

/-! ## The four logistic gates -/

theorem sigma_i (x0 x2 x4 : (⟨S131072x256, .f32⟩ : BufTy).Contents (Elt Ideal)) (x5 : (⟨S256x256, .f32⟩ : BufTy).Contents (Elt Ideal)) (x6 : (⟨S256, .f32⟩ : BufTy).Contents (Elt Ideal)) (x7 : (⟨S256x256, .f32⟩ : BufTy).Contents (Elt Ideal)) (x8 : (⟨S256, .f32⟩ : BufTy).Contents (Elt Ideal)) (x9 : (⟨S256x256, .f32⟩ : BufTy).Contents (Elt Ideal)) (x10 : (⟨S256, .f32⟩ : BufTy).Contents (Elt Ideal)) (x11 : (⟨S256x256, .f32⟩ : BufTy).Contents (Elt Ideal)) (x12 : (⟨S256, .f32⟩ : BufTy).Contents (Elt Ideal)) (x13 x14 x15 x16 x17 x18 x19 x20 x21 x22 : (⟨S256x256, .f32⟩ : BufTy).Contents (Elt Ideal)) (i : S131072x256.Idx) :
    val_main_v37 (F := Ideal) x0 x2 x4 x5 x6 x7 x8 x9 x10 x11 x12 x13 x14 x15 x16 x17 x18 x19 x20 x21 x22 i = Ideal.logistic (val_main_v31 (F := Ideal) x0 x2 x4 x5 x6 x7 x8 x9 x10 x11 x12 x13 x14 x15 x16 x17 x18 x19 x20 x21 x22 i) := by
  rw [val_main_v37_apply, val_main_v36_apply, val_main_cst_0_apply, val_main_v35_apply, val_main_v34_apply, val_main_cst_apply, val_main_v33_apply, val_main_v32_apply]
  exact sigma_spelt _
theorem sigma_lf (x0 x2 x4 : (⟨S131072x256, .f32⟩ : BufTy).Contents (Elt Ideal)) (x5 : (⟨S256x256, .f32⟩ : BufTy).Contents (Elt Ideal)) (x6 : (⟨S256, .f32⟩ : BufTy).Contents (Elt Ideal)) (x7 : (⟨S256x256, .f32⟩ : BufTy).Contents (Elt Ideal)) (x8 : (⟨S256, .f32⟩ : BufTy).Contents (Elt Ideal)) (x9 : (⟨S256x256, .f32⟩ : BufTy).Contents (Elt Ideal)) (x10 : (⟨S256, .f32⟩ : BufTy).Contents (Elt Ideal)) (x11 : (⟨S256x256, .f32⟩ : BufTy).Contents (Elt Ideal)) (x12 : (⟨S256, .f32⟩ : BufTy).Contents (Elt Ideal)) (x13 x14 x15 x16 x17 x18 x19 x20 x21 x22 : (⟨S256x256, .f32⟩ : BufTy).Contents (Elt Ideal)) (i : S131072x256.Idx) :
    val_main_v45 (F := Ideal) x0 x2 x4 x5 x6 x7 x8 x9 x10 x11 x12 x13 x14 x15 x16 x17 x18 x19 x20 x21 x22 i = Ideal.logistic (val_main_v39 (F := Ideal) x0 x2 x4 x5 x6 x7 x8 x9 x10 x11 x12 x13 x14 x15 x16 x17 x18 x19 x20 x21 x22 i) := by
  rw [val_main_v45_apply, val_main_v44_apply, val_main_cst_2_apply, val_main_v43_apply, val_main_v42_apply, val_main_cst_1_apply, val_main_v41_apply, val_main_v40_apply]
  exact sigma_spelt _
theorem sigma_rf (x0 x2 x4 : (⟨S131072x256, .f32⟩ : BufTy).Contents (Elt Ideal)) (x5 : (⟨S256x256, .f32⟩ : BufTy).Contents (Elt Ideal)) (x6 : (⟨S256, .f32⟩ : BufTy).Contents (Elt Ideal)) (x7 : (⟨S256x256, .f32⟩ : BufTy).Contents (Elt Ideal)) (x8 : (⟨S256, .f32⟩ : BufTy).Contents (Elt Ideal)) (x9 : (⟨S256x256, .f32⟩ : BufTy).Contents (Elt Ideal)) (x10 : (⟨S256, .f32⟩ : BufTy).Contents (Elt Ideal)) (x11 : (⟨S256x256, .f32⟩ : BufTy).Contents (Elt Ideal)) (x12 : (⟨S256, .f32⟩ : BufTy).Contents (Elt Ideal)) (x13 x14 x15 x16 x17 x18 x19 x20 x21 x22 : (⟨S256x256, .f32⟩ : BufTy).Contents (Elt Ideal)) (i : S131072x256.Idx) :
    val_main_v53 (F := Ideal) x0 x2 x4 x5 x6 x7 x8 x9 x10 x11 x12 x13 x14 x15 x16 x17 x18 x19 x20 x21 x22 i = Ideal.logistic (val_main_v47 (F := Ideal) x0 x2 x4 x5 x6 x7 x8 x9 x10 x11 x12 x13 x14 x15 x16 x17 x18 x19 x20 x21 x22 i) := by
  rw [val_main_v53_apply, val_main_v52_apply, val_main_cst_4_apply, val_main_v51_apply, val_main_v50_apply, val_main_cst_3_apply, val_main_v49_apply, val_main_v48_apply]
  exact sigma_spelt _
theorem sigma_o (x0 x2 x4 : (⟨S131072x256, .f32⟩ : BufTy).Contents (Elt Ideal)) (x5 : (⟨S256x256, .f32⟩ : BufTy).Contents (Elt Ideal)) (x6 : (⟨S256, .f32⟩ : BufTy).Contents (Elt Ideal)) (x7 : (⟨S256x256, .f32⟩ : BufTy).Contents (Elt Ideal)) (x8 : (⟨S256, .f32⟩ : BufTy).Contents (Elt Ideal)) (x9 : (⟨S256x256, .f32⟩ : BufTy).Contents (Elt Ideal)) (x10 : (⟨S256, .f32⟩ : BufTy).Contents (Elt Ideal)) (x11 : (⟨S256x256, .f32⟩ : BufTy).Contents (Elt Ideal)) (x12 : (⟨S256, .f32⟩ : BufTy).Contents (Elt Ideal)) (x13 x14 x15 x16 x17 x18 x19 x20 x21 x22 : (⟨S256x256, .f32⟩ : BufTy).Contents (Elt Ideal)) (i : S131072x256.Idx) :
    val_main_v66 (F := Ideal) x0 x2 x4 x5 x6 x7 x8 x9 x10 x11 x12 x13 x14 x15 x16 x17 x18 x19 x20 x21 x22 i = Ideal.logistic (val_main_v60 (F := Ideal) x0 x2 x4 x5 x6 x7 x8 x9 x10 x11 x12 x13 x14 x15 x16 x17 x18 x19 x20 x21 x22 i) := by
  rw [val_main_v66_apply, val_main_v65_apply, val_main_cst_6_apply, val_main_v64_apply, val_main_v63_apply, val_main_cst_5_apply, val_main_v62_apply, val_main_v61_apply]
  exact sigma_spelt _

/-! ## The two results -/

/-- The reference's first result at `(r, q)`: the new cell state of node `r` at hidden unit `q`. -/
theorem cell_ref (x0 x1 x2 x3 x4 : (⟨S131072x256, .f32⟩ : BufTy).Contents (Elt Ideal)) (x5 : (⟨S256x256, .f32⟩ : BufTy).Contents (Elt Ideal)) (x6 : (⟨S256, .f32⟩ : BufTy).Contents (Elt Ideal)) (x7 : (⟨S256x256, .f32⟩ : BufTy).Contents (Elt Ideal)) (x8 : (⟨S256, .f32⟩ : BufTy).Contents (Elt Ideal)) (x9 : (⟨S256x256, .f32⟩ : BufTy).Contents (Elt Ideal)) (x10 : (⟨S256, .f32⟩ : BufTy).Contents (Elt Ideal)) (x11 : (⟨S256x256, .f32⟩ : BufTy).Contents (Elt Ideal)) (x12 : (⟨S256, .f32⟩ : BufTy).Contents (Elt Ideal)) (x13 x14 x15 x16 x17 x18 x19 x20 x21 x22 : (⟨S256x256, .f32⟩ : BufTy).Contents (Elt Ideal)) (r : Fin 131072) (q : Fin 256) :
    val_main_v58 (F := Ideal) x0 x1 x2 x3 x4 x5 x6 x7 x8 x9 x10 x11 x12 x13 x14 x15 x16 x17 x18 x19 x20 x21 x22 (ix2 r q) = cellArr x0 x1 x2 x3 x4 (val_main_v4 (F := Ideal) x5 x7 x9 x11) (fun c : Fin 1024 => val_main_v1 (F := Ideal) x6 x8 x10 x12 (ix1 c)) (val_main_v9 (F := Ideal) x13 x15 x17 x19 x21) (val_main_v11 (F := Ideal) x14 x16 x18 x20 x22) r q := by
  rw [val_main_v58_apply, val_main_v56_apply, val_main_v57_apply, val_main_v54_apply, val_main_v55_apply, val_main_v29_apply,
    sigma_i, sigma_lf, sigma_rf, gate_i, gate_lf, gate_rf, gate_u]
  rfl

/-- The reference's second result at `(r, q)`: the new hidden state of node `r` at hidden unit `q`. -/
theorem hidden_ref (x0 x1 x2 x3 x4 : (⟨S131072x256, .f32⟩ : BufTy).Contents (Elt Ideal)) (x5 : (⟨S256x256, .f32⟩ : BufTy).Contents (Elt Ideal)) (x6 : (⟨S256, .f32⟩ : BufTy).Contents (Elt Ideal)) (x7 : (⟨S256x256, .f32⟩ : BufTy).Contents (Elt Ideal)) (x8 : (⟨S256, .f32⟩ : BufTy).Contents (Elt Ideal)) (x9 : (⟨S256x256, .f32⟩ : BufTy).Contents (Elt Ideal)) (x10 : (⟨S256, .f32⟩ : BufTy).Contents (Elt Ideal)) (x11 : (⟨S256x256, .f32⟩ : BufTy).Contents (Elt Ideal)) (x12 : (⟨S256, .f32⟩ : BufTy).Contents (Elt Ideal)) (x13 x14 x15 x16 x17 x18 x19 x20 x21 x22 : (⟨S256x256, .f32⟩ : BufTy).Contents (Elt Ideal)) (r : Fin 131072) (q : Fin 256) :
    val_main_v68 (F := Ideal) x0 x1 x2 x3 x4 x5 x6 x7 x8 x9 x10 x11 x12 x13 x14 x15 x16 x17 x18 x19 x20 x21 x22 (ix2 r q) = hiddenArr x0 x1 x2 x3 x4 (val_main_v4 (F := Ideal) x5 x7 x9 x11) (fun c : Fin 1024 => val_main_v1 (F := Ideal) x6 x8 x10 x12 (ix1 c)) (val_main_v9 (F := Ideal) x13 x15 x17 x19 x21) (val_main_v11 (F := Ideal) x14 x16 x18 x20 x22) r q := by
  rw [val_main_v68_apply, val_main_v67_apply, sigma_o, gate_o, cell_ref]
  rfl

end Cert.ReferenceIdeal.CellRef

end
-- ==== Proof.lean ====
/-
  A binary-tree LSTM cell over 131072 nodes of width 256: one launch over 128 blocks of 1024 nodes against the same
  cell written with whole-array operations.

  Both programs stack the four input projections (candidate, input, forget, output) and, per child, the five hidden
  projections (candidate, input, left forget, right forget, output) along the rows and transpose the stacks; the launch
  is handed them narrowed, which changes no entry over the extended reals. For node `r` and hidden unit `q` both compute,
  with `pre(a, d) = (x[r] · Wx[:, a + q] + b[a + q]) + hₗ[r] · Ul[:, d + q] + hᵣ[r] · Ur[:, d + q]`,
      c[r, q] = σ(pre(256, 256)) · tanh(pre(0, 0)) + σ(pre(512, 512)) · cₗ[r, q] + σ(pre(512, 768)) · cᵣ[r, q]
      h[r, q] = σ(pre(768, 1024)) · tanh(c[r, q]).
  The launch's product of a 1024-row block into an all-zero accumulator and the whole-array product are the same sum
  over the 256 contracted entries, row by row, since the contraction lies whole inside a block; the reference's
  `1 / (1 + exp (−t))` is the logistic function the launch applies. Every sum and product stands in the same order on
  both sides, so the equality needs no finiteness of the inputs. The launch's blocks tile the rows, so its two result
  arrays are these two functions everywhere; no host operation and no window writes an argument array.
-/
import proofs.«170559_j65017214926868_1_alg».proof.Defs
import proofs.«170559_j65017214926868_1_alg».proof.Proof.Gen.Kernel
import proofs.«170559_j65017214926868_1_alg».proof.Proof.Gen.KernelIdeal
import proofs.«170559_j65017214926868_1_alg».proof.Proof.Gen.ReferenceIdeal
import proofs.«170559_j65017214926868_1_alg».proof.Proof.Gen.Pre_finite_inputs
import proofs.«170559_j65017214926868_1_alg».proof.Proof.Gen.ReferenceIdeal.Run
import proofs.«170559_j65017214926868_1_alg».proof.Proof.Gen.ReferenceIdeal.Read
import proofs.«170559_j65017214926868_1_alg».proof.Proof.CellFrameBits
import proofs.«170559_j65017214926868_1_alg».proof.Proof.CellValue
import proofs.«170559_j65017214926868_1_alg».proof.Proof.CellRef
import Idealize.ShloMosaic.Adequacy
import Idealize.ShloMosaic.Init

noncomputable section

namespace Cert.Proof

open Idealize.ShloMosaic Idealize.ShloMosaic.ValueIdx Idealize.SL.Sem

/-- The word-level launch runs to its end and leaves its arguments as given. -/
theorem frame_k : Cert.frame_Kernel := fun m ρ _ => Cert.Kernel.CellFrame.frame m ρ

/-- So does the launch over the extended reals. -/
theorem frame_ki : Cert.frame_KernelIdeal := fun m ρ _ => Cert.KernelIdeal.CellFrame.frame m ρ

/-- The whole-array program runs to its end; its run names both results and keeps the arguments. -/
theorem frame_r : Cert.frame_ReferenceIdeal := fun m ρ _ =>
  (θ_run Cert.ReferenceIdeal.defs _ _).mono (fun _ h c => (h c).2.2) (Cert.ReferenceIdeal.Value.run (F := Ideal) m ρ)

/-- The whole-array program's first result, computed from the launch's own argument arrays, is the launch's cell-state
    array: at node `r` and hidden unit `q` both are the cell over the same stacks. -/
theorem cell_pair (m : (ℓ : Loc Cert.KernelIdeal.nD Cert.KernelIdeal.τ Cert.KernelIdeal.sig) → Buf (Elt Ideal) ℓ) (c : Dev Cert.KernelIdeal.nD) :
    Cert.ReferenceIdeal.Read.val_main_v58 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))
      = Cert.KernelIdeal.CellValue.cellG m c := by
  funext i
  obtain ⟨r, q, rfl⟩ : ∃ (r : Fin 131072) (q : Fin 256), i = ix2 r q := ⟨i 0, i 1, eq_ix2 i⟩
  rw [Cert.ReferenceIdeal.CellRef.cell_ref]
  rfl

/-- The same for the second result and the hidden-state array. -/
theorem hidden_pair (m : (ℓ : Loc Cert.KernelIdeal.nD Cert.KernelIdeal.τ Cert.KernelIdeal.sig) → Buf (Elt Ideal) ℓ) (c : Dev Cert.KernelIdeal.nD) :
    Cert.ReferenceIdeal.Read.val_main_v68 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))
      = Cert.KernelIdeal.CellValue.hiddenG m c := by
  funext i
  obtain ⟨r, q, rfl⟩ : ∃ (r : Fin 131072) (q : Fin 256), i = ix2 r q := ⟨i 0, i 1, eq_ix2 i⟩
  rw [Cert.ReferenceIdeal.CellRef.hidden_ref]
  rfl

set_option maxHeartbeats 4000000 in
/-- From memories that agree on the twenty-three arguments, both programs end with the cell states in their first
    result and the hidden states in their second. -/
theorem algebraic : Cert.algebraic_KernelIdeal_ReferenceIdeal := by
  intro m ρ m' ρ' _ hagree
  refine ⟨fun c => Cert.KernelIdeal.CellValue.cellG m c, fun c => Cert.KernelIdeal.CellValue.hiddenG m c,
    Cert.KernelIdeal.CellValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨h0, h1, h2, h3, h4, h5, h6, h7, h8, h9, h10, h11, h12, h13, h14, h15, h16, h17, h18, h19, h20, h21, h22⟩ := hagree c
    rw [Cert.ReferenceIdeal.Read.val_main_v58_eq, h0, h1, h2, h3, h4, h5, h6, h7, h8, h9, h10, h11, h12, h13, h14, h15, h16, h17, h18, h19, h20, h21, h22]
    exact cell_pair m c
  · obtain ⟨h0, h1, h2, h3, h4, h5, h6, h7, h8, h9, h10, h11, h12, h13, h14, h15, h16, h17, h18, h19, h20, h21, h22⟩ := hagree c
    rw [Cert.ReferenceIdeal.Read.val_main_v68_eq, h0, h1, h2, h3, h4, h5, h6, h7, h8, h9, h10, h11, h12, h13, h14, h15, h16, h17, h18, h19, h20, h21, h22]
    exact hidden_pair m c

theorem claim : Cert.Claim :=
  ⟨Cert.Kernel.Gen.facts, Cert.KernelIdeal.Gen.facts, Cert.ReferenceIdeal.Gen.facts, Cert.Pre_finite_inputs.Gen.facts,
    frame_k, frame_ki, frame_r, trivial, algebraic⟩

end Cert.Proof

end
